-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x10 : Shape := ⟨2, ![262144, 10]⟩
abbrev S2x4194304 : Shape := ⟨2, ![2, 4194304]⟩
abbrev S262144 : Shape := ⟨1, ![262144]⟩
abbrev S10x32 : Shape := ⟨2, ![10, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S262144x10 : S_.BroadcastsInDim S262144x10 (![] : Fin 0 → Fin S262144x10.rank)
  reducesTo_S262144x10_S_d0_1 : S262144x10.ReducesTo [0, 1] S_
  h_S_ : 0 < S_.numel
  bcast_S_S10x32 : S_.BroadcastsInDim S10x32 (![] : Fin 0 → Fin S10x32.rank)
  reducesTo_S10x32_S_d0_1 : S10x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32 .f32) (main_arg7 : FVec F S32x1 .f32) (main_arg8 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg7
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S262144x10 .f32) (main_arg1 : IVec S2x4194304 32) (main_arg2 : IVec S262144 32) (main_arg3 : FVec F S10x32 .f32) (main_arg4 : FVec F S32 .f32) (main_arg5 : FVec F S32x32 .f32) (main_arg6 : FVec F S32 .f32) (main_arg7 : FVec F S32x1 .f32) (main_arg8 : FVec F S1 .f32) : IVec S_ 1 :=
  let main_v0 : FVec F S262144x10 .f32 := Host.absf main_arg0
  let main_cst : FVec F S_ .f32 := constant S_ .f32 0x7F800000#32
  let main_v1 : FVec F S262144x10 .f32 := broadcastInDim S262144x10 ![] bcast_S_S262144x10 main_cst
  let main_v2 : IVec S262144x10 1 := cmpf .olt main_v0 main_v1
  let main_c : IVec S_ 1 := constantI S_ 1 1#1
  let main_v3 : IVec S_ 1 := (fun x v => Host.reduce IntOp.andi x v reducesTo_S262144x10_S_d0_1 h_S_) main_v2 main_c
  let main_v4 : FVec F S10x32 .f32 := Host.absf main_arg3
  let main_cst_0 : FVec F S_ .f32 := constant S_ .f32 0x7F800000#32
  let main_v5 : FVec F S10x32 .f32 := broadcastInDim S10x32 ![] bcast_S_S10x32 main_cst_0
  let main_v6 : IVec S10x32 1 := cmpf .olt main_v4 main_v5
  let main_c_1 : IVec S_ 1 := constantI S_ 1 1#1
  let main_v7 : IVec S_ 1 := (fun x v => Host.reduce IntOp.andi x v reducesTo_S10x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_v13 main_v16
-- ==== Kernel.lean ====
abbrev S262144x10 : Shape := ⟨2, ![262144, 10]⟩
abbrev S2x4194304 : Shape := ⟨2, ![2, 4194304]⟩
abbrev S262144 : Shape := ⟨1, ![262144]⟩
abbrev S10x32 : Shape := ⟨2, ![10, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x4194304 : Shape := ⟨2, ![1, 4194304]⟩
abbrev S4194304 : Shape := ⟨1, ![4194304]⟩
abbrev S4456448 : Shape := ⟨1, ![4456448]⟩
abbrev S_ : Shape := ⟨0, ![]⟩
abbrev S4456448x1 : Shape := ⟨2, ![4456448, 1]⟩
abbrev S262144x32 : Shape := ⟨2, ![262144, 32]⟩
abbrev S8192x10 : Shape := ⟨2, ![8192, 10]⟩
abbrev S8192x32 : Shape := ⟨2, ![8192, 32]⟩
abbrev S4456448x32 : Shape := ⟨2, ![4456448, 32]⟩
abbrev S1x32 : Shape := ⟨2, ![1, 32]⟩
abbrev S1x262144 : Shape := ⟨2, ![1, 262144]⟩
abbrev S1024x32 : Shape := ⟨2, ![1024, 32]⟩
abbrev S2048x32 : Shape := ⟨2, ![2048, 32]⟩
abbrev S1x2048 : Shape := ⟨2, ![1, 2048]⟩
abbrev S1024x1 : Shape := ⟨2, ![1024, 1]⟩
abbrev S1024x2048 : Shape := ⟨2, ![1024, 2048]⟩
abbrev S2048x1 : Shape := ⟨2, ![2048, 1]⟩
abbrev S1x1 : Shape := ⟨2, ![1, 1]⟩
abbrev S1024 : Shape := ⟨1, ![1024]⟩

abbrev nBuf : Space → Nat
  | .hbm => 94
  | .vmem => 27
  | .smem => 0
  | _ => 0

abbrev bufTy : (tb : Table) → Fin (tcTables nBuf tb) → BufTy
  | .hbm, ⟨0, _⟩ => ⟨S262144x10, .f32⟩
  | .hbm, ⟨1, _⟩ => ⟨S2x4194304, .i32⟩
  | .hbm, ⟨2, _⟩ => ⟨S262144, .i32⟩
  | .hbm, ⟨3, _⟩ => ⟨S10x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S262144, .i32⟩
  | .hbm, ⟨10, _⟩ => ⟨S1x4194304, .i32⟩
  | .hbm, ⟨11, _⟩ => ⟨S4194304, .i32⟩
  | .hbm, ⟨12, _⟩ => ⟨S4456448, .i32⟩
  | .hbm, ⟨13, _⟩ => ⟨S1x4194304, .i32⟩
  | .hbm, ⟨14, _⟩ => ⟨S4194304, .i32⟩
  | .hbm, ⟨15, _⟩ => ⟨S4456448, .i32⟩
  | .hbm, ⟨16, _⟩ => ⟨S_, .f32⟩
  | .hbm, ⟨17, _⟩ => ⟨S4456448, .f32⟩
  | .hbm, ⟨18, _⟩ => ⟨S_, .f32⟩
  | .hbm, ⟨19, _⟩ => ⟨S262144, .f32⟩
  | .hbm, ⟨20, _⟩ => ⟨S4456448x1, .i32⟩
  | .hbm, ⟨21, _⟩ => ⟨S262144, .f32⟩
  | .hbm, ⟨22, _⟩ => ⟨S_, .f32⟩
  | .hbm, ⟨23, _⟩ => ⟨S262144, .f32⟩
  | .hbm, ⟨24, _⟩ => ⟨S262144, .i1⟩
  | .hbm, ⟨25, _⟩ => ⟨S262144, .f32⟩
  | .hbm, ⟨26, _⟩ => ⟨S_, .f32⟩
  | .hbm, ⟨27, _⟩ => ⟨S_, .f32⟩
  | .hbm, ⟨28, _⟩ => ⟨S262144, .f32⟩
  | .hbm, ⟨29, _⟩ => ⟨S262144, .f32⟩
  | .hbm, ⟨30, _⟩ => ⟨S_, .i32⟩
  | .hbm, ⟨31, _⟩ => ⟨S4456448, .i32⟩
  | .hbm, ⟨32, _⟩ => ⟨S4456448, .i1⟩
  | .hbm, ⟨33, _⟩ => ⟨S_, .i32⟩
  | .hbm, ⟨34, _⟩ => ⟨S4456448, .i32⟩
  | .hbm, ⟨35, _⟩ => ⟨S4456448, .i32⟩
  | .hbm, ⟨36, _⟩ => ⟨S4456448, .i32⟩
  | .hbm, ⟨37, _⟩ => ⟨S4456448x1, .i32⟩
  | .hbm, ⟨38, _⟩ => ⟨S4456448, .f32⟩
  | .hbm, ⟨39, _⟩ => ⟨S_, .i32⟩
  | .hbm, ⟨40, _⟩ => ⟨S4456448, .i32⟩
  | .hbm, ⟨41, _⟩ => ⟨S4456448, .i1⟩
  | .hbm, ⟨42, _⟩ => ⟨S_, .i32⟩
  | .hbm, ⟨43, _⟩ => ⟨S4456448, .i32⟩
  | .hbm, ⟨44, _⟩ => ⟨S4456448, .i32⟩
  | .hbm, ⟨45, _⟩ => ⟨S4456448, .i32⟩
  | .hbm, ⟨46, _⟩ => ⟨S4456448x1, .i32⟩
  | .hbm, ⟨47, _⟩ => ⟨S4456448, .f32⟩
  | .hbm, ⟨48, _⟩ => ⟨S4456448, .f32⟩
  | .hbm, ⟨49, _⟩ => ⟨S262144x32, .f32⟩
  | .hbm, ⟨50, _⟩ => ⟨S_, .i32⟩
  | .hbm, ⟨51, _⟩ => ⟨S4456448, .i32⟩
  | .hbm, ⟨52, _⟩ => ⟨S4456448, .i1⟩
  | .hbm, ⟨53, _⟩ => ⟨S_, .i32⟩
  | .hbm, ⟨54, _⟩ => ⟨S4456448, .i32⟩
  | .hbm, ⟨55, _⟩ => ⟨S4456448, .i32⟩
  | .hbm, ⟨56, _⟩ => ⟨S4456448, .i32⟩
  | .hbm, ⟨57, _⟩ => ⟨S4456448x1, .i32⟩
  | .hbm, ⟨58, _⟩ => ⟨S4456448x32, .f32⟩
  | .hbm, ⟨59, _⟩ => ⟨S4456448x1, .f32⟩
  | .hbm, ⟨60, _⟩ => ⟨S4456448x32, .f32⟩
  | .hbm, ⟨61, _⟩ => ⟨S4456448x32, .f32⟩
  | .hbm, ⟨62, _⟩ => ⟨S_, .f32⟩
  | .hbm, ⟨63, _⟩ => ⟨S262144x32, .f32⟩
  | .hbm, ⟨64, _⟩ => ⟨S4456448x1, .i32⟩
  | .hbm, ⟨65, _⟩ => ⟨S262144x32, .f32⟩
  | .hbm, ⟨66, _⟩ => ⟨S1x32, .f32⟩
  | .hbm, ⟨67, _⟩ => ⟨S262144x32, .f32⟩
  | .hbm, ⟨68, _⟩ => ⟨S262144x32, .f32⟩
  | .hbm, ⟨69, _⟩ => ⟨S_, .i32⟩
  | .hbm, ⟨70, _⟩ => ⟨S4456448, .i32⟩
  | .hbm, ⟨71, _⟩ => ⟨S4456448, .i1⟩
  | .hbm, ⟨72, _⟩ => ⟨S_, .i32⟩
  | .hbm, ⟨73, _⟩ => ⟨S4456448, .i32⟩
  | .hbm, ⟨74, _⟩ => ⟨S4456448, .i32⟩
  | .hbm, ⟨75, _⟩ => ⟨S4456448, .i32⟩
  | .hbm, ⟨76, _⟩ => ⟨S4456448x1, .i32⟩
  | .hbm, ⟨77, _⟩ => ⟨S4456448x32, .f32⟩
  | .hbm, ⟨78, _⟩ => ⟨S4456448x1, .f32⟩
  | .hbm, ⟨79, _⟩ => ⟨S4456448x32, .f32⟩
  | .hbm, ⟨80, _⟩ => ⟨S4456448x32, .f32⟩
  | .hbm, ⟨81, _⟩ => ⟨S_, .f32⟩
  | .hbm, ⟨82, _⟩ => ⟨S262144x32, .f32⟩
  | .hbm, ⟨83, _⟩ => ⟨S4456448x1, .i32⟩
  | .hbm, ⟨84, _⟩ => ⟨S262144x32, .f32⟩
  | .hbm, ⟨85, _⟩ => ⟨S1x32, .f32⟩
  | .hbm, ⟨86, _⟩ => ⟨S262144x32, .f32⟩
  | .hbm, ⟨87, _⟩ => ⟨S1x262144, .i32⟩
  | .hbm, ⟨88, _⟩ => ⟨S1024x32, .f32⟩
  | .hbm, ⟨89, _⟩ => ⟨S1024x1, .f32⟩
  | .hbm, ⟨90, _⟩ => ⟨S1x1, .f32⟩
  | .hbm, ⟨91, _⟩ => ⟨S1024x1, .f32⟩
  | .hbm, ⟨92, _⟩ => ⟨S1024x1, .f32⟩
  | .hbm, ⟨93, _⟩ => ⟨S1024, .f32⟩
  | .local _ .vmem, ⟨0, _⟩ => ⟨S8192x10, .f32⟩
  | .local _ .vmem, ⟨1, _⟩ => ⟨S8192x10, .f32⟩
  | .local _ .vmem, ⟨2, _⟩ => ⟨S10x32, .f32⟩
  | .local _ .vmem, ⟨3, _⟩ => ⟨S8192x32, .f32⟩
  | .local _ .vmem, ⟨4, _⟩ => ⟨S8192x32, .f32⟩
  | .local _ .vmem, ⟨5, _⟩ => ⟨S8192x32, .f32⟩
  | .local _ .vmem, ⟨6, _⟩ => ⟨S8192x32, .f32⟩
  | .local _ .vmem, ⟨7, _⟩ => ⟨S1x32, .f32⟩
  | .local _ .vmem, ⟨8, _⟩ => ⟨S8192x32, .f32⟩
  | .local _ .vmem, ⟨9, _⟩ => ⟨S8192x32, .f32⟩
  | .local _ .vmem, ⟨10, _⟩ => ⟨S8192x32, .f32⟩
  | .local _ .vmem, ⟨11, _⟩ => ⟨S8192x32, .f32⟩
  | .local _ .vmem, ⟨12, _⟩ => ⟨S32x32, .f32⟩
  | .local _ .vmem, ⟨13, _⟩ => ⟨S8192x32, .f32⟩
  | .local _ .vmem, ⟨14, _⟩ => ⟨S8192x32, .f32⟩
  | .local _ .vmem, ⟨15, _⟩ => ⟨S8192x32, .f32⟩
  | .local _ .vmem, ⟨16, _⟩ => ⟨S8192x32, .f32⟩
  | .local _ .vmem, ⟨17, _⟩ => ⟨S1x32, .f32⟩
  | .local _ .vmem, ⟨18, _⟩ => ⟨S8192x32, .f32⟩
  | .local _ .vmem, ⟨19, _⟩ => ⟨S8192x32, .f32⟩
  | .local _ .vmem, ⟨20, _⟩ => ⟨S2048x32, .f32⟩
  | .local _ .vmem, ⟨21, _⟩ => ⟨S2048x32, .f32⟩
  | .local _ .vmem, ⟨22, _⟩ => ⟨S1x2048, .i32⟩
  | .local _ .vmem, ⟨23, _⟩ => ⟨S1x2048, .i32⟩
  | .local _ .vmem, ⟨24, _⟩ => ⟨S1024x32, .f32⟩
  | .local _ .vmem, ⟨25, _⟩ => ⟨S1024x32, .f32⟩
  | .local _ .vmem, ⟨26, _⟩ => ⟨S1024x1, .f32⟩
  | _, _ => ⟨S262144x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_scratch0 : Ref sig .tc := ⟨.vmem, 25, rfl⟩
abbrev cc4_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![128], ![false]⟩

def k4_cond2 (i : grid4.Coords) : BitVec 1 :=
  let arg0 : BitVec 32 := BitVec.ofNat 32 (i 0).val
  let c127_i32 : BitVec 32 := 127#32
  let v28 : BitVec 1 := Scalar.cmpi .eq arg0 c127_i32
  let v29 : BitVec 32 := Scalar.extui v28
  let c0_i32_14 : BitVec 32 := 0#32
  let v30 : BitVec 1 := Scalar.cmpi .ne v29 c0_i32_14
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2048x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1024x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x4194304_S1x4194304_0_0 : S2x4194304.Slices ![0, 0] S1x4194304
  shapeCasts_S1x4194304_S4194304 : S1x4194304.ShapeCasts S4194304
  concatenates_S4194304_S262144_S4456448_d0 : Shape.Concatenates [S4194304, S262144] S4456448 0
  slices_S2x4194304_S1x4194304_1_0 : S2x4194304.Slices ![1, 0] S1x4194304
  bcast_S_S4456448 : S_.BroadcastsInDim S4456448 (![] : Fin 0 → Fin S4456448.rank)
  bcast_S_S262144 : S_.BroadcastsInDim S262144 (![] : Fin 0 → Fin S262144.rank)
  bcast_S4456448_S4456448x1_0 : S4456448.BroadcastsInDim S4456448x1 (![0] : Fin 1 → Fin S4456448x1.rank)
  inb_S8192x10_S8192x10_0_0 : ∀ a, (![0, 0] : Fin 2 → Nat) a + S8192x10.size a ≤ S8192x10.size a
  h_S8192x10 : 0 < S8192x10.numel
  bitsLt_bf16_f32 : FTy.bits .bf16 < FTy.bits .f32
  inb_S10x32_S10x32_0_0 : ∀ a, (![0, 0] : Fin 2 → Nat) a + S10x32.size a ≤ S10x32.size a
  h_S10x32 : 0 < S10x32.numel
  inb_S8192x32_S8192x32_0_0 : ∀ a, (![0, 0] : Fin 2 → Nat) a + S8192x32.size a ≤ S8192x32.size a
  h_S8192x32 : 0 < S8192x32.numel
  bcast_S4456448x1_S4456448x32_0_1 : S4456448x1.BroadcastsInDim S4456448x32 (![0, 1] : Fin 2 → Fin S4456448x32.rank)
  bcast_S_S262144x32 : S_.BroadcastsInDim S262144x32 (![] : Fin 0 → Fin S262144x32.rank)
  shapeCasts_S32_S1x32 : S32.ShapeCasts S1x32
  shapeCasts_S8192x32_S8192x32 : S8192x32.ShapeCasts S8192x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S32x32_S32x32_0_0 : ∀ a, (![0, 0] : Fin 2 → Nat) a + S32x32.size a ≤ S32x32.size a
  h_S32x32 : 0 < S32x32.numel
  shapeCasts_S262144_S1x262144 : S262144.ShapeCasts S1x262144
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1_d0_w32 : S1024x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  natLt_1_32 : 1 < 32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  broadcasts_S1024x1_S1024x32 : S1024x1.Broadcasts S1024x32
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  scatter_S262144_S4456448x1_S4456448_n_0_0_1_wf : ScatterDims.WF S262144 S4456448x1 S4456448 [] [0] [0] 1
  gather_S262144_S4456448x1_S4456448_n_0_n_n_0_1_1_wf : GatherDims.WF S262144 S4456448x1 S4456448 [] [0] [] [0] [] 1 ![1]
  dot_S8192x10_S10x32_S8192x32_1_0_0_1_n_n_wf : DotDims.WF S8192x10 S10x32 S8192x32 [1] [0] [0] [1] [] []
  gather_S262144x32_S4456448x1_S4456448x32_1_0_n_n_0_1_132_wf : GatherDims.WF S262144x32 S4456448x1 S4456448x32 [1] [0] [] [0] [] 1 ![1, 32]
  scatter_S262144x32_S4456448x1_S4456448x32_1_0_0_1_wf : ScatterDims.WF S262144x32 S4456448x1 S4456448x32 [1] [0] [0] 1
  dot_S8192x32_S32x32_S8192x32_1_0_0_1_n_n_wf : DotDims.WF S8192x32 S32x32 S8192x32 [1] [0] [0] [1] [] []
  dot_S1024x2048_S2048x32_S1024x32_1_0_0_1_n_n_wf : DotDims.WF S1024x2048 S2048x32 S1024x32 [1] [0] [0] [1] [] []
  dot_S1024x2048_S2048x1_S1024x1_1_0_0_1_n_n_wf : DotDims.WF S1024x2048 S2048x1 S1024x1 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x10.size a ≤ S262144x10.size a
  hwx0_0 : ∀ i : grid0.Coords, EltTy.bits .f32 = 32 ∨ (Rect.block (s := S262144x10) S8192x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x32.size a ≤ S10x32.size a
  hwx0_1 : ∀ i : grid0.Coords, EltTy.bits .f32 = 32 ∨ (Rect.block (s := S10x32) S10x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S262144x32.size a
  hwx0_2 : ∀ i : grid0.Coords, EltTy.bits .f32 = 32 ∨ (Rect.block (s := S262144x32) S8192x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x32.size a ≤ S262144x32.size a
  hwx1_0 : ∀ i : grid1.Coords, EltTy.bits .f32 = 32 ∨ (Rect.block (s := S262144x32) S8192x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x32.size a ≤ S262144x32.size a
  hwx1_2 : ∀ i : grid1.Coords, EltTy.bits .f32 = 32 ∨ (Rect.block (s := S262144x32) S8192x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x32.size a ≤ S262144x32.size a
  hwx2_0 : ∀ i : grid2.Coords, EltTy.bits .f32 = 32 ∨ (Rect.block (s := S262144x32) S8192x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x32.size a ≤ S262144x32.size a
  hwx2_2 : ∀ i : grid2.Coords, EltTy.bits .f32 = 32 ∨ (Rect.block (s := S262144x32) S8192x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x32.size a ≤ S262144x32.size a
  hwx3_0 : ∀ i : grid3.Coords, EltTy.bits .f32 = 32 ∨ (Rect.block (s := S262144x32) S8192x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x32.size a ≤ S262144x32.size a
  hwx3_2 : ∀ i : grid3.Coords, EltTy.bits .f32 = 32 ∨ (Rect.block (s := S262144x32) S8192x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x32.size a ≤ S262144x32.size a
  hwx4_0 : ∀ i : grid4.Coords, EltTy.bits .f32 = 32 ∨ (Rect.block (s := S262144x32) S2048x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x262144.size a
  hwx4_1 : ∀ i : grid4.Coords, EltTy.bits .i32 = 32 ∨ (Rect.block (s := S1x262144) S1x2048.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024x32.size a ≤ S1024x32.size a
  hwx4_2 : ∀ i : grid4.Coords, EltTy.bits .f32 = 32 ∨ (Rect.block (s := S1024x32) S1024x32.size (cc4_transform_2 i) (hinb4_2 i)).WholeWords (EltTy.packing .f32)

variable [Facts₀]

def scatter_S262144_S4456448x1_S4456448_n_0_0_1 : ScatterDims S262144 S4456448x1 S4456448 where
  updateWindowDims := []
  insertedWindowDims := [0]
  scatterDimsToOperandDims := [0]
  indexVectorDim := 1
  wf := scatter_S262144_S4456448x1_S4456448_n_0_0_1_wf
def gather_S262144_S4456448x1_S4456448_n_0_n_n_0_1_1 : GatherDims S262144 S4456448x1 S4456448 where
  offsetDims := []
  collapsedSliceDims := [0]
  operandBatchingDims := []
  startIndicesBatchingDims := []
  startIndexMap := [0]
  indexVectorDim := 1
  sliceSizes := ![1]
  wf := gather_S262144_S4456448x1_S4456448_n_0_n_n_0_1_1_wf
def dot_S8192x10_S10x32_S8192x32_1_0_0_1_n_n : DotDims S8192x10 S10x32 S8192x32 where
  lhsContracting := [1]
  rhsContracting := [0]
  lhsNonContracting := [0]
  rhsNonContracting := [1]
  lhsBatch := []
  rhsBatch := []
  wf := dot_S8192x10_S10x32_S8192x32_1_0_0_1_n_n_wf
def gather_S262144x32_S4456448x1_S4456448x32_1_0_n_n_0_1_132 : GatherDims S262144x32 S4456448x1 S4456448x32 where
  offsetDims := [1]
  collapsedSliceDims := [0]
  operandBatchingDims := []
  startIndicesBatchingDims := []
  startIndexMap := [0]
  indexVectorDim := 1
  sliceSizes := ![1, 32]
  wf := gather_S262144x32_S4456448x1_S4456448x32_1_0_n_n_0_1_132_wf
def scatter_S262144x32_S4456448x1_S4456448x32_1_0_0_1 : ScatterDims S262144x32 S4456448x1 S4456448x32 where
  updateWindowDims := [1]
  insertedWindowDims := [0]
  scatterDimsToOperandDims := [0]
  indexVectorDim := 1
  wf := scatter_S262144x32_S4456448x1_S4456448x32_1_0_0_1_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg0) S8192x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8192x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S8192x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S8192x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S8192x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S8192x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S8192x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2048x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S1x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1024x32.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S262144x10 : Shape := ⟨2, ![262144, 10]⟩
abbrev S2x4194304 : Shape := ⟨2, ![2, 4194304]⟩
abbrev S262144 : Shape := ⟨1, ![262144]⟩
abbrev S10x32 : Shape := ⟨2, ![10, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x4194304 : Shape := ⟨2, ![1, 4194304]⟩
abbrev S4194304 : Shape := ⟨1, ![4194304]⟩
abbrev S4456448 : Shape := ⟨1, ![4456448]⟩
abbrev S_ : Shape := ⟨0, ![]⟩
abbrev S4456448x1 : Shape := ⟨2, ![4456448, 1]⟩
abbrev S262144x32 : Shape := ⟨2, ![262144, 32]⟩
abbrev S4456448x32 : Shape := ⟨2, ![4456448, 32]⟩
abbrev S1x32 : Shape := ⟨2, ![1, 32]⟩
abbrev S1024x32 : Shape := ⟨2, ![1024, 32]⟩
abbrev S262144x1 : Shape := ⟨2, ![262144, 1]⟩
abbrev S1024 : Shape := ⟨1, ![1024]⟩
abbrev S1024x1 : Shape := ⟨2, ![1024, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S262144x10, .f32⟩
  | .hbm, ⟨1, _⟩ => ⟨S2x4194304, .i32⟩
  | .hbm, ⟨2, _⟩ => ⟨S262144, .i32⟩
  | .hbm, ⟨3, _⟩ => ⟨S10x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S262144, .i32⟩
  | .hbm, ⟨10, _⟩ => ⟨S1x4194304, .i32⟩
  | .hbm, ⟨11, _⟩ => ⟨S4194304, .i32⟩
  | .hbm, ⟨12, _⟩ => ⟨S4456448, .i32⟩
  | .hbm, ⟨13, _⟩ => ⟨S1x4194304, .i32⟩
  | .hbm, ⟨14, _⟩ => ⟨S4194304, .i32⟩
  | .hbm, ⟨15, _⟩ => ⟨S4456448, .i32⟩
  | .hbm, ⟨16, _⟩ => ⟨S_, .f32⟩
  | .hbm, ⟨17, _⟩ => ⟨S4456448, .f32⟩
  | .hbm, ⟨18, _⟩ => ⟨S_, .f32⟩
  | .hbm, ⟨19, _⟩ => ⟨S262144, .f32⟩
  | .hbm, ⟨20, _⟩ => ⟨S4456448x1, .i32⟩
  | .hbm, ⟨21, _⟩ => ⟨S262144, .f32⟩
  | .hbm, ⟨22, _⟩ => ⟨S_, .f32⟩
  | .hbm, ⟨23, _⟩ => ⟨S262144, .f32⟩
  | .hbm, ⟨24, _⟩ => ⟨S262144, .i1⟩
  | .hbm, ⟨25, _⟩ => ⟨S262144, .f32⟩
  | .hbm, ⟨26, _⟩ => ⟨S_, .f32⟩
  | .hbm, ⟨27, _⟩ => ⟨S_, .f32⟩
  | .hbm, ⟨28, _⟩ => ⟨S262144, .f32⟩
  | .hbm, ⟨29, _⟩ => ⟨S262144, .f32⟩
  | .hbm, ⟨30, _⟩ => ⟨S_, .i32⟩
  | .hbm, ⟨31, _⟩ => ⟨S4456448, .i32⟩
  | .hbm, ⟨32, _⟩ => ⟨S4456448, .i1⟩
  | .hbm, ⟨33, _⟩ => ⟨S_, .i32⟩
  | .hbm, ⟨34, _⟩ => ⟨S4456448, .i32⟩
  | .hbm, ⟨35, _⟩ => ⟨S4456448, .i32⟩
  | .hbm, ⟨36, _⟩ => ⟨S4456448, .i32⟩
  | .hbm, ⟨37, _⟩ => ⟨S4456448x1, .i32⟩
  | .hbm, ⟨38, _⟩ => ⟨S4456448, .f32⟩
  | .hbm, ⟨39, _⟩ => ⟨S_, .i32⟩
  | .hbm, ⟨40, _⟩ => ⟨S4456448, .i32⟩
  | .hbm, ⟨41, _⟩ => ⟨S4456448, .i1⟩
  | .hbm, ⟨42, _⟩ => ⟨S_, .i32⟩
  | .hbm, ⟨43, _⟩ => ⟨S4456448, .i32⟩
  | .hbm, ⟨44, _⟩ => ⟨S4456448, .i32⟩
  | .hbm, ⟨45, _⟩ => ⟨S4456448, .i32⟩
  | .hbm, ⟨46, _⟩ => ⟨S4456448x1, .i32⟩
  | .hbm, ⟨47, _⟩ => ⟨S4456448, .f32⟩
  | .hbm, ⟨48, _⟩ => ⟨S4456448, .f32⟩
  | .hbm, ⟨49, _⟩ => ⟨S262144x32, .f32⟩
  | .hbm, ⟨50, _⟩ => ⟨S_, .i32⟩
  | .hbm, ⟨51, _⟩ => ⟨S4456448, .i32⟩
  | .hbm, ⟨52, _⟩ => ⟨S4456448, .i1⟩
  | .hbm, ⟨53, _⟩ => ⟨S_, .i32⟩
  | .hbm, ⟨54, _⟩ => ⟨S4456448, .i32⟩
  | .hbm, ⟨55, _⟩ => ⟨S4456448, .i32⟩
  | .hbm, ⟨56, _⟩ => ⟨S4456448, .i32⟩
  | .hbm, ⟨57, _⟩ => ⟨S4456448x1, .i32⟩
  | .hbm, ⟨58, _⟩ => ⟨S4456448x32, .f32⟩
  | .hbm, ⟨59, _⟩ => ⟨S4456448x1, .f32⟩
  | .hbm, ⟨60, _⟩ => ⟨S4456448x32, .f32⟩
  | .hbm, ⟨61, _⟩ => ⟨S4456448x32, .f32⟩
  | .hbm, ⟨62, _⟩ => ⟨S_, .f32⟩
  | .hbm, ⟨63, _⟩ => ⟨S262144x32, .f32⟩
  | .hbm, ⟨64, _⟩ => ⟨S4456448x1, .i32⟩
  | .hbm, ⟨65, _⟩ => ⟨S262144x32, .f32⟩
  | .hbm, ⟨66, _⟩ => ⟨S1x32, .f32⟩
  | .hbm, ⟨67, _⟩ => ⟨S262144x32, .f32⟩
  | .hbm, ⟨68, _⟩ => ⟨S262144x32, .f32⟩
  | .hbm, ⟨69, _⟩ => ⟨S_, .f32⟩
  | .hbm, ⟨70, _⟩ => ⟨S262144x32, .f32⟩
  | .hbm, ⟨71, _⟩ => ⟨S262144x32, .f32⟩
  | .hbm, ⟨72, _⟩ => ⟨S262144x32, .f32⟩
  | .hbm, ⟨73, _⟩ => ⟨S_, .i32⟩
  | .hbm, ⟨74, _⟩ => ⟨S4456448, .i32⟩
  | .hbm, ⟨75, _⟩ => ⟨S4456448, .i1⟩
  | .hbm, ⟨76, _⟩ => ⟨S_, .i32⟩
  | .hbm, ⟨77, _⟩ => ⟨S4456448, .i32⟩
  | .hbm, ⟨78, _⟩ => ⟨S4456448, .i32⟩
  | .hbm, ⟨79, _⟩ => ⟨S4456448, .i32⟩
  | .hbm, ⟨80, _⟩ => ⟨S4456448x1, .i32⟩
  | .hbm, ⟨81, _⟩ => ⟨S4456448x32, .f32⟩
  | .hbm, ⟨82, _⟩ => ⟨S4456448x1, .f32⟩
  | .hbm, ⟨83, _⟩ => ⟨S4456448x32, .f32⟩
  | .hbm, ⟨84, _⟩ => ⟨S4456448x32, .f32⟩
  | .hbm, ⟨85, _⟩ => ⟨S_, .f32⟩
  | .hbm, ⟨86, _⟩ => ⟨S262144x32, .f32⟩
  | .hbm, ⟨87, _⟩ => ⟨S4456448x1, .i32⟩
  | .hbm, ⟨88, _⟩ => ⟨S262144x32, .f32⟩
  | .hbm, ⟨89, _⟩ => ⟨S1x32, .f32⟩
  | .hbm, ⟨90, _⟩ => ⟨S262144x32, .f32⟩
  | .hbm, ⟨91, _⟩ => ⟨S262144x32, .f32⟩
  | .hbm, ⟨92, _⟩ => ⟨S_, .f32⟩
  | .hbm, ⟨93, _⟩ => ⟨S262144x32, .f32⟩
  | .hbm, ⟨94, _⟩ => ⟨S262144x32, .f32⟩
  | .hbm, ⟨95, _⟩ => ⟨S_, .f32⟩
  | .hbm, ⟨96, _⟩ => ⟨S1024x32, .f32⟩
  | .hbm, ⟨97, _⟩ => ⟨S262144x1, .i32⟩
  | .hbm, ⟨98, _⟩ => ⟨S1024x32, .f32⟩
  | .hbm, ⟨99, _⟩ => ⟨S_, .f32⟩
  | .hbm, ⟨100, _⟩ => ⟨S262144, .f32⟩
  | .hbm, ⟨101, _⟩ => ⟨S_, .f32⟩
  | .hbm, ⟨102, _⟩ => ⟨S1024, .f32⟩
  | .hbm, ⟨103, _⟩ => ⟨S262144x1, .i32⟩
  | .hbm, ⟨104, _⟩ => ⟨S1024, .f32⟩
  | .hbm, ⟨105, _⟩ => ⟨S_, .f32⟩
  | .hbm, ⟨106, _⟩ => ⟨S1024, .f32⟩
  | .hbm, ⟨107, _⟩ => ⟨S1024, .f32⟩
  | .hbm, ⟨108, _⟩ => ⟨S1024x1, .f32⟩
  | .hbm, ⟨109, _⟩ => ⟨S1024x32, .f32⟩
  | .hbm, ⟨110, _⟩ => ⟨S1024x32, .f32⟩
  | .hbm, ⟨111, _⟩ => ⟨S1024x1, .f32⟩
  | .hbm, ⟨112, _⟩ => ⟨S1x1, .f32⟩
  | .hbm, ⟨113, _⟩ => ⟨S1024x1, .f32⟩
  | .hbm, ⟨114, _⟩ => ⟨S1024x1, .f32⟩
  | .hbm, ⟨115, _⟩ => ⟨S1024, .f32⟩
  | _, _ => ⟨S262144x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_cst_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  concatenates_S4194304_S262144_S4456448_d0 : Shape.Concatenates [S4194304, S262144] S4456448 0
  slices_S2x4194304_S1x4194304_1_0 : S2x4194304.Slices ![1, 0] S1x4194304
  bcast_S_S4456448 : S_.BroadcastsInDim S4456448 (![] : Fin 0 → Fin S4456448.rank)
  bcast_S_S262144 : S_.BroadcastsInDim S262144 (![] : Fin 0 → Fin S262144.rank)
  bcast_S4456448_S4456448x1_0 : S4456448.BroadcastsInDim S4456448x1 (![0] : Fin 1 → Fin S4456448x1.rank)
  bcast_S4456448x1_S4456448x32_0_1 : S4456448x1.BroadcastsInDim S4456448x32 (![0, 1] : Fin 2 → Fin S4456448x32.rank)
  bcast_S_S262144x32 : S_.BroadcastsInDim S262144x32 (![] : Fin 0 → Fin S262144x32.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S1024x32 : S_.BroadcastsInDim S1024x32 (![] : Fin 0 → Fin S1024x32.rank)
  bcast_S262144_S262144x1_0 : S262144.BroadcastsInDim S262144x1 (![0] : Fin 1 → Fin S262144x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  scatter_S262144_S4456448x1_S4456448_n_0_0_1_wf : ScatterDims.WF S262144 S4456448x1 S4456448 [] [0] [0] 1
  gather_S262144_S4456448x1_S4456448_n_0_n_n_0_1_1_wf : GatherDims.WF S262144 S4456448x1 S4456448 [] [0] [] [0] [] 1 ![1]
  dot_S262144x10_S10x32_S262144x32_1_0_0_1_n_n_wf : DotDims.WF S262144x10 S10x32 S262144x32 [1] [0] [0] [1] [] []
  gather_S262144x32_S4456448x1_S4456448x32_1_0_n_n_0_1_132_wf : GatherDims.WF S262144x32 S4456448x1 S4456448x32 [1] [0] [] [0] [] 1 ![1, 32]
  scatter_S262144x32_S4456448x1_S4456448x32_1_0_0_1_wf : ScatterDims.WF S262144x32 S4456448x1 S4456448x32 [1] [0] [0] 1
  dot_S262144x32_S32x32_S262144x32_1_0_0_1_n_n_wf : DotDims.WF S262144x32 S32x32 S262144x32 [1] [0] [0] [1] [] []
  scatter_S1024x32_S262144x1_S262144x32_1_0_0_1_wf : ScatterDims.WF S1024x32 S262144x1 S262144x32 [1] [0] [0] 1
  scatter_S1024_S262144x1_S262144_n_0_0_1_wf : ScatterDims.WF S1024 S262144x1 S262144 [] [0] [0] 1
  dot_S1024x32_S32x1_S1024x1_1_0_0_1_n_n_wf : DotDims.WF S1024x32 S32x1 S1024x1 [1] [0] [0] [1] [] []

variable [Facts₀]

def scatter_S262144_S4456448x1_S4456448_n_0_0_1 : ScatterDims S262144 S4456448x1 S4456448 where
  updateWindowDims := []
  insertedWindowDims := [0]
  scatterDimsToOperandDims := [0]
  indexVectorDim := 1
  wf := scatter_S262144_S4456448x1_S4456448_n_0_0_1_wf
def gather_S262144_S4456448x1_S4456448_n_0_n_n_0_1_1 : GatherDims S262144 S4456448x1 S4456448 where
  offsetDims := []
  collapsedSliceDims := [0]
  operandBatchingDims := []
  startIndicesBatchingDims := []
  startIndexMap := [0]
  indexVectorDim := 1
  sliceSizes := ![1]
  wf := gather_S262144_S4456448x1_S4456448_n_0_n_n_0_1_1_wf
def dot_S262144x10_S10x32_S262144x32_1_0_0_1_n_n : DotDims S262144x10 S10x32 S262144x32 where
  lhsContracting := [1]
  rhsContracting := [0]
  lhsNonContracting := [0]
  rhsNonContracting := [1]
  lhsBatch := []
  rhsBatch := []
  wf := dot_S262144x10_S10x32_S262144x32_1_0_0_1_n_n_wf
def gather_S262144x32_S4456448x1_S4456448x32_1_0_n_n_0_1_132 : GatherDims S262144x32 S4456448x1 S4456448x32 where
  offsetDims := [1]
  collapsedSliceDims := [0]
  operandBatchingDims := []
  startIndicesBatchingDims := []
  startIndexMap := [0]
  indexVectorDim := 1
  sliceSizes := ![1, 32]
  wf := gather_S262144x32_S4456448x1_S4456448x32_1_0_n_n_0_1_132_wf
def scatter_S262144x32_S4456448x1_S4456448x32_1_0_0_1 : ScatterDims S262144x32 S4456448x1 S4456448x32 where
  updateWindowDims := [1]
  insertedWindowDims := [0]
  scatterDimsToOperandDims := [0]
  indexVectorDim := 1
  wf := scatter_S262144x32_S4456448x1_S4456448x32_1_0_0_1_wf
def dot_S262144x32_S32x32_S262144x32_1_0_0_1_n_n : DotDims S262144x32 S32x32 S262144x32 where
  lhsContracting := [1]
  rhsContracting := [0]
  lhsNonContracting := [0]
  rhsNonContracting := [1]
  lhsBatch := []
  rhsBatch := []
  wf := dot_S262144x32_S32x32_S262144x32_1_0_0_1_n_n_wf
def scatter_S1024x32_S262144x1_S262144x32_1_0_0_1 : ScatterDims S1024x32 S262144x1 S262144x32 where
  updateWindowDims := [1]
  insertedWindowDims := [0]
  scatterDimsToOperandDims := [0]
  indexVectorDim := 1
  wf := scatter_S1024x32_S262144x1_S262144x32_1_0_0_1_wf
def scatter_S1024_S262144x1_S262144_n_0_0_1 : ScatterDims S1024 S262144x1 S262144 where
  updateWindowDims := []
  insertedWindowDims := [0]
  scatterDimsToOperandDims := [0]
  indexVectorDim := 1
  wf := scatter_S1024_S262144x1_S262144_n_0_0_1_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

class Facts : Prop extends Facts₀ where

variable [Facts]
-- ==== Proof.KReg0.lean ====
/-
  Region 0 of @main: the first projection, `x @ W1`, one block of 8192 rows per grid point. The body loads the block of `x` and the whole weight matrix, and stores their matrix product into the output block. Stated at the contents `V` the region is entered with.
-/
import proofs.«426532_j29326036697815_1_alg».proof.Proof.Gen.Kernel.Launch
import proofs.«426532_j29326036697815_1_alg».proof.Proof.Gen.Kernel.Skeleton
import proofs.«426532_j29326036697815_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point: the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's block index never moves, so it is fetched once; its buffer still holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole staging buffer -/

abbrev r0_0 : Rect S8192x10 := Rect.unit (s := S8192x10) ![0, 0] S8192x10.size inb_S8192x10_S8192x10_0_0
abbrev r0_1 : Rect S10x32 := Rect.unit (s := S10x32) ![0, 0] S10x32.size inb_S10x32_S10x32_0_0
abbrev r0_2 : Rect S8192x32 := Rect.unit (s := S8192x32) ![0, 0] S8192x32.size inb_S8192x32_S8192x32_0_0

/-- What the body leaves in the output's staging buffer: its one store, of the payload of the two loaded blocks. -/
def out0_2 (x0 : Vec F S8192x10 .f32) (x1 : Vec F S10x32 .f32) : Vec F S8192x32 .f32 :=
  View.canon [⟨r0_2, k0_pay1 (View.ld x0 r0_0) (View.ld x1 r0_1)⟩]

/-- The one store covers the output's buffer. -/
theorem cover0_2 (p0 : Vec F S8192x32 .f32) (y : S8192x32.Idx) :
    ∃ pc ∈ ([⟨r0_2, p0⟩] : List (View.Piece (Elt F) S8192x32 .f32)), y ∈ pc.1.set :=
  View.cover_of_tiled [⟨r0_2, p0⟩] S8192x32.size (by rfl) y

/-! ## The body's triple -/

set_option maxHeartbeats 1000000 in
/-- The body on whole staging buffers, the inputs' at contents `x0`, `x1` and the output's at anything: it ends with the
    inputs' buffers as they were and the output's at `out0_2 x0 x1`. -/
theorem sound_kernel0 (c : Dev nD) (E : Set ℕ) (i : grid0.Coords)
    (arg1 : Memref sig .tc .vmem S8192x10 .f32) (harg1 : arg1.IsWhole) (arg2 : Memref sig .tc .vmem S10x32 .f32) (harg2 : arg2.IsWhole)
    (arg3 : Memref sig .tc .vmem S8192x32 .f32) (harg3 : arg3.IsWhole)
    (x0 : Vec F S8192x10 .f32) (x1 : Vec F S10x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this region on core `c`: the arrays as the region finds them; after the body at point `t` each
    input's buffer at its block and the output's at `out0_2` of the two blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/-
  Region 1 of @main: the first layer's bias and positive part, `max (agg1 + b1) 0`, one block of 8192 rows per grid point. The body loads the block of aggregated rows and the bias row, and stores the biased, clamped block. Stated at the contents `V` the region is entered with.
-/
import proofs.«426532_j29326036697815_1_alg».proof.Proof.Gen.Kernel.Launch
import proofs.«426532_j29326036697815_1_alg».proof.Proof.Gen.Kernel.Skeleton
import proofs.«426532_j29326036697815_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point: the body only reads it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's block index never moves, so it is fetched once; its buffer still holds the block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole staging buffer -/

abbrev r1_0 : Rect S8192x32 := Rect.unit (s := S8192x32) ![0, 0] S8192x32.size inb_S8192x32_S8192x32_0_0
abbrev r1_1 : Rect S1x32 := Rect.unit (s := S1x32) ![0, 0] S1x32.size inb_S1x32_S1x32_0_0
abbrev r1_2 : Rect S8192x32 := Rect.unit (s := S8192x32) ![0, 0] S8192x32.size inb_S8192x32_S8192x32_0_0

/-- What the body leaves in the output's staging buffer: its one store, of the payload of the two loaded blocks. -/
def out1_2 (x0 : Vec F S8192x32 .f32) (x1 : Vec F S1x32 .f32) : Vec F S8192x32 .f32 :=
  View.canon [⟨r1_2, k1_pay1 (View.ld x0 r1_0) (View.ld x1 r1_1)⟩]

/-- The one store covers the output's buffer. -/
theorem cover1_2 (p0 : Vec F S8192x32 .f32) (y : S8192x32.Idx) :
    ∃ pc ∈ ([⟨r1_2, p0⟩] : List (View.Piece (Elt F) S8192x32 .f32)), y ∈ pc.1.set :=
  View.cover_of_tiled [⟨r1_2, p0⟩] S8192x32.size (by rfl) y

/-! ## The body's triple -/

set_option maxHeartbeats 1000000 in
/-- The body on whole staging buffers, the inputs' at contents `x0`, `x1` and the output's at anything: it ends with the
    inputs' buffers as they were and the output's at `out1_2 x0 x1`. -/
theorem sound_kernel1 (c : Dev nD) (E : Set ℕ) (i : grid1.Coords)
    (arg1 : Memref sig .tc .vmem S8192x32 .f32) (harg1 : arg1.IsWhole) (arg2 : Memref sig .tc .vmem S1x32 .f32) (harg2 : arg2.IsWhole)
    (arg3 : Memref sig .tc .vmem S8192x32 .f32) (harg3 : arg3.IsWhole)
    (x0 : Vec F S8192x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this region on core `c`: the arrays as the region finds them; after the body at point `t` each
    input's buffer at its block and the output's at `out1_2` of the two blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/-
  Region 2 of @main: the second projection, `h1 @ W2`, one block of 8192 rows per grid point. The body loads the block of hidden rows and the whole weight matrix, and stores their matrix product into the output block. Stated at the contents `V` the region is entered with.
-/
import proofs.«426532_j29326036697815_1_alg».proof.Proof.Gen.Kernel.Launch
import proofs.«426532_j29326036697815_1_alg».proof.Proof.Gen.Kernel.Skeleton
import proofs.«426532_j29326036697815_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point: the body only reads it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second input's block index never moves, so it is fetched once; its buffer still holds the block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev r2_0 : Rect S8192x32 := Rect.unit (s := S8192x32) ![0, 0] S8192x32.size inb_S8192x32_S8192x32_0_0
abbrev r2_1 : Rect S32x32 := Rect.unit (s := S32x32) ![0, 0] S32x32.size inb_S32x32_S32x32_0_0
abbrev r2_2 : Rect S8192x32 := Rect.unit (s := S8192x32) ![0, 0] S8192x32.size inb_S8192x32_S8192x32_0_0

/-- What the body leaves in the output's staging buffer: its one store, of the payload of the two loaded blocks. -/
def out2_2 (x0 : Vec F S8192x32 .f32) (x1 : Vec F S32x32 .f32) : Vec F S8192x32 .f32 :=
  View.canon [⟨r2_2, k2_pay1 (View.ld x0 r2_0) (View.ld x1 r2_1)⟩]

/-- The one store covers the output's buffer. -/
theorem cover2_2 (p0 : Vec F S8192x32 .f32) (y : S8192x32.Idx) :
    ∃ pc ∈ ([⟨r2_2, p0⟩] : List (View.Piece (Elt F) S8192x32 .f32)), y ∈ pc.1.set :=
  View.cover_of_tiled [⟨r2_2, p0⟩] S8192x32.size (by rfl) y

/-! ## The body's triple -/

set_option maxHeartbeats 1000000 in
/-- The body on whole staging buffers, the inputs' at contents `x0`, `x1` and the output's at anything: it ends with the
    inputs' buffers as they were and the output's at `out2_2 x0 x1`. -/
theorem sound_kernel2 (c : Dev nD) (E : Set ℕ) (i : grid2.Coords)
    (arg1 : Memref sig .tc .vmem S8192x32 .f32) (harg1 : arg1.IsWhole) (arg2 : Memref sig .tc .vmem S32x32 .f32) (harg2 : arg2.IsWhole)
    (arg3 : Memref sig .tc .vmem S8192x32 .f32) (harg3 : arg3.IsWhole)
    (x0 : Vec F S8192x32 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this region on core `c`: the arrays as the region finds them; after the body at point `t` each
    input's buffer at its block and the output's at `out2_2` of the two blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg3.lean ====
/-
  Region 3 of @main: the second layer's bias and positive part, `max (agg2 + b2) 0`, one block of 8192 rows per grid point. The body loads the block of aggregated rows and the bias row, and stores the biased, clamped block. Stated at the contents `V` the region is entered with.
-/
import proofs.«426532_j29326036697815_1_alg».proof.Proof.Gen.Kernel.Launch
import proofs.«426532_j29326036697815_1_alg».proof.Proof.Gen.Kernel.Skeleton
import proofs.«426532_j29326036697815_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input's staging buffer holds its block at every point: the body only reads it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second input's block index never moves, so it is fetched once; its buffer still holds the block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole staging buffer -/

abbrev r3_0 : Rect S8192x32 := Rect.unit (s := S8192x32) ![0, 0] S8192x32.size inb_S8192x32_S8192x32_0_0
abbrev r3_1 : Rect S1x32 := Rect.unit (s := S1x32) ![0, 0] S1x32.size inb_S1x32_S1x32_0_0
abbrev r3_2 : Rect S8192x32 := Rect.unit (s := S8192x32) ![0, 0] S8192x32.size inb_S8192x32_S8192x32_0_0

/-- What the body leaves in the output's staging buffer: its one store, of the payload of the two loaded blocks. -/
def out3_2 (x0 : Vec F S8192x32 .f32) (x1 : Vec F S1x32 .f32) : Vec F S8192x32 .f32 :=
  View.canon [⟨r3_2, k3_pay1 (View.ld x0 r3_0) (View.ld x1 r3_1)⟩]

/-- The one store covers the output's buffer. -/
theorem cover3_2 (p0 : Vec F S8192x32 .f32) (y : S8192x32.Idx) :
    ∃ pc ∈ ([⟨r3_2, p0⟩] : List (View.Piece (Elt F) S8192x32 .f32)), y ∈ pc.1.set :=
  View.cover_of_tiled [⟨r3_2, p0⟩] S8192x32.size (by rfl) y

/-! ## The body's triple -/

set_option maxHeartbeats 1000000 in
/-- The body on whole staging buffers, the inputs' at contents `x0`, `x1` and the output's at anything: it ends with the
    inputs' buffers as they were and the output's at `out3_2 x0 x1`. -/
theorem sound_kernel3 (c : Dev nD) (E : Set ℕ) (i : grid3.Coords)
    (arg1 : Memref sig .tc .vmem S8192x32 .f32) (harg1 : arg1.IsWhole) (arg2 : Memref sig .tc .vmem S1x32 .f32) (harg2 : arg2.IsWhole)
    (arg3 : Memref sig .tc .vmem S8192x32 .f32) (harg3 : arg3.IsWhole)
    (x0 : Vec F S8192x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this region on core `c`: the arrays as the region finds them; after the body at point `t` each
    input's buffer at its block and the output's at `out3_2` of the two blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KReg4.lean ====
/-
  Region 4 of @main: the mean pool over graphs. The grid walks the 262144 node rows in 128 tiles of 2048. At every
  tile the body forms the one-hot matrix `[g = batch n]` (1024 graphs by the tile's 2048 nodes), adds its product with
  the tile's feature rows to a running sum and its product with a column of ones to a running count, both kept in
  scratch; the first tile starts both from zero, and the last tile stores `sum / max count 1` into the output block.
  Stated at the contents `V` the region is entered with.
-/
import proofs.«426532_j29326036697815_1_alg».proof.Proof.Gen.Kernel.Launch
import proofs.«426532_j29326036697815_1_alg».proof.Proof.Gen.Kernel.Skeleton
import proofs.«426532_j29326036697815_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks, and the scratch operands -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The feature rows' staging buffer holds the tile's block at every point: the body only reads it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The graph ids' staging buffer holds the tile's block at every point: the body only reads it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The running sum's scratch buffer and the running count's, whole. -/
abbrev scM4_0 : Memref sig .tc .vmem S1024x32 .f32 := Memref.whole cc4_scratch0
abbrev scM4_1 : Memref sig .tc .vmem S1024x1 .f32 := Memref.whole cc4_scratch1

/-! ## What the scratch holds after each point -/

/-- THE ACCUMULATION: the running sum and the running count after the body at point `n`. The first point adds the
    tile's two products to the zero fills, every later point to what the point before left. -/
def scAt4 (c : Dev nD) : (n : ℕ) → n < cfg4.N → Vec F S1024x32 .f32 × Vec F S1024x1 .f32
  | 0, hn => (k4_pay4 (iblk4 V c 1 ⟨0, hn⟩) (iblk4 V c 0 ⟨0, hn⟩) (k4_pay1 (F := F)),
      k4_pay5 (iblk4 V c 1 ⟨0, hn⟩) (k4_pay2 (F := F)))
  | n + 1, hn => (k4_pay4 (iblk4 V c 1 ⟨n + 1, hn⟩) (iblk4 V c 0 ⟨n + 1, hn⟩) (scAt4 c n (Nat.lt_of_succ_lt hn)).1,
      k4_pay5 (iblk4 V c 1 ⟨n + 1, hn⟩) (scAt4 c n (Nat.lt_of_succ_lt hn)).2)

theorem scAt4_zero (c : Dev nD) (hn : 0 < cfg4.N) :
    scAt4 V c 0 hn = (k4_pay4 (iblk4 V c 1 ⟨0, hn⟩) (iblk4 V c 0 ⟨0, hn⟩) (k4_pay1 (F := F)), k4_pay5 (iblk4 V c 1 ⟨0, hn⟩) (k4_pay2 (F := F))) := rfl

theorem scAt4_succ (c : Dev nD) (n : ℕ) (hn : n + 1 < cfg4.N) :
    scAt4 V c (n + 1) hn = (k4_pay4 (iblk4 V c 1 ⟨n + 1, hn⟩) (iblk4 V c 0 ⟨n + 1, hn⟩) (scAt4 V c n (Nat.lt_of_succ_lt hn)).1,
      k4_pay5 (iblk4 V c 1 ⟨n + 1, hn⟩) (scAt4 V c n (Nat.lt_of_succ_lt hn)).2) := rfl

/-- What the body stores into the output block at the last point: the running sum over the running count capped
    below by one (stated at every point; only the last point's is written back). -/
def out4_2 (c : Dev nD) (t : Fin cfg4.N) : Vec F S1024x32 .f32 :=
  k4_pay6 (scAt4 V c t.val t.isLt).2 (scAt4 V c t.val t.isLt).1

/-! ## The invariant: the two scratch buffers carried between points -/

/-- Every scoped buffer that is neither a staging buffer of this call nor one of its two scratch buffers, at some
    contents: the other calls' staging buffers, which this region never touches. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- Before point `n`: before the first point every scoped buffer at anything; afterwards the two scratch buffers at what
    the point before left in them, the other scoped buffers at anything, and the generator register at some state. -/
def PhiS4 (c : Dev nD) : (n : ℕ) → n ≤ cfg4.N → sProp 𝕄
  | 0, _ => Pipeline.ΦA spec4 c
  | n + 1, hn => iprop(owns (c : Thread nD τ) scM4_0 fullShare (scAt4 V c n hn).1
      ∗ owns (c : Thread nD τ) scM4_1 fullShare (scAt4 V c n hn).2 ∗ restBut4 (F := F) c ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) scM4_0 fullShare (scAt4 V c n hn).1
      ∗ owns (c : Thread nD τ) scM4_1 fullShare (scAt4 V c n hn).2 ∗ restBut4 (F := F) c ∗ (∃ r, prngReg c r)) := rfl

theorem PhiS4_pos (c : Dev nD) (n : ℕ) (h : n ≤ cfg4.N) (hz : n ≠ 0) :
    PhiS4 V c n h = iprop(owns (c : Thread nD τ) scM4_0 fullShare (scAt4 V c (n - 1) (by omega)).1
      ∗ owns (c : Thread nD τ) scM4_1 fullShare (scAt4 V c (n - 1) (by omega)).2 ∗ restBut4 (F := F) c ∗ (∃ r, prngReg c r)) := by
  cases n with
  | zero => exact absurd rfl hz
  | succ n => rfl

/-! ## The pipeline's proof data -/

/-- The proof data of this region on core `c`: the arrays as the region finds them; after the body at point `t` each
    input's buffer at its block and the output's at `out4_2`; the invariant carries the two scratch buffers; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body's two conditions, in closed form over the grid -/

/-- The condition of the body's first conditional: the tile is the first. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 128 = 0 :=
  (by decide +kernel : ∀ t : Fin grid4.N, cond4_0 (grid4.coords t) ↔ t.val % 128 = 0)
/-- The condition of the body's second conditional: the tile is the last. -/
abbrev cond4_1 (i : grid4.Coords) : Prop := k4_cond2 i = 1#1
theorem hcond4_1 : ∀ t : Fin cfg4.N, cond4_1 (grid4.coords t) ↔ t.val % 128 = 127 :=
  (by decide +kernel : ∀ t : Fin grid4.N, cond4_1 (grid4.coords t) ↔ t.val % 128 = 127)

/-- The two inputs' windows are never idle; the output's window is idle, and not written back, at every tile but the last. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem liveAt4_2 : ∀ t : Fin cfg4.N, cond4_1 (grid4.coords t) → cfg4.idle 2 (grid4.coords t) = false := by decide +kernel
theorem noFlush4_2 : ∀ t : Fin cfg4.N, ¬cond4_1 (grid4.coords t) → (cfg4.win 2).flush t = false := by decide +kernel

/-- The zero offsets of a whole-buffer access, however spelt. -/
theorem hz4 : (![0, 0] : Fin 2 → Nat) = fun _ => 0 := funext fun a => by fin_cases a <;> rfl

/-! ## The body's three triples, on whole buffers

Every access of the body is a whole buffer. It runs in one of three ways: at the first tile, at the last, and in between. -/

set_option maxHeartbeats 1000000 in
/-- The body at the first tile, on whole buffers: the feature rows at `x`, the graph ids at `b`, the output block at `xi`, the two
    scratch buffers at anything. It zeroes both scratch buffers and adds the tile's two products; the output block is left as it was. -/
theorem sound_kernel4_first (c : Dev nD) (E : Set ℕ) (i : grid4.Coords) (hc0 : cond4_0 i) (hc1 : ¬cond4_1 i)
    (arg1 : Memref sig .tc .vmem S2048x32 .f32) (harg1 : arg1.IsWhole) (arg2 : Memref sig .tc .vmem S1x2048 .i32) (harg2 : arg2.IsWhole)
    (arg3 : Memref sig .tc .vmem S1024x32 .f32) (harg3 : arg3.IsWhole) (arg4 : Memref sig .tc .vmem S1024x32 .f32) (harg4 : arg4.IsWhole)
    (arg5 : Memref sig .tc .vmem S1024x1 .f32) (harg5 : arg5.IsWhole)
    (x : Vec F S2048x32 .f32) (b : Vec F S1x2048 .i32) (xi : Vec F S1024x32 .f32) (K : PUnit → sProp 𝕄) :
    iprop(owns (c : Thread nD τ) arg1 fullShare x ∗ owns (c : Thread nD τ) arg2 fullShare b ∗ owns (c : Thread nD τ) arg3 fullShare xi
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare b ∗ owns (c : Thread nD τ) arg3 fullShare xi
            ∗ owns (c : Thread nD τ) arg4 fullShare (k4_pay4 b x (k4_pay1 (F := F))) ∗ owns (c : Thread nD τ) arg5 fullShare (k4_pay5 b (k4_pay2 (F := F)))) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero hz4 inb_S1024x32_S1024x32_0_0 y⟩)]
    sl_unfold_words
    rw [View.canon_cons_unit_zero hz4]
    simp only [View.readAt_eq_ld, View.ld_unit_zero (S := S1x2048) hz4, View.ld_unit_zero (S := S2048x32) hz4, View.readCov_unit_zero (S := S1024x32) _ hz4]
  iexists _; isplitr
  swap; · iexact H4
  ipureintro
  rw [View.read_writes_eq_canon _ _ _ (fun y => ⟨_, List.mem_cons.mpr (Or.inl rfl), View.mem_set_unit_zero hz4 inb_S1024x1_S1024x1_0_0 y⟩)]
  sl_unfold_words
  rw [View.canon_cons_unit_zero hz4]
  simp only [View.readAt_eq_ld, View.ld_unit_zero (S := S1x2048) hz4, View.readCov_unit_zero (S := S1024x1) _ hz4]

set_option maxHeartbeats 1000000 in
/-- The body at a tile that is neither the first nor the last, the two scratch buffers at `s` and `n`: it adds the tile's two
    products to them; the output block is left as it was. -/
theorem sound_kernel4_mid (c : Dev nD) (E : Set ℕ) (i : grid4.Coords) (hc0 : ¬cond4_0 i) (hc1 : ¬cond4_1 i)
    (arg1 : Memref sig .tc .vmem S2048x32 .f32) (harg1 : arg1.IsWhole) (arg2 : Memref sig .tc .vmem S1x2048 .i32) (harg2 : arg2.IsWhole)
    (arg3 : Memref sig .tc .vmem S1024x32 .f32) (harg3 : arg3.IsWhole) (arg4 : Memref sig .tc .vmem S1024x32 .f32) (harg4 : arg4.IsWhole)
    (arg5 : Memref sig .tc .vmem S1024x1 .f32) (harg5 : arg5.IsWhole)
    (x : Vec F S2048x32 .f32) (b : Vec F S1x2048 .i32) (xi : Vec F S1024x32 .f32) (s : Vec F S1024x32 .f32) (n : Vec F S1024x1 .f32) (K : PUnit → sProp 𝕄) :
    iprop(owns (c : Thread nD τ) arg1 fullShare x ∗ owns (c : Thread nD τ) arg2 fullShare b ∗ owns (c : Thread nD τ) arg3 fullShare xi
        ∗ owns (c : Thread nD τ) arg4 fullShare s ∗ owns (c : Thread nD τ) arg5 fullShare n
        ∗ (iprop(owns (c : Thread nD τ) arg1 fullShare x ∗ owns (c : Thread nD τ) arg2 fullShare b ∗ owns (c : Thread nD τ) arg3 fullShare xi
            ∗ owns (c : Thread nD τ) arg4 fullShare (k4_pay4 b x s) ∗ owns (c : Thread nD τ) arg5 fullShare (k4_pay5 b n)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero hz4 inb_S1024x32_S1024x32_0_0 y⟩)]
    sl_unfold_words
    rw [View.canon_cons_unit_zero hz4]
    simp only [View.readAt_eq_ld, View.ld_unit_zero (S := S1x2048) hz4, View.ld_unit_zero (S := S2048x32) hz4, View.ld_unit_zero (S := S1024x32) hz4]
  iexists _; isplitr
  swap; · iexact H4
  ipureintro
  rw [View.read_writes_eq_canon _ _ _ (fun y => ⟨_, List.mem_cons.mpr (Or.inl rfl), View.mem_set_unit_zero hz4 inb_S1024x1_S1024x1_0_0 y⟩)]
  sl_unfold_words
  rw [View.canon_cons_unit_zero hz4]
  simp only [View.readAt_eq_ld, View.ld_unit_zero (S := S1x2048) hz4, View.ld_unit_zero (S := S1024x1) hz4]

set_option maxHeartbeats 1000000 in
/-- The body at the last tile, the two scratch buffers at `s` and `n` and the output block at anything: it adds the tile's two
    products to the scratch buffers and stores the new sum over the new count capped below by one into the output block. -/
theorem sound_kernel4_last (c : Dev nD) (E : Set ℕ) (i : grid4.Coords) (hc0 : ¬cond4_0 i) (hc1 : cond4_1 i)
    (arg1 : Memref sig .tc .vmem S2048x32 .f32) (harg1 : arg1.IsWhole) (arg2 : Memref sig .tc .vmem S1x2048 .i32) (harg2 : arg2.IsWhole)
    (arg3 : Memref sig .tc .vmem S1024x32 .f32) (harg3 : arg3.IsWhole) (arg4 : Memref sig .tc .vmem S1024x32 .f32) (harg4 : arg4.IsWhole)
    (arg5 : Memref sig .tc .vmem S1024x1 .f32) (harg5 : arg5.IsWhole)
    (x : Vec F S2048x32 .f32) (b : Vec F S1x2048 .i32) (s : Vec F S1024x32 .f32) (n : Vec F S1024x1 .f32) (K : PUnit → sProp 𝕄) :
    iprop(owns (c : Thread nD τ) arg1 fullShare x ∗ owns (c : Thread nD τ) arg2 fullShare b ∗ (∃ d, owns (c : Thread nD τ) arg3 fullShare d)
        ∗ owns (c : Thread nD τ) arg4 fullShare s ∗ owns (c : Thread nD τ) arg5 fullShare n
        ∗ (iprop(owns (c : Thread nD τ) arg1 fullShare x ∗ owns (c : Thread nD τ) arg2 fullShare b
            ∗ owns (c : Thread nD τ) arg3 fullShare (k4_pay6 (k4_pay5 b n) (k4_pay4 b x s))
            ∗ owns (c : Thread nD τ) arg4 fullShare (k4_pay4 b x s) ∗ owns (c : Thread nD τ) arg5 fullShare (k4_pay5 b n)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons.mpr (Or.inl rfl), View.mem_set_unit_zero hz4 inb_S1024x32_S1024x32_0_0 y⟩)]
    rw [View.canon_cons_unit_zero hz4]
    simp only [View.readAt_eq_ld, View.ld_unit_zero (S := S1x2048) hz4, View.ld_unit_zero (S := S2048x32) hz4, View.ld_unit_zero (S := S1024x32) hz4,
      View.ld_unit_zero (S := S1024x1) hz4, View.readCov_unit_zero (S := S1024x32) _ hz4, View.readCov_unit_zero (S := S1024x1) _ hz4]
  isplitl [H3]
  · iexists _; isplitr
    swap; · iexact H3
    ipureintro
    sl_unfold_words
    rw [View.read_writes_eq_canon _ _ _ (fun y => ⟨_, List.mem_cons.mpr (Or.inl rfl), View.mem_set_unit_zero hz4 inb_S1024x32_S1024x32_0_0 y⟩)]
    rw [View.canon_cons_unit_zero hz4]
    simp only [View.readAt_eq_ld, View.ld_unit_zero (S := S1x2048) hz4, View.ld_unit_zero (S := S2048x32) hz4, View.ld_unit_zero (S := S1024x32) hz4]
  iexists _; isplitr
  swap; · iexact H4
  ipureintro
  sl_unfold_words
  rw [View.read_writes_eq_canon _ _ _ (fun y => ⟨_, List.mem_cons.mpr (Or.inl rfl), View.mem_set_unit_zero hz4 inb_S1024x1_S1024x1_0_0 y⟩)]
  rw [View.canon_cons_unit_zero hz4]
  simp only [View.readAt_eq_ld, View.ld_unit_zero (S := S1x2048) hz4, View.ld_unit_zero (S := S1024x1) hz4]

/-! ## The launch's invariant, opened at the two scratch buffers -/

/-- The launch's invariant with the two scratch buffers as memrefs owned at some contents, the other scoped buffers
    unopened, and the generator register. -/
theorem PhiA4_eq (c : Dev nD) :
    (Pipeline.ΦA spec4 c : sProp 𝕄)
      = iprop((((∃ d, owns (c : Thread nD τ) scM4_0 fullShare d) ∗ (∃ d, owns (c : Thread nD τ) scM4_1 fullShare d)) ∗ restBut4 (F := F) c) ∗ ∃ r, prngReg c r) := by
  unfold Pipeline.ΦA
  rw [Pipeline.scopedRest_split_of_list spec4 c [cc4_scratch0, cc4_scratch1] (by decide) (by decide)]
  simp only [scM4_0, scM4_1, owns_whole]
  rfl

/-! ## The accumulation, point by point -/

theorem scAt4_first (c : Dev nD) (t : Fin cfg4.N) (hz : t.val = 0) :
    scAt4 V c t.val t.isLt = (k4_pay4 (iblk4 V c 1 t) (iblk4 V c 0 t) (k4_pay1 (F := F)), k4_pay5 (iblk4 V c 1 t) (k4_pay2 (F := F))) := by
  obtain ⟨n, hn⟩ := t
  cases n with
  | zero => rfl
  | succ n => exact absurd hz (Nat.succ_ne_zero n)

theorem scAt4_pos (c : Dev nD) (t : Fin cfg4.N) (hz : t.val ≠ 0) :
    scAt4 V c t.val t.isLt = (k4_pay4 (iblk4 V c 1 t) (iblk4 V c 0 t) (scAt4 V c (t.val - 1) (Nat.lt_of_le_of_lt (Nat.sub_le _ _) t.isLt)).1,
      k4_pay5 (iblk4 V c 1 t) (scAt4 V c (t.val - 1) (Nat.lt_of_le_of_lt (Nat.sub_le _ _) t.isLt)).2) := by
  obtain ⟨n, hn⟩ := t
  cases n with
  | zero => exact absurd rfl hz
  | succ n => rfl

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' buffers hold the tile's blocks; the closed forms say whether the tile is the first, the
    last or neither. At the first tile the invariant hands over the two scratch buffers at anything, afterwards at what the tile
    before left; it takes them back at this tile's sum and count. The output's buffer is handed back untouched at every tile
    but the last, where it receives the quotient. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).Φ t.castSucc = PhiS4 V c t.val (Nat.le_of_lt t.isLt) from rfl]
  have hN : t.val < 128 := lt_of_lt_of_eq t.isLt (show cfg4.N = 128 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  by_cases h0 : t.val % 128 = 0
  · have h1 : ¬t.val % 128 = 127 := by omega
    have hz : t.val = 0 := by omega
    have hc0 : cond4_0 (grid4.coords t) := (hcond4_0 t).mpr h0
    have hc1 : ¬cond4_1 (grid4.coords t) := fun h => h1 ((hcond4_1 t).mp h)
    rw [Dat.leavesExact_idle (dat4 V c) 2 t (idleAt4_2 t hc1) (noFlush4_2 t hc1)]
    rw [scAt4_first V c t hz]; dsimp only
    rw [PhiS4_zero V c _ _ hz, PhiA4_eq]
    iintro ⟨⟨⟨⟨HS0, HS1⟩, Hr⟩, Hg⟩, Ho, ⟨%d0, H0⟩, ⟨%d1, H1⟩, ⟨%d2, H2⟩⟩
    iapply (sound_kernel4_first c Set.univ _ hc0 hc1 _ _ _ _ _ _ _ _ _ _ (iblk4 V c 0 t) (iblk4 V c 1 t) ((dat4 V c).before 2 t d2) _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    iexists _; iexact H2
  · have hz : t.val ≠ 0 := by omega
    have hc0 : ¬cond4_0 (grid4.coords t) := fun h => h0 ((hcond4_0 t).mp h)
    by_cases h1 : t.val % 128 = 127
    · have hc1 : cond4_1 (grid4.coords t) := (hcond4_1 t).mpr h1
      rw [show (dat4 V c).leavesExact 2 t = owns (c : Thread nD τ) (st4_2 t) fullShare ((dat4 V c).after 2 t) from by
        unfold Dat.leavesExact; rw [liveAt4_2 t hc1], after4_2]
      unfold out4_2
      rw [scAt4_pos V c t hz]; dsimp only
      rw [PhiS4_pos V c _ _ hz]
      iintro ⟨⟨HS0, HS1, Hr, Hg⟩, Ho, ⟨%d0, H0⟩, ⟨%d1, H1⟩, ⟨%d2, H2⟩⟩
      iapply (sound_kernel4_last c Set.univ _ hc0 hc1 _ _ _ _ _ _ _ _ _ _ (iblk4 V c 0 t) (iblk4 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      rw [scAt4_pos V c t hz]; dsimp only
      rw [PhiS4_pos V c _ _ hz]
      iintro ⟨⟨HS0, HS1, Hr, Hg⟩, Ho, ⟨%d0, H0⟩, ⟨%d1, H1⟩, ⟨%d2, H2⟩⟩
      iapply (sound_kernel4_mid c Set.univ _ hc0 hc1 _ _ _ _ _ _ _ _ _ _ (iblk4 V c 0 t) (iblk4 V c 1 t) ((dat4 V c).before 2 t d2) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives every scoped buffer back at some contents: the scratch buffers' named
    contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 128 := N_4; omega), PhiA4_eq]
  iintro ⟨HS0, HS1, Hr, Hg⟩
  isplitr [Hg]
  · isplitr [Hr]
    · isplitl [HS0]
      · iexists _; iexact HS0
      · iexists _; iexact HS1
    · iexact Hr
  · iexact Hg

end Cert.Kernel.Hand

end
-- ==== Proof.KData.lean ====
/-
  The run's data: what every unscoped buffer of a core holds at each boundary between two items of @main — the launch contents folded through the host stretches and, at a kernel region, its arrays replaced by what the region's write-backs leave —, the proof data of the five regions each at its entry contents, and what rides beside the buffers through every item (the generator register at some state, nothing owed).
-/
import proofs.«426532_j29326036697815_1_alg».proof.Proof.KReg0
import proofs.«426532_j29326036697815_1_alg».proof.Proof.KReg1
import proofs.«426532_j29326036697815_1_alg».proof.Proof.KReg2
import proofs.«426532_j29326036697815_1_alg».proof.Proof.KReg3
import proofs.«426532_j29326036697815_1_alg».proof.Proof.KReg4
import proofs.«426532_j29326036697815_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through @main -/

/-- Core `c`'s buffers at launch. -/
abbrev W0 : Dev nD → Valuation τ sig (Elt F) := fun c b => m (c, b)

/-- After the host stretch `hostOps0` (the edge lists with self loops, the degrees and their inverse square roots). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After the host stretch `hostOps0_1` (the inverse square roots where the degree is positive, zero elsewhere). -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

/-- After the host stretch `hostOps0_2` (the edge weights; region 0's entry). -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At region 0's exit: its arrays at what the pipeline leaves (the inputs as entered, the output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the core's references. -/
abbrev V4 : (c : Dev nD) → (b : Ref sig .tc) → Buf (Elt F) ((c : Thread nD τ).loc b) := fun c b => W4 m c b
/-- At region 0's exit each of its arrays holds what the pipeline leaves, and every other buffer what it held at entry. -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host stretch `hostOps1` (the first aggregation and the first bias as a row; region 1's entry). -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves (the inputs as entered, the output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the core's references. -/
abbrev V6 : (c : Dev nD) → (b : Ref sig .tc) → Buf (Elt F) ((c : Thread nD τ).loc b) := fun c b => W6 m c b
/-- At region 1's exit each of its arrays holds what the pipeline leaves, and every other buffer what it held at entry. -/
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- At region 2's exit: its arrays at what the pipeline leaves (the inputs as entered, the output's write-backs folded),
    every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the core's references. -/
abbrev V7 : (c : Dev nD) → (b : Ref sig .tc) → Buf (Elt F) ((c : Thread nD τ).loc b) := fun c b => W7 m c b
/-- At region 2's exit each of its arrays holds what the pipeline leaves, and every other buffer what it held at entry. -/
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- After the host stretch `hostOps3` (the second aggregation and the second bias as a row; region 3's entry). -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b

/-- At region 3's exit: its arrays at what the pipeline leaves (the inputs as entered, the output's write-backs folded),
    every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The same read at the core's references. -/
abbrev V9 : (c : Dev nD) → (b : Ref sig .tc) → Buf (Elt F) ((c : Thread nD τ).loc b) := fun c b => W9 m c b
/-- At region 3's exit each of its arrays holds what the pipeline leaves, and every other buffer what it held at entry. -/
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

/-- After the host stretch `hostOps4` (the graph ids as a row; region 4's entry). -/
abbrev W10 : Dev nD → Valuation τ sig (Elt F) := fun c => StableHlo.after hostOps4 (W9 m c)
abbrev V10 : (c : Dev nD) → (b : Ref sig .tc) → Buf (Elt F) ((c : Thread nD τ).loc b) := fun c b => W10 m c b

/-- At region 4's exit: its arrays at what the pipeline leaves (the inputs as entered, the output's write-backs folded),
    every other buffer as entered. -/
def W11 (c : Dev nD) : Valuation τ sig (Elt F) :=
  Pipeline.withArrays spec4 c (W10 m c) fun w => (dat4 (V10 m) c).arrAt w cfg4.N
theorem W11_arr (c : Dev nD) (w : Fin cfg4.W) :
    W11 m c (Proc.devRef .tc (Pipeline.arrRef spec4 w)) = (dat4 (V10 m) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb
/-- The same read at the core's references. -/
abbrev V11 : (c : Dev nD) → (b : Ref sig .tc) → Buf (Elt F) ((c : Thread nD τ).loc b) := fun c b => W11 m c b
/-- At region 4's exit each of its arrays holds what the pipeline leaves, and every other buffer what it held at entry. -/
theorem hF4 (c : Dev nD) (w : Fin cfg4.W) : (dat4 (V10 m) c).arrAt w cfg4.N = V11 m c (Pipeline.arrRef spec4 w) :=
  (W11_arr m c w).symm
theorem hrest4 (c : Dev nD) : ∀ b, b ∉ Finset.univ.image (Pipeline.arrRef spec4) → V11 m c b = V10 m c b :=
  fun b hb => W11_of_ne m c b fun w e => hb (Finset.mem_image.mpr ⟨w, Finset.mem_univ _, e⟩)

/-- After the host stretch `hostOps5` (the final linear layer; what @main returns). -/
abbrev W12 : Dev nD → Valuation τ sig (Elt F) := fun c => StableHlo.after hostOps5 (W11 m c)
abbrev V12 : (c : Dev nD) → (b : Ref sig .tc) → Buf (Elt F) ((c : Thread nD τ).loc b) := fun c b => W12 m c b

/-! ## The proof-data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
  | ⟨4, _⟩ => fun c => dat4 (V10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W12 m c) ∗ ∃ r, prngReg c r)

end Cert.Kernel.Hand

end
-- ==== Proof.KSeg0.lean ====
/-
  Region 0 of @main as a segment of the run: entered from every unscoped buffer at the boundary's contents, left with its arrays at what the region's write-backs leave. Its arrays are split out of the unscoped buffers at entry and put back at exit; the generator register goes into the region's invariant and comes back; nothing is owed; the kernel has no semaphore of its own.
-/
import proofs.«426532_j29326036697815_1_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg1.lean ====
/-
  Region 1 of @main as a segment of the run: entered from every unscoped buffer at the boundary's contents, left with its arrays at what the region's write-backs leave. Its arrays are split out of the unscoped buffers at entry and put back at exit; the generator register goes into the region's invariant and comes back; nothing is owed; the kernel has no semaphore of its own.
-/
import proofs.«426532_j29326036697815_1_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg2.lean ====
/-
  Region 2 of @main as a segment of the run: entered from every unscoped buffer at the boundary's contents, left with its arrays at what the region's write-backs leave. Its arrays are split out of the unscoped buffers at entry and put back at exit; the generator register goes into the region's invariant and comes back; nothing is owed; the kernel has no semaphore of its own.
-/
import proofs.«426532_j29326036697815_1_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg3.lean ====
/-
  Region 3 of @main as a segment of the run: entered from every unscoped buffer at the boundary's contents, left with its arrays at what the region's write-backs leave. Its arrays are split out of the unscoped buffers at entry and put back at exit; the generator register goes into the region's invariant and comes back; nothing is owed; the kernel has no semaphore of its own.
-/
import proofs.«426532_j29326036697815_1_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KSeg4.lean ====
/-
  Region 4 of @main as a segment of the run: entered from every unscoped buffer at the boundary's contents, left with its arrays at what the region's write-backs leave. Its arrays are split out of the unscoped buffers at entry and put back at exit; the generator register goes into the region's invariant and comes back; nothing is owed; the kernel has no semaphore of its own.
-/
import proofs.«426532_j29326036697815_1_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (V10 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V10 m) c); unfold Pipeline.ΦA
    iintro ⟨Hp, -, Hr⟩
    isplitl [Hr]; · iexact Hr
    iexact Hp
  hout c := by
    rw [Pipeline.ownSems0_none]; refine BIBase.Entails.trans (hout4 (V10 m) c) ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V10 m c) (V11 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRun.lean ====
/-
  The run of @main: its twelve items in order — a host segment per stretch of host operations from its boundary's contents, a region per kernel call — launched from any memory with zero counters. Every weakly fair execution terminates, nothing faulting, and every final memory holds each unscoped buffer of each core at the last boundary's contents `W12`: the statement the frame claim and the value claim both read.
-/
import proofs.«426532_j29326036697815_1_alg».proof.Proof.KSeg0
import proofs.«426532_j29326036697815_1_alg».proof.Proof.KSeg1
import proofs.«426532_j29326036697815_1_alg».proof.Proof.KSeg2
import proofs.«426532_j29326036697815_1_alg».proof.Proof.KSeg3
import proofs.«426532_j29326036697815_1_alg».proof.Proof.KSeg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- @main's twelve segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .host (hseg hostOps4 hostOps4_sub hostOps4_fresh (W9 m)),
    .region (reg4 m),
    .host (hseg hostOps5 hostOps5_sub hostOps5_fresh (W11 m)) ]

/-- After the last host stretch: the buffers beside the generator register, and the dues apart (a re-association). -/
theorem hlast (c : Dev nD) :
    (iprop(StableHlo.held (c : Thread nD τ) (Pipeline.ucRefs τ sig) (W12 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-- @main IS the run of the segments. -/
theorem main_run (c : Dev nD) : main (F := F) c = Pipeline.Seg.run (segs m) := (main_chain c).trans (by chain_rfl)

-- the launch theorem's implicit arguments are found by unifying its conclusion with this one, which takes unfolding plain
-- definitions in a metavariable's type
set_option backward.isDefEq.respectTransparency.types false in
/-- THE RUN: at the compiled mesh, from any memory with zero counters, every weakly fair execution of @main terminates,
    nothing faulting, and every final state has every unscoped buffer `b` of every core at `W12 m c b`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.Kernel.Hand

end
-- ==== Proof.KFrame.lean ====
/-
  The arguments, and the result, read off the run: no host stretch writes an argument array and a region changes only its output array, so each argument's buffer at the last boundary is its launch contents — the frame claim —, and the result buffer holds the last boundary's contents of it, which the value claim evaluates.
-/
import proofs.«426532_j29326036697815_1_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- Region 0 changes only its output array: every other unscoped buffer, its two input arrays included, is as entered. -/
theorem W4_keep (c : Dev nD) (r : Ref sig .tc) (h : Pipeline.arrRef spec0 2 ≠ r) :
    W4 m c (Proc.devRef .tc r) = W3 m c (Proc.devRef .tc r) := by
  by_cases h0 : Pipeline.arrRef spec0 0 = r
  · subst h0; exact (W4_arr m c 0).trans (((dat0 (V3 m) c).arrAt_in 0 rfl _).trans (A_eq0 (V3 m) c 0))
  by_cases h1 : Pipeline.arrRef spec0 1 = r
  · subst h1; exact (W4_arr m c 1).trans (((dat0 (V3 m) c).arrAt_in 1 rfl _).trans (A_eq0 (V3 m) c 1))
  exact W4_of_ne m c r (fun w => by
    match w with
    | ⟨0, _⟩ => exact h0
    | ⟨1, _⟩ => exact h1
    | ⟨2, _⟩ => exact h)

/-- Region 1 changes only its output array: every other unscoped buffer, its two input arrays included, is as entered. -/
theorem W6_keep (c : Dev nD) (r : Ref sig .tc) (h : Pipeline.arrRef spec1 2 ≠ r) :
    W6 m c (Proc.devRef .tc r) = W5 m c (Proc.devRef .tc r) := by
  by_cases h0 : Pipeline.arrRef spec1 0 = r
  · subst h0; exact (W6_arr m c 0).trans (((dat1 (V5 m) c).arrAt_in 0 rfl _).trans (A_eq1 (V5 m) c 0))
  by_cases h1 : Pipeline.arrRef spec1 1 = r
  · subst h1; exact (W6_arr m c 1).trans (((dat1 (V5 m) c).arrAt_in 1 rfl _).trans (A_eq1 (V5 m) c 1))
  exact W6_of_ne m c r (fun w => by
    match w with
    | ⟨0, _⟩ => exact h0
    | ⟨1, _⟩ => exact h1
    | ⟨2, _⟩ => exact h)

/-- Region 2 changes only its output array: every other unscoped buffer, its two input arrays included, is as entered. -/
theorem W7_keep (c : Dev nD) (r : Ref sig .tc) (h : Pipeline.arrRef spec2 2 ≠ r) :
    W7 m c (Proc.devRef .tc r) = W6 m c (Proc.devRef .tc r) := by
  by_cases h0 : Pipeline.arrRef spec2 0 = r
  · subst h0; exact (W7_arr m c 0).trans (((dat2 (V6 m) c).arrAt_in 0 rfl _).trans (A_eq2 (V6 m) c 0))
  by_cases h1 : Pipeline.arrRef spec2 1 = r
  · subst h1; exact (W7_arr m c 1).trans (((dat2 (V6 m) c).arrAt_in 1 rfl _).trans (A_eq2 (V6 m) c 1))
  exact W7_of_ne m c r (fun w => by
    match w with
    | ⟨0, _⟩ => exact h0
    | ⟨1, _⟩ => exact h1
    | ⟨2, _⟩ => exact h)

/-- Region 3 changes only its output array: every other unscoped buffer, its two input arrays included, is as entered. -/
theorem W9_keep (c : Dev nD) (r : Ref sig .tc) (h : Pipeline.arrRef spec3 2 ≠ r) :
    W9 m c (Proc.devRef .tc r) = W8 m c (Proc.devRef .tc r) := by
  by_cases h0 : Pipeline.arrRef spec3 0 = r
  · subst h0; exact (W9_arr m c 0).trans (((dat3 (V8 m) c).arrAt_in 0 rfl _).trans (A_eq3 (V8 m) c 0))
  by_cases h1 : Pipeline.arrRef spec3 1 = r
  · subst h1; exact (W9_arr m c 1).trans (((dat3 (V8 m) c).arrAt_in 1 rfl _).trans (A_eq3 (V8 m) c 1))
  exact W9_of_ne m c r (fun w => by
    match w with
    | ⟨0, _⟩ => exact h0
    | ⟨1, _⟩ => exact h1
    | ⟨2, _⟩ => exact h)

/-- Region 4 changes only its output array: every other unscoped buffer, its two input arrays included, is as entered. -/
theorem W11_keep (c : Dev nD) (r : Ref sig .tc) (h : Pipeline.arrRef spec4 2 ≠ r) :
    W11 m c (Proc.devRef .tc r) = W10 m c (Proc.devRef .tc r) := by
  by_cases h0 : Pipeline.arrRef spec4 0 = r
  · subst h0; exact (W11_arr m c 0).trans (((dat4 (V10 m) c).arrAt_in 0 rfl _).trans (A_eq4 (V10 m) c 0))
  by_cases h1 : Pipeline.arrRef spec4 1 = r
  · subst h1; exact (W11_arr m c 1).trans (((dat4 (V10 m) c).arrAt_in 1 rfl _).trans (A_eq4 (V10 m) c 1))
  exact W11_of_ne m c r (fun w => by
    match w with
    | ⟨0, _⟩ => exact h0
    | ⟨1, _⟩ => exact h1
    | ⟨2, _⟩ => exact h)

/-- A buffer that no host stretch writes and that is no region's output array holds its launch contents at the end. -/
theorem W12_keep (c : Dev nD) (r : Ref sig .tc)
    (h0 : r ∉ hostOps0_W) (h01 : r ∉ hostOps0_1_W) (h02 : r ∉ hostOps0_2_W) (h1 : r ∉ hostOps1_W) (h3 : r ∉ hostOps3_W)
    (h4 : r ∉ hostOps4_W) (h5 : r ∉ hostOps5_W)
    (k0 : Pipeline.arrRef spec0 2 ≠ r) (k1 : Pipeline.arrRef spec1 2 ≠ r) (k2 : Pipeline.arrRef spec2 2 ≠ r)
    (k3 : Pipeline.arrRef spec3 2 ≠ r) (k4 : Pipeline.arrRef spec4 2 ≠ r) :
    W12 m c (Proc.devRef .tc r) = m ((c : Thread nD τ).loc r) :=
  (StableHlo.after_of_writes_sub hostOps5 _ hostOps5_writes h5).trans <|
  (W11_keep m c r k4).trans <|
  (StableHlo.after_of_writes_sub hostOps4 _ hostOps4_writes h4).trans <|
  (W9_keep m c r k3).trans <|
  (StableHlo.after_of_writes_sub hostOps3 _ hostOps3_writes h3).trans <|
  (W7_keep m c r k2).trans <|
  (W6_keep m c r k1).trans <|
  (StableHlo.after_of_writes_sub hostOps1 _ hostOps1_writes h1).trans <|
  (W4_keep m c r k0).trans <|
  (StableHlo.after_of_writes_sub hostOps0_2 _ hostOps0_2_writes h02).trans <|
  (StableHlo.after_of_writes_sub hostOps0_1 _ hostOps0_1_writes h01).trans <|
  (StableHlo.after_of_writes_sub hostOps0 _ hostOps0_writes h0).trans rfl

/-- THE FRAME at any float family: from any memory with zero counters every weakly fair execution of @main terminates,
    nothing faulting, and every final state has the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W12_keep m c main_arg0 (by decide) (by decide) (by decide) (by decide) (by decide) (by decide) (by decide) (by decide) (by decide) (by decide) (by decide) (by decide)),
     (h c _ (mem_uc main_arg1 (by decide))).trans (W12_keep m c main_arg1 (by decide) (by decide) (by decide) (by decide) (by decide) (by decide) (by decide) (by decide) (by decide) (by decide) (by decide) (by decide)),
     (h c _ (mem_uc main_arg2 (by decide))).trans (W12_keep m c main_arg2 (by decide) (by decide) (by decide) (by decide) (by decide) (by decide) (by decide) (by decide) (by decide) (by decide) (by decide) (by decide)),
     (h c _ (mem_uc main_arg3 (by decide))).trans (W12_keep m c main_arg3 (by decide) (by decide) (by decide) (by decide) (by decide) (by decide) (by decide) (by decide) (by decide) (by decide) (by decide) (by decide)),
     (h c _ (mem_uc main_arg4 (by decide))).trans (W12_keep m c main_arg4 (by decide) (by decide) (by decide) (by decide) (by decide) (by decide) (by decide) (by decide) (by decide) (by decide) (by decide) (by decide)),
     (h c _ (mem_uc main_arg5 (by decide))).trans (W12_keep m c main_arg5 (by decide) (by decide) (by decide) (by decide) (by decide) (by decide) (by decide) (by decide) (by decide) (by decide) (by decide) (by decide)),
     (h c _ (mem_uc main_arg6 (by decide))).trans (W12_keep m c main_arg6 (by decide) (by decide) (by decide) (by decide) (by decide) (by decide) (by decide) (by decide) (by decide) (by decide) (by decide) (by decide)),
     (h c _ (mem_uc main_arg7 (by decide))).trans (W12_keep m c main_arg7 (by decide) (by decide) (by decide) (by decide) (by decide) (by decide) (by decide) (by decide) (by decide) (by decide) (by decide) (by decide)),
     (h c _ (mem_uc main_arg8 (by decide))).trans (W12_keep m c main_arg8 (by decide) (by decide) (by decide) (by decide) (by decide) (by decide) (by decide) (by decide) (by decide) (by decide) (by decide) (by decide))⟩)
    (run_all m ρ)

/-- THE RUN, re-posted for the value claim: the result buffer at the last boundary's contents of it, the arguments as
    launched. -/
theorem value_run : θ_run defs (onTc (τ := τ) (main (F := F))) ⟨m, fun _ => 0, ρ⟩ (fun r => ∀ c : Dev nD,
      r.2.mem ((c.tc : Thread nD τ).loc main_v68) = W12 m c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v68 (by decide)),
     (h c _ (mem_uc main_arg0 (by decide))).trans (W12_keep m c main_arg0 (by decide) (by decide) (by decide) (by decide) (by decide) (by decide) (by decide) (by decide) (by decide) (by decide) (by decide) (by decide)),
     (h c _ (mem_uc main_arg1 (by decide))).trans (W12_keep m c main_arg1 (by decide) (by decide) (by decide) (by decide) (by decide) (by decide) (by decide) (by decide) (by decide) (by decide) (by decide) (by decide)),
     (h c _ (mem_uc main_arg2 (by decide))).trans (W12_keep m c main_arg2 (by decide) (by decide) (by decide) (by decide) (by decide) (by decide) (by decide) (by decide) (by decide) (by decide) (by decide) (by decide)),
     (h c _ (mem_uc main_arg3 (by decide))).trans (W12_keep m c main_arg3 (by decide) (by decide) (by decide) (by decide) (by decide) (by decide) (by decide) (by decide) (by decide) (by decide) (by decide) (by decide)),
     (h c _ (mem_uc main_arg4 (by decide))).trans (W12_keep m c main_arg4 (by decide) (by decide) (by decide) (by decide) (by decide) (by decide) (by decide) (by decide) (by decide) (by decide) (by decide) (by decide)),
     (h c _ (mem_uc main_arg5 (by decide))).trans (W12_keep m c main_arg5 (by decide) (by decide) (by decide) (by decide) (by decide) (by decide) (by decide) (by decide) (by decide) (by decide) (by decide) (by decide)),
     (h c _ (mem_uc main_arg6 (by decide))).trans (W12_keep m c main_arg6 (by decide) (by decide) (by decide) (by decide) (by decide) (by decide) (by decide) (by decide) (by decide) (by decide) (by decide) (by decide)),
     (h c _ (mem_uc main_arg7 (by decide))).trans (W12_keep m c main_arg7 (by decide) (by decide) (by decide) (by decide) (by decide) (by decide) (by decide) (by decide) (by decide) (by decide) (by decide) (by decide)),
     (h c _ (mem_uc main_arg8 (by decide))).trans (W12_keep m c main_arg8 (by decide) (by decide) (by decide) (by decide) (by decide) (by decide) (by decide) (by decide) (by decide) (by decide) (by decide) (by decide))⟩)
    (run_all m ρ)

end Cert.Kernel.Hand

end
-- ==== Proof.KIReg0.lean ====
/-
  Region 0 of @main: the first projection, `x @ W1`, one block of 8192 rows per grid point. The body loads the block of `x` and the whole weight matrix, and stores their matrix product into the output block. Stated at the contents `V` the region is entered with.
-/
import proofs.«426532_j29326036697815_1_alg».proof.Proof.Gen.KernelIdeal.Launch
import proofs.«426532_j29326036697815_1_alg».proof.Proof.Gen.KernelIdeal.Skeleton
import proofs.«426532_j29326036697815_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point: the body only reads it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's block index never moves, so it is fetched once; its buffer still holds the block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole staging buffer -/

abbrev r0_0 : Rect S8192x10 := Rect.unit (s := S8192x10) ![0, 0] S8192x10.size inb_S8192x10_S8192x10_0_0
abbrev r0_1 : Rect S10x32 := Rect.unit (s := S10x32) ![0, 0] S10x32.size inb_S10x32_S10x32_0_0
abbrev r0_2 : Rect S8192x32 := Rect.unit (s := S8192x32) ![0, 0] S8192x32.size inb_S8192x32_S8192x32_0_0

/-- What the body leaves in the output's staging buffer: its one store, of the payload of the two loaded blocks. -/
def out0_2 (x0 : Vec F S8192x10 .f32) (x1 : Vec F S10x32 .f32) : Vec F S8192x32 .f32 :=
  View.canon [⟨r0_2, k0_pay1 (View.ld x0 r0_0) (View.ld x1 r0_1)⟩]

/-- The one store covers the output's buffer. -/
theorem cover0_2 (p0 : Vec F S8192x32 .f32) (y : S8192x32.Idx) :
    ∃ pc ∈ ([⟨r0_2, p0⟩] : List (View.Piece (Elt F) S8192x32 .f32)), y ∈ pc.1.set :=
  View.cover_of_tiled [⟨r0_2, p0⟩] S8192x32.size (by rfl) y

/-! ## The body's triple -/

set_option maxHeartbeats 1000000 in
/-- The body on whole staging buffers, the inputs' at contents `x0`, `x1` and the output's at anything: it ends with the
    inputs' buffers as they were and the output's at `out0_2 x0 x1`. -/
theorem sound_kernel0 (c : Dev nD) (E : Set ℕ) (i : grid0.Coords)
    (arg1 : Memref sig .tc .vmem S8192x10 .f32) (harg1 : arg1.IsWhole) (arg2 : Memref sig .tc .vmem S10x32 .f32) (harg2 : arg2.IsWhole)
    (arg3 : Memref sig .tc .vmem S8192x32 .f32) (harg3 : arg3.IsWhole)
    (x0 : Vec F S8192x10 .f32) (x1 : Vec F S10x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this region on core `c`: the arrays as the region finds them; after the body at point `t` each
    input's buffer at its block and the output's at `out0_2` of the two blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
/-
  Region 1 of @main: the first layer's bias and positive part, `max (agg1 + b1) 0`, one block of 8192 rows per grid point. The body loads the block of aggregated rows and the bias row, and stores the biased, clamped block. Stated at the contents `V` the region is entered with.
-/
import proofs.«426532_j29326036697815_1_alg».proof.Proof.Gen.KernelIdeal.Launch
import proofs.«426532_j29326036697815_1_alg».proof.Proof.Gen.KernelIdeal.Skeleton
import proofs.«426532_j29326036697815_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point: the body only reads it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The second input's block index never moves, so it is fetched once; its buffer still holds the block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole staging buffer -/

abbrev r1_0 : Rect S8192x32 := Rect.unit (s := S8192x32) ![0, 0] S8192x32.size inb_S8192x32_S8192x32_0_0
abbrev r1_1 : Rect S1x32 := Rect.unit (s := S1x32) ![0, 0] S1x32.size inb_S1x32_S1x32_0_0
abbrev r1_2 : Rect S8192x32 := Rect.unit (s := S8192x32) ![0, 0] S8192x32.size inb_S8192x32_S8192x32_0_0

/-- What the body leaves in the output's staging buffer: its one store, of the payload of the two loaded blocks. -/
def out1_2 (x0 : Vec F S8192x32 .f32) (x1 : Vec F S1x32 .f32) : Vec F S8192x32 .f32 :=
  View.canon [⟨r1_2, k1_pay1 (View.ld x0 r1_0) (View.ld x1 r1_1)⟩]

/-- The one store covers the output's buffer. -/
theorem cover1_2 (p0 : Vec F S8192x32 .f32) (y : S8192x32.Idx) :
    ∃ pc ∈ ([⟨r1_2, p0⟩] : List (View.Piece (Elt F) S8192x32 .f32)), y ∈ pc.1.set :=
  View.cover_of_tiled [⟨r1_2, p0⟩] S8192x32.size (by rfl) y

/-! ## The body's triple -/

set_option maxHeartbeats 1000000 in
/-- The body on whole staging buffers, the inputs' at contents `x0`, `x1` and the output's at anything: it ends with the
    inputs' buffers as they were and the output's at `out1_2 x0 x1`. -/
theorem sound_kernel1 (c : Dev nD) (E : Set ℕ) (i : grid1.Coords)
    (arg1 : Memref sig .tc .vmem S8192x32 .f32) (harg1 : arg1.IsWhole) (arg2 : Memref sig .tc .vmem S1x32 .f32) (harg2 : arg2.IsWhole)
    (arg3 : Memref sig .tc .vmem S8192x32 .f32) (harg3 : arg3.IsWhole)
    (x0 : Vec F S8192x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this region on core `c`: the arrays as the region finds them; after the body at point `t` each
    input's buffer at its block and the output's at `out1_2` of the two blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
/-
  Region 2 of @main: the second projection, `h1 @ W2`, one block of 8192 rows per grid point. The body loads the block of hidden rows and the whole weight matrix, and stores their matrix product into the output block. Stated at the contents `V` the region is entered with.
-/
import proofs.«426532_j29326036697815_1_alg».proof.Proof.Gen.KernelIdeal.Launch
import proofs.«426532_j29326036697815_1_alg».proof.Proof.Gen.KernelIdeal.Skeleton
import proofs.«426532_j29326036697815_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point: the body only reads it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The second input's block index never moves, so it is fetched once; its buffer still holds the block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole staging buffer -/

abbrev r2_0 : Rect S8192x32 := Rect.unit (s := S8192x32) ![0, 0] S8192x32.size inb_S8192x32_S8192x32_0_0
abbrev r2_1 : Rect S32x32 := Rect.unit (s := S32x32) ![0, 0] S32x32.size inb_S32x32_S32x32_0_0
abbrev r2_2 : Rect S8192x32 := Rect.unit (s := S8192x32) ![0, 0] S8192x32.size inb_S8192x32_S8192x32_0_0

/-- What the body leaves in the output's staging buffer: its one store, of the payload of the two loaded blocks. -/
def out2_2 (x0 : Vec F S8192x32 .f32) (x1 : Vec F S32x32 .f32) : Vec F S8192x32 .f32 :=
  View.canon [⟨r2_2, k2_pay1 (View.ld x0 r2_0) (View.ld x1 r2_1)⟩]

/-- The one store covers the output's buffer. -/
theorem cover2_2 (p0 : Vec F S8192x32 .f32) (y : S8192x32.Idx) :
    ∃ pc ∈ ([⟨r2_2, p0⟩] : List (View.Piece (Elt F) S8192x32 .f32)), y ∈ pc.1.set :=
  View.cover_of_tiled [⟨r2_2, p0⟩] S8192x32.size (by rfl) y

/-! ## The body's triple -/

set_option maxHeartbeats 1000000 in
/-- The body on whole staging buffers, the inputs' at contents `x0`, `x1` and the output's at anything: it ends with the
    inputs' buffers as they were and the output's at `out2_2 x0 x1`. -/
theorem sound_kernel2 (c : Dev nD) (E : Set ℕ) (i : grid2.Coords)
    (arg1 : Memref sig .tc .vmem S8192x32 .f32) (harg1 : arg1.IsWhole) (arg2 : Memref sig .tc .vmem S32x32 .f32) (harg2 : arg2.IsWhole)
    (arg3 : Memref sig .tc .vmem S8192x32 .f32) (harg3 : arg3.IsWhole)
    (x0 : Vec F S8192x32 .f32) (x1 : Vec F S32x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this region on core `c`: the arrays as the region finds them; after the body at point `t` each
    input's buffer at its block and the output's at `out2_2` of the two blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg3.lean ====
/-
  Region 3 of @main: the second layer's bias and positive part, `max (agg2 + b2) 0`, one block of 8192 rows per grid point. The body loads the block of aggregated rows and the bias row, and stores the biased, clamped block. Stated at the contents `V` the region is entered with.
-/
import proofs.«426532_j29326036697815_1_alg».proof.Proof.Gen.KernelIdeal.Launch
import proofs.«426532_j29326036697815_1_alg».proof.Proof.Gen.KernelIdeal.Skeleton
import proofs.«426532_j29326036697815_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first input's staging buffer holds its block at every point: the body only reads it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The second input's block index never moves, so it is fetched once; its buffer still holds the block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole staging buffer -/

abbrev r3_0 : Rect S8192x32 := Rect.unit (s := S8192x32) ![0, 0] S8192x32.size inb_S8192x32_S8192x32_0_0
abbrev r3_1 : Rect S1x32 := Rect.unit (s := S1x32) ![0, 0] S1x32.size inb_S1x32_S1x32_0_0
abbrev r3_2 : Rect S8192x32 := Rect.unit (s := S8192x32) ![0, 0] S8192x32.size inb_S8192x32_S8192x32_0_0

/-- What the body leaves in the output's staging buffer: its one store, of the payload of the two loaded blocks. -/
def out3_2 (x0 : Vec F S8192x32 .f32) (x1 : Vec F S1x32 .f32) : Vec F S8192x32 .f32 :=
  View.canon [⟨r3_2, k3_pay1 (View.ld x0 r3_0) (View.ld x1 r3_1)⟩]

/-- The one store covers the output's buffer. -/
theorem cover3_2 (p0 : Vec F S8192x32 .f32) (y : S8192x32.Idx) :
    ∃ pc ∈ ([⟨r3_2, p0⟩] : List (View.Piece (Elt F) S8192x32 .f32)), y ∈ pc.1.set :=
  View.cover_of_tiled [⟨r3_2, p0⟩] S8192x32.size (by rfl) y

/-! ## The body's triple -/

set_option maxHeartbeats 1000000 in
/-- The body on whole staging buffers, the inputs' at contents `x0`, `x1` and the output's at anything: it ends with the
    inputs' buffers as they were and the output's at `out3_2 x0 x1`. -/
theorem sound_kernel3 (c : Dev nD) (E : Set ℕ) (i : grid3.Coords)
    (arg1 : Memref sig .tc .vmem S8192x32 .f32) (harg1 : arg1.IsWhole) (arg2 : Memref sig .tc .vmem S1x32 .f32) (harg2 : arg2.IsWhole)
    (arg3 : Memref sig .tc .vmem S8192x32 .f32) (harg3 : arg3.IsWhole)
    (x0 : Vec F S8192x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of this region on core `c`: the arrays as the region finds them; after the body at point `t` each
    input's buffer at its block and the output's at `out3_2` of the two blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIReg4.lean ====
/-
  Region 4 of @main: the mean pool over graphs. The grid walks the 262144 node rows in 128 tiles of 2048. At every
  tile the body forms the one-hot matrix `[g = batch n]` (1024 graphs by the tile's 2048 nodes), adds its product with
  the tile's feature rows to a running sum and its product with a column of ones to a running count, both kept in
  scratch; the first tile starts both from zero, and the last tile stores `sum / max count 1` into the output block.
  Stated at the contents `V` the region is entered with.
-/
import proofs.«426532_j29326036697815_1_alg».proof.Proof.Gen.KernelIdeal.Launch
import proofs.«426532_j29326036697815_1_alg».proof.Proof.Gen.KernelIdeal.Skeleton
import proofs.«426532_j29326036697815_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks, and the scratch operands -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The feature rows' staging buffer holds the tile's block at every point: the body only reads it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The graph ids' staging buffer holds the tile's block at every point: the body only reads it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The running sum's scratch buffer and the running count's, whole. -/
abbrev scM4_0 : Memref sig .tc .vmem S1024x32 .f32 := Memref.whole cc4_scratch0
abbrev scM4_1 : Memref sig .tc .vmem S1024x1 .f32 := Memref.whole cc4_scratch1

/-! ## What the scratch holds after each point -/

/-- THE ACCUMULATION: the running sum and the running count after the body at point `n`. The first point adds the
    tile's two products to the zero fills, every later point to what the point before left. -/
def scAt4 (c : Dev nD) : (n : ℕ) → n < cfg4.N → Vec F S1024x32 .f32 × Vec F S1024x1 .f32
  | 0, hn => (k4_pay4 (iblk4 V c 1 ⟨0, hn⟩) (iblk4 V c 0 ⟨0, hn⟩) (k4_pay1 (F := F)),
      k4_pay5 (iblk4 V c 1 ⟨0, hn⟩) (k4_pay2 (F := F)))
  | n + 1, hn => (k4_pay4 (iblk4 V c 1 ⟨n + 1, hn⟩) (iblk4 V c 0 ⟨n + 1, hn⟩) (scAt4 c n (Nat.lt_of_succ_lt hn)).1,
      k4_pay5 (iblk4 V c 1 ⟨n + 1, hn⟩) (scAt4 c n (Nat.lt_of_succ_lt hn)).2)

theorem scAt4_zero (c : Dev nD) (hn : 0 < cfg4.N) :
    scAt4 V c 0 hn = (k4_pay4 (iblk4 V c 1 ⟨0, hn⟩) (iblk4 V c 0 ⟨0, hn⟩) (k4_pay1 (F := F)), k4_pay5 (iblk4 V c 1 ⟨0, hn⟩) (k4_pay2 (F := F))) := rfl

theorem scAt4_succ (c : Dev nD) (n : ℕ) (hn : n + 1 < cfg4.N) :
    scAt4 V c (n + 1) hn = (k4_pay4 (iblk4 V c 1 ⟨n + 1, hn⟩) (iblk4 V c 0 ⟨n + 1, hn⟩) (scAt4 V c n (Nat.lt_of_succ_lt hn)).1,
      k4_pay5 (iblk4 V c 1 ⟨n + 1, hn⟩) (scAt4 V c n (Nat.lt_of_succ_lt hn)).2) := rfl

/-- What the body stores into the output block at the last point: the running sum over the running count capped
    below by one (stated at every point; only the last point's is written back). -/
def out4_2 (c : Dev nD) (t : Fin cfg4.N) : Vec F S1024x32 .f32 :=
  k4_pay6 (scAt4 V c t.val t.isLt).2 (scAt4 V c t.val t.isLt).1

/-! ## The invariant: the two scratch buffers carried between points -/

/-- Every scoped buffer that is neither a staging buffer of this call nor one of its two scratch buffers, at some
    contents: the other calls' staging buffers, which this region never touches. -/
abbrev restBut4 (c : Dev nD) : sProp 𝕄 :=
  Pipeline.scopedRestBut (Ix := Unit) (Name := ℕ) (U := UR sig nD τ) (Lvl := ℕ) (Val := Elt F) spec4 c [cc4_scratch0, cc4_scratch1]

/-- Before point `n`: before the first point every scoped buffer at anything; afterwards the two scratch buffers at what
    the point before left in them, the other scoped buffers at anything, and the generator register at some state. -/
def PhiS4 (c : Dev nD) : (n : ℕ) → n ≤ cfg4.N → sProp 𝕄
  | 0, _ => Pipeline.ΦA spec4 c
  | n + 1, hn => iprop(owns (c : Thread nD τ) scM4_0 fullShare (scAt4 V c n hn).1
      ∗ owns (c : Thread nD τ) scM4_1 fullShare (scAt4 V c n hn).2 ∗ restBut4 (F := F) c ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(owns (c : Thread nD τ) scM4_0 fullShare (scAt4 V c n hn).1
      ∗ owns (c : Thread nD τ) scM4_1 fullShare (scAt4 V c n hn).2 ∗ restBut4 (F := F) c ∗ (∃ r, prngReg c r)) := rfl

theorem PhiS4_pos (c : Dev nD) (n : ℕ) (h : n ≤ cfg4.N) (hz : n ≠ 0) :
    PhiS4 V c n h = iprop(owns (c : Thread nD τ) scM4_0 fullShare (scAt4 V c (n - 1) (by omega)).1
      ∗ owns (c : Thread nD τ) scM4_1 fullShare (scAt4 V c (n - 1) (by omega)).2 ∗ restBut4 (F := F) c ∗ (∃ r, prngReg c r)) := by
  cases n with
  | zero => exact absurd rfl hz
  | succ n => rfl

/-! ## The pipeline's proof data -/

/-- The proof data of this region on core `c`: the arrays as the region finds them; after the body at point `t` each
    input's buffer at its block and the output's at `out4_2`; the invariant carries the two scratch buffers; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 V c t := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body's two conditions, in closed form over the grid -/

/-- The condition of the body's first conditional: the tile is the first. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 128 = 0 :=
  (by decide +kernel : ∀ t : Fin grid4.N, cond4_0 (grid4.coords t) ↔ t.val % 128 = 0)
/-- The condition of the body's second conditional: the tile is the last. -/
abbrev cond4_1 (i : grid4.Coords) : Prop := k4_cond2 i = 1#1
theorem hcond4_1 : ∀ t : Fin cfg4.N, cond4_1 (grid4.coords t) ↔ t.val % 128 = 127 :=
  (by decide +kernel : ∀ t : Fin grid4.N, cond4_1 (grid4.coords t) ↔ t.val % 128 = 127)

/-- The two inputs' windows are never idle; the output's window is idle, and not written back, at every tile but the last. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem liveAt4_2 : ∀ t : Fin cfg4.N, cond4_1 (grid4.coords t) → cfg4.idle 2 (grid4.coords t) = false := by decide +kernel
theorem noFlush4_2 : ∀ t : Fin cfg4.N, ¬cond4_1 (grid4.coords t) → (cfg4.win 2).flush t = false := by decide +kernel

/-- The zero offsets of a whole-buffer access, however spelt. -/
theorem hz4 : (![0, 0] : Fin 2 → Nat) = fun _ => 0 := funext fun a => by fin_cases a <;> rfl

/-! ## The body's three triples, on whole buffers

Every access of the body is a whole buffer. It runs in one of three ways: at the first tile, at the last, and in between. -/

set_option maxHeartbeats 1000000 in
/-- The body at the first tile, on whole buffers: the feature rows at `x`, the graph ids at `b`, the output block at `xi`, the two
    scratch buffers at anything. It zeroes both scratch buffers and adds the tile's two products; the output block is left as it was. -/
theorem sound_kernel4_first (c : Dev nD) (E : Set ℕ) (i : grid4.Coords) (hc0 : cond4_0 i) (hc1 : ¬cond4_1 i)
    (arg1 : Memref sig .tc .vmem S2048x32 .f32) (harg1 : arg1.IsWhole) (arg2 : Memref sig .tc .vmem S1x2048 .i32) (harg2 : arg2.IsWhole)
    (arg3 : Memref sig .tc .vmem S1024x32 .f32) (harg3 : arg3.IsWhole) (arg4 : Memref sig .tc .vmem S1024x32 .f32) (harg4 : arg4.IsWhole)
    (arg5 : Memref sig .tc .vmem S1024x1 .f32) (harg5 : arg5.IsWhole)
    (x : Vec F S2048x32 .f32) (b : Vec F S1x2048 .i32) (xi : Vec F S1024x32 .f32) (K : PUnit → sProp 𝕄) :
    iprop(owns (c : Thread nD τ) arg1 fullShare x ∗ owns (c : Thread nD τ) arg2 fullShare b ∗ owns (c : Thread nD τ) arg3 fullShare xi
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare b ∗ owns (c : Thread nD τ) arg3 fullShare xi
            ∗ owns (c : Thread nD τ) arg4 fullShare (k4_pay4 b x (k4_pay1 (F := F))) ∗ owns (c : Thread nD τ) arg5 fullShare (k4_pay5 b (k4_pay2 (F := F)))) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero hz4 inb_S1024x32_S1024x32_0_0 y⟩)]
    sl_unfold_words
    rw [View.canon_cons_unit_zero hz4]
    simp only [View.readAt_eq_ld, View.ld_unit_zero (S := S1x2048) hz4, View.ld_unit_zero (S := S2048x32) hz4, View.readCov_unit_zero (S := S1024x32) _ hz4]
  iexists _; isplitr
  swap; · iexact H4
  ipureintro
  rw [View.read_writes_eq_canon _ _ _ (fun y => ⟨_, List.mem_cons.mpr (Or.inl rfl), View.mem_set_unit_zero hz4 inb_S1024x1_S1024x1_0_0 y⟩)]
  sl_unfold_words
  rw [View.canon_cons_unit_zero hz4]
  simp only [View.readAt_eq_ld, View.ld_unit_zero (S := S1x2048) hz4, View.readCov_unit_zero (S := S1024x1) _ hz4]

set_option maxHeartbeats 1000000 in
/-- The body at a tile that is neither the first nor the last, the two scratch buffers at `s` and `n`: it adds the tile's two
    products to them; the output block is left as it was. -/
theorem sound_kernel4_mid (c : Dev nD) (E : Set ℕ) (i : grid4.Coords) (hc0 : ¬cond4_0 i) (hc1 : ¬cond4_1 i)
    (arg1 : Memref sig .tc .vmem S2048x32 .f32) (harg1 : arg1.IsWhole) (arg2 : Memref sig .tc .vmem S1x2048 .i32) (harg2 : arg2.IsWhole)
    (arg3 : Memref sig .tc .vmem S1024x32 .f32) (harg3 : arg3.IsWhole) (arg4 : Memref sig .tc .vmem S1024x32 .f32) (harg4 : arg4.IsWhole)
    (arg5 : Memref sig .tc .vmem S1024x1 .f32) (harg5 : arg5.IsWhole)
    (x : Vec F S2048x32 .f32) (b : Vec F S1x2048 .i32) (xi : Vec F S1024x32 .f32) (s : Vec F S1024x32 .f32) (n : Vec F S1024x1 .f32) (K : PUnit → sProp 𝕄) :
    iprop(owns (c : Thread nD τ) arg1 fullShare x ∗ owns (c : Thread nD τ) arg2 fullShare b ∗ owns (c : Thread nD τ) arg3 fullShare xi
        ∗ owns (c : Thread nD τ) arg4 fullShare s ∗ owns (c : Thread nD τ) arg5 fullShare n
        ∗ (iprop(owns (c : Thread nD τ) arg1 fullShare x ∗ owns (c : Thread nD τ) arg2 fullShare b ∗ owns (c : Thread nD τ) arg3 fullShare xi
            ∗ owns (c : Thread nD τ) arg4 fullShare (k4_pay4 b x s) ∗ owns (c : Thread nD τ) arg5 fullShare (k4_pay5 b n)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (fun y => ⟨_, List.mem_cons.mpr (Or.inl rfl), View.mem_set_unit_zero hz4 inb_S1024x32_S1024x32_0_0 y⟩)]
    sl_unfold_words
    rw [View.canon_cons_unit_zero hz4]
    simp only [View.readAt_eq_ld, View.ld_unit_zero (S := S1x2048) hz4, View.ld_unit_zero (S := S2048x32) hz4, View.ld_unit_zero (S := S1024x32) hz4]
  iexists _; isplitr
  swap; · iexact H4
  ipureintro
  rw [View.read_writes_eq_canon _ _ _ (fun y => ⟨_, List.mem_cons.mpr (Or.inl rfl), View.mem_set_unit_zero hz4 inb_S1024x1_S1024x1_0_0 y⟩)]
  sl_unfold_words
  rw [View.canon_cons_unit_zero hz4]
  simp only [View.readAt_eq_ld, View.ld_unit_zero (S := S1x2048) hz4, View.ld_unit_zero (S := S1024x1) hz4]

set_option maxHeartbeats 1000000 in
/-- The body at the last tile, the two scratch buffers at `s` and `n` and the output block at anything: it adds the tile's two
    products to the scratch buffers and stores the new sum over the new count capped below by one into the output block. -/
theorem sound_kernel4_last (c : Dev nD) (E : Set ℕ) (i : grid4.Coords) (hc0 : ¬cond4_0 i) (hc1 : cond4_1 i)
    (arg1 : Memref sig .tc .vmem S2048x32 .f32) (harg1 : arg1.IsWhole) (arg2 : Memref sig .tc .vmem S1x2048 .i32) (harg2 : arg2.IsWhole)
    (arg3 : Memref sig .tc .vmem S1024x32 .f32) (harg3 : arg3.IsWhole) (arg4 : Memref sig .tc .vmem S1024x32 .f32) (harg4 : arg4.IsWhole)
    (arg5 : Memref sig .tc .vmem S1024x1 .f32) (harg5 : arg5.IsWhole)
    (x : Vec F S2048x32 .f32) (b : Vec F S1x2048 .i32) (s : Vec F S1024x32 .f32) (n : Vec F S1024x1 .f32) (K : PUnit → sProp 𝕄) :
    iprop(owns (c : Thread nD τ) arg1 fullShare x ∗ owns (c : Thread nD τ) arg2 fullShare b ∗ (∃ d, owns (c : Thread nD τ) arg3 fullShare d)
        ∗ owns (c : Thread nD τ) arg4 fullShare s ∗ owns (c : Thread nD τ) arg5 fullShare n
        ∗ (iprop(owns (c : Thread nD τ) arg1 fullShare x ∗ owns (c : Thread nD τ) arg2 fullShare b
            ∗ owns (c : Thread nD τ) arg3 fullShare (k4_pay6 (k4_pay5 b n) (k4_pay4 b x s))
            ∗ owns (c : Thread nD τ) arg4 fullShare (k4_pay4 b x s) ∗ owns (c : Thread nD τ) arg5 fullShare (k4_pay5 b n)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, ⟨%f4, %hf4, H4⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (fun y => ⟨_, List.mem_cons.mpr (Or.inl rfl), View.mem_set_unit_zero hz4 inb_S1024x32_S1024x32_0_0 y⟩)]
    rw [View.canon_cons_unit_zero hz4]
    simp only [View.readAt_eq_ld, View.ld_unit_zero (S := S1x2048) hz4, View.ld_unit_zero (S := S2048x32) hz4, View.ld_unit_zero (S := S1024x32) hz4,
      View.ld_unit_zero (S := S1024x1) hz4, View.readCov_unit_zero (S := S1024x32) _ hz4, View.readCov_unit_zero (S := S1024x1) _ hz4]
  isplitl [H3]
  · iexists _; isplitr
    swap; · iexact H3
    ipureintro
    sl_unfold_words
    rw [View.read_writes_eq_canon _ _ _ (fun y => ⟨_, List.mem_cons.mpr (Or.inl rfl), View.mem_set_unit_zero hz4 inb_S1024x32_S1024x32_0_0 y⟩)]
    rw [View.canon_cons_unit_zero hz4]
    simp only [View.readAt_eq_ld, View.ld_unit_zero (S := S1x2048) hz4, View.ld_unit_zero (S := S2048x32) hz4, View.ld_unit_zero (S := S1024x32) hz4]
  iexists _; isplitr
  swap; · iexact H4
  ipureintro
  sl_unfold_words
  rw [View.read_writes_eq_canon _ _ _ (fun y => ⟨_, List.mem_cons.mpr (Or.inl rfl), View.mem_set_unit_zero hz4 inb_S1024x1_S1024x1_0_0 y⟩)]
  rw [View.canon_cons_unit_zero hz4]
  simp only [View.readAt_eq_ld, View.ld_unit_zero (S := S1x2048) hz4, View.ld_unit_zero (S := S1024x1) hz4]

/-! ## The launch's invariant, opened at the two scratch buffers -/

/-- The launch's invariant with the two scratch buffers as memrefs owned at some contents, the other scoped buffers
    unopened, and the generator register. -/
theorem PhiA4_eq (c : Dev nD) :
    (Pipeline.ΦA spec4 c : sProp 𝕄)
      = iprop((((∃ d, owns (c : Thread nD τ) scM4_0 fullShare d) ∗ (∃ d, owns (c : Thread nD τ) scM4_1 fullShare d)) ∗ restBut4 (F := F) c) ∗ ∃ r, prngReg c r) := by
  unfold Pipeline.ΦA
  rw [Pipeline.scopedRest_split_of_list spec4 c [cc4_scratch0, cc4_scratch1] (by decide) (by decide)]
  simp only [scM4_0, scM4_1, owns_whole]
  rfl

/-! ## The accumulation, point by point -/

theorem scAt4_first (c : Dev nD) (t : Fin cfg4.N) (hz : t.val = 0) :
    scAt4 V c t.val t.isLt = (k4_pay4 (iblk4 V c 1 t) (iblk4 V c 0 t) (k4_pay1 (F := F)), k4_pay5 (iblk4 V c 1 t) (k4_pay2 (F := F))) := by
  obtain ⟨n, hn⟩ := t
  cases n with
  | zero => rfl
  | succ n => exact absurd hz (Nat.succ_ne_zero n)

theorem scAt4_pos (c : Dev nD) (t : Fin cfg4.N) (hz : t.val ≠ 0) :
    scAt4 V c t.val t.isLt = (k4_pay4 (iblk4 V c 1 t) (iblk4 V c 0 t) (scAt4 V c (t.val - 1) (Nat.lt_of_le_of_lt (Nat.sub_le _ _) t.isLt)).1,
      k4_pay5 (iblk4 V c 1 t) (scAt4 V c (t.val - 1) (Nat.lt_of_le_of_lt (Nat.sub_le _ _) t.isLt)).2) := by
  obtain ⟨n, hn⟩ := t
  cases n with
  | zero => exact absurd rfl hz
  | succ n => rfl

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' buffers hold the tile's blocks; the closed forms say whether the tile is the first, the
    last or neither. At the first tile the invariant hands over the two scratch buffers at anything, afterwards at what the tile
    before left; it takes them back at this tile's sum and count. The output's buffer is handed back untouched at every tile
    but the last, where it receives the quotient. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).Φ t.castSucc = PhiS4 V c t.val (Nat.le_of_lt t.isLt) from rfl]
  have hN : t.val < 128 := lt_of_lt_of_eq t.isLt (show cfg4.N = 128 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  by_cases h0 : t.val % 128 = 0
  · have h1 : ¬t.val % 128 = 127 := by omega
    have hz : t.val = 0 := by omega
    have hc0 : cond4_0 (grid4.coords t) := (hcond4_0 t).mpr h0
    have hc1 : ¬cond4_1 (grid4.coords t) := fun h => h1 ((hcond4_1 t).mp h)
    rw [Dat.leavesExact_idle (dat4 V c) 2 t (idleAt4_2 t hc1) (noFlush4_2 t hc1)]
    rw [scAt4_first V c t hz]; dsimp only
    rw [PhiS4_zero V c _ _ hz, PhiA4_eq]
    iintro ⟨⟨⟨⟨HS0, HS1⟩, Hr⟩, Hg⟩, Ho, ⟨%d0, H0⟩, ⟨%d1, H1⟩, ⟨%d2, H2⟩⟩
    iapply (sound_kernel4_first c Set.univ _ hc0 hc1 _ _ _ _ _ _ _ _ _ _ (iblk4 V c 0 t) (iblk4 V c 1 t) ((dat4 V c).before 2 t d2) _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0]; · iexact HS0
      isplitl [HS1]; · iexact HS1
      isplitl [Hr]; · iexact Hr
      iexact Hg
    isplitl [Ho]; · iexact Ho
    isplitl [H0]; · iexact H0
    isplitl [H1]; · iexact H1
    iexists _; iexact H2
  · have hz : t.val ≠ 0 := by omega
    have hc0 : ¬cond4_0 (grid4.coords t) := fun h => h0 ((hcond4_0 t).mp h)
    by_cases h1 : t.val % 128 = 127
    · have hc1 : cond4_1 (grid4.coords t) := (hcond4_1 t).mpr h1
      rw [show (dat4 V c).leavesExact 2 t = owns (c : Thread nD τ) (st4_2 t) fullShare ((dat4 V c).after 2 t) from by
        unfold Dat.leavesExact; rw [liveAt4_2 t hc1], after4_2]
      unfold out4_2
      rw [scAt4_pos V c t hz]; dsimp only
      rw [PhiS4_pos V c _ _ hz]
      iintro ⟨⟨HS0, HS1, Hr, Hg⟩, Ho, ⟨%d0, H0⟩, ⟨%d1, H1⟩, ⟨%d2, H2⟩⟩
      iapply (sound_kernel4_last c Set.univ _ hc0 hc1 _ _ _ _ _ _ _ _ _ _ (iblk4 V c 0 t) (iblk4 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      rw [scAt4_pos V c t hz]; dsimp only
      rw [PhiS4_pos V c _ _ hz]
      iintro ⟨⟨HS0, HS1, Hr, Hg⟩, Ho, ⟨%d0, H0⟩, ⟨%d1, H1⟩, ⟨%d2, H2⟩⟩
      iapply (sound_kernel4_mid c Set.univ _ hc0 hc1 _ _ _ _ _ _ _ _ _ _ (iblk4 V c 0 t) (iblk4 V c 1 t) ((dat4 V c).before 2 t d2) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's two ends -/

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives every scoped buffer back at some contents: the scratch buffers' named
    contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 128 := N_4; omega), PhiA4_eq]
  iintro ⟨HS0, HS1, Hr, Hg⟩
  isplitr [Hg]
  · isplitr [Hr]
    · isplitl [HS0]
      · iexists _; iexact HS0
      · iexists _; iexact HS1
    · iexact Hr
  · iexact Hg

end Cert.KernelIdeal.Hand

end
-- ==== Proof.KIData.lean ====
/-
  The run's data: what every unscoped buffer of a core holds at each boundary between two items of @main — the launch contents folded through the host stretches and, at a kernel region, its arrays replaced by what the region's write-backs leave —, the proof data of the five regions each at its entry contents, and what rides beside the buffers through every item (the generator register at some state, nothing owed).
-/
import proofs.«426532_j29326036697815_1_alg».proof.Proof.KIReg0
import proofs.«426532_j29326036697815_1_alg».proof.Proof.KIReg1
import proofs.«426532_j29326036697815_1_alg».proof.Proof.KIReg2
import proofs.«426532_j29326036697815_1_alg».proof.Proof.KIReg3
import proofs.«426532_j29326036697815_1_alg».proof.Proof.KIReg4
import proofs.«426532_j29326036697815_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary: a fold through @main -/

/-- Core `c`'s buffers at launch. -/
abbrev W0 : Dev nD → Valuation τ sig (Elt F) := fun c b => m (c, b)

/-- After the host stretch `hostOps0` (the edge lists with self loops, the degrees and their inverse square roots). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After the host stretch `hostOps0_1` (the inverse square roots where the degree is positive, zero elsewhere). -/
abbrev W2 : Dev nD → Valuation τ sig (Elt F) := fun c => StableHlo.after hostOps0_1 (W1 m c)
abbrev V2 : (c : Dev nD) → (b : Ref sig .tc) → Buf (Elt F) ((c : Thread nD τ).loc b) := fun c b => W2 m c b

/-- After the host stretch `hostOps0_2` (the edge weights; region 0's entry). -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At region 0's exit: its arrays at what the pipeline leaves (the inputs as entered, the output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the core's references. -/
abbrev V4 : (c : Dev nD) → (b : Ref sig .tc) → Buf (Elt F) ((c : Thread nD τ).loc b) := fun c b => W4 m c b
/-- At region 0's exit each of its arrays holds what the pipeline leaves, and every other buffer what it held at entry. -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- After the host stretch `hostOps1` (the first aggregation and the first bias as a row; region 1's entry). -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves (the inputs as entered, the output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the core's references. -/
abbrev V6 : (c : Dev nD) → (b : Ref sig .tc) → Buf (Elt F) ((c : Thread nD τ).loc b) := fun c b => W6 m c b
/-- At region 1's exit each of its arrays holds what the pipeline leaves, and every other buffer what it held at entry. -/
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- At region 2's exit: its arrays at what the pipeline leaves (the inputs as entered, the output's write-backs folded),
    every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the core's references. -/
abbrev V7 : (c : Dev nD) → (b : Ref sig .tc) → Buf (Elt F) ((c : Thread nD τ).loc b) := fun c b => W7 m c b
/-- At region 2's exit each of its arrays holds what the pipeline leaves, and every other buffer what it held at entry. -/
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- After the host stretch `hostOps3` (the second aggregation and the second bias as a row; region 3's entry). -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b

/-- At region 3's exit: its arrays at what the pipeline leaves (the inputs as entered, the output's write-backs folded),
    every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
/-- The same read at the core's references. -/
abbrev V9 : (c : Dev nD) → (b : Ref sig .tc) → Buf (Elt F) ((c : Thread nD τ).loc b) := fun c b => W9 m c b
/-- At region 3's exit each of its arrays holds what the pipeline leaves, and every other buffer what it held at entry. -/
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)

/-- After the host stretch `hostOps4` (the graph ids as a row; region 4's entry). -/
abbrev W10 : Dev nD → Valuation τ sig (Elt F) := fun c => StableHlo.after hostOps4 (W9 m c)
abbrev V10 : (c : Dev nD) → (b : Ref sig .tc) → Buf (Elt F) ((c : Thread nD τ).loc b) := fun c b => W10 m c b

/-- At region 4's exit: its arrays at what the pipeline leaves (the inputs as entered, the output's write-backs folded),
    every other buffer as entered. -/
def W11 (c : Dev nD) : Valuation τ sig (Elt F) :=
  Pipeline.withArrays spec4 c (W10 m c) fun w => (dat4 (V10 m) c).arrAt w cfg4.N
theorem W11_arr (c : Dev nD) (w : Fin cfg4.W) :
    W11 m c (Proc.devRef .tc (Pipeline.arrRef spec4 w)) = (dat4 (V10 m) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m c (Proc.devRef .tc b) = W10 m c (Proc.devRef .tc b) := by
  unfold W11; exact Pipeline.withArrays_of_ne spec4 c _ _ b hb
/-- The same read at the core's references. -/
abbrev V11 : (c : Dev nD) → (b : Ref sig .tc) → Buf (Elt F) ((c : Thread nD τ).loc b) := fun c b => W11 m c b
/-- At region 4's exit each of its arrays holds what the pipeline leaves, and every other buffer what it held at entry. -/
theorem hF4 (c : Dev nD) (w : Fin cfg4.W) : (dat4 (V10 m) c).arrAt w cfg4.N = V11 m c (Pipeline.arrRef spec4 w) :=
  (W11_arr m c w).symm
theorem hrest4 (c : Dev nD) : ∀ b, b ∉ Finset.univ.image (Pipeline.arrRef spec4) → V11 m c b = V10 m c b :=
  fun b hb => W11_of_ne m c b fun w e => hb (Finset.mem_image.mpr ⟨w, Finset.mem_univ _, e⟩)

/-- After the host stretch `hostOps5` (the final linear layer; what @main returns). -/
abbrev W12 : Dev nD → Valuation τ sig (Elt F) := fun c => StableHlo.after hostOps5 (W11 m c)
abbrev V12 : (c : Dev nD) → (b : Ref sig .tc) → Buf (Elt F) ((c : Thread nD τ).loc b) := fun c b => W12 m c b

/-! ## The proof-data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V6 m) c
  | ⟨3, _⟩ => fun c => dat3 (V8 m) c
  | ⟨4, _⟩ => fun c => dat4 (V10 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W12 m c) ∗ ∃ r, prngReg c r)

end Cert.KernelIdeal.Hand

end
-- ==== Proof.KISeg0.lean ====
/-
  Region 0 of @main as a segment of the run: entered from every unscoped buffer at the boundary's contents, left with its arrays at what the region's write-backs leave. Its arrays are split out of the unscoped buffers at entry and put back at exit; the generator register goes into the region's invariant and comes back; nothing is owed; the kernel has no semaphore of its own.
-/
import proofs.«426532_j29326036697815_1_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg1.lean ====
/-
  Region 1 of @main as a segment of the run: entered from every unscoped buffer at the boundary's contents, left with its arrays at what the region's write-backs leave. Its arrays are split out of the unscoped buffers at entry and put back at exit; the generator register goes into the region's invariant and comes back; nothing is owed; the kernel has no semaphore of its own.
-/
import proofs.«426532_j29326036697815_1_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg2.lean ====
/-
  Region 2 of @main as a segment of the run: entered from every unscoped buffer at the boundary's contents, left with its arrays at what the region's write-backs leave. Its arrays are split out of the unscoped buffers at entry and put back at exit; the generator register goes into the region's invariant and comes back; nothing is owed; the kernel has no semaphore of its own.
-/
import proofs.«426532_j29326036697815_1_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg3.lean ====
/-
  Region 3 of @main as a segment of the run: entered from every unscoped buffer at the boundary's contents, left with its arrays at what the region's write-backs leave. Its arrays are split out of the unscoped buffers at entry and put back at exit; the generator register goes into the region's invariant and comes back; nothing is owed; the kernel has no semaphore of its own.
-/
import proofs.«426532_j29326036697815_1_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KISeg4.lean ====
/-
  Region 4 of @main as a segment of the run: entered from every unscoped buffer at the boundary's contents, left with its arrays at what the region's write-backs leave. Its arrays are split out of the unscoped buffers at entry and put back at exit; the generator register goes into the region's invariant and comes back; nothing is owed; the kernel has no semaphore of its own.
-/
import proofs.«426532_j29326036697815_1_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V10 m) c).loose
  hwaits := Pipeline.hwaits_of_owed_zero _ _ _ _ L lv 4 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := UR sig nD τ) (Lvl := ℕ) spec4 c (V10 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V10 m) c); unfold Pipeline.ΦA
    iintro ⟨Hp, -, Hr⟩
    isplitl [Hr]; · iexact Hr
    iexact Hp
  hout c := by
    rw [Pipeline.ownSems0_none]; refine BIBase.Entails.trans (hout4 (V10 m) c) ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V10 m c) (V11 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIRun.lean ====
/-
  The run of @main: its twelve items in order — a host segment per stretch of host operations from its boundary's contents, a region per kernel call — launched from any memory with zero counters. Every weakly fair execution terminates, nothing faulting, and every final memory holds each unscoped buffer of each core at the last boundary's contents `W12`: the statement the frame claim and the value claim both read.
-/
import proofs.«426532_j29326036697815_1_alg».proof.Proof.KISeg0
import proofs.«426532_j29326036697815_1_alg».proof.Proof.KISeg1
import proofs.«426532_j29326036697815_1_alg».proof.Proof.KISeg2
import proofs.«426532_j29326036697815_1_alg».proof.Proof.KISeg3
import proofs.«426532_j29326036697815_1_alg».proof.Proof.KISeg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- @main's twelve segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .region (reg2 m),
    .host (hseg hostOps3 hostOps3_sub hostOps3_fresh (W7 m)),
    .region (reg3 m),
    .host (hseg hostOps4 hostOps4_sub hostOps4_fresh (W9 m)),
    .region (reg4 m),
    .host (hseg hostOps5 hostOps5_sub hostOps5_fresh (W11 m)) ]

/-- After the last host stretch: the buffers beside the generator register, and the dues apart (a re-association). -/
theorem hlast (c : Dev nD) :
    (iprop(StableHlo.held (c : Thread nD τ) (Pipeline.ucRefs τ sig) (W12 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-- @main IS the run of the segments. -/
theorem main_run (c : Dev nD) : main (F := F) c = Pipeline.Seg.run (segs m) := (main_chain c).trans (by chain_rfl)

-- the launch theorem's implicit arguments are found by unifying its conclusion with this one, which takes unfolding plain
-- definitions in a metavariable's type
set_option backward.isDefEq.respectTransparency.types false in
/-- THE RUN: at the compiled mesh, from any memory with zero counters, every weakly fair execution of @main terminates,
    nothing faulting, and every final state has every unscoped buffer `b` of every core at `W12 m c b`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => hlast m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

end Cert.KernelIdeal.Hand

end
-- ==== Proof.KIFrame.lean ====
/-
  The arguments, and the result, read off the run: no host stretch writes an argument array and a region changes only its output array, so each argument's buffer at the last boundary is its launch contents — the frame claim —, and the result buffer holds the last boundary's contents of it, which the value claim evaluates.
-/
import proofs.«426532_j29326036697815_1_alg».proof.Proof.KIRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- Region 0 changes only its output array: every other unscoped buffer, its two input arrays included, is as entered. -/
theorem W4_keep (c : Dev nD) (r : Ref sig .tc) (h : Pipeline.arrRef spec0 2 ≠ r) :
    W4 m c (Proc.devRef .tc r) = W3 m c (Proc.devRef .tc r) := by
  by_cases h0 : Pipeline.arrRef spec0 0 = r
  · subst h0; exact (W4_arr m c 0).trans (((dat0 (V3 m) c).arrAt_in 0 rfl _).trans (A_eq0 (V3 m) c 0))
  by_cases h1 : Pipeline.arrRef spec0 1 = r
  · subst h1; exact (W4_arr m c 1).trans (((dat0 (V3 m) c).arrAt_in 1 rfl _).trans (A_eq0 (V3 m) c 1))
  exact W4_of_ne m c r (fun w => by
    match w with
    | ⟨0, _⟩ => exact h0
    | ⟨1, _⟩ => exact h1
    | ⟨2, _⟩ => exact h)

/-- Region 1 changes only its output array: every other unscoped buffer, its two input arrays included, is as entered. -/
theorem W6_keep (c : Dev nD) (r : Ref sig .tc) (h : Pipeline.arrRef spec1 2 ≠ r) :
    W6 m c (Proc.devRef .tc r) = W5 m c (Proc.devRef .tc r) := by
  by_cases h0 : Pipeline.arrRef spec1 0 = r
  · subst h0; exact (W6_arr m c 0).trans (((dat1 (V5 m) c).arrAt_in 0 rfl _).trans (A_eq1 (V5 m) c 0))
  by_cases h1 : Pipeline.arrRef spec1 1 = r
  · subst h1; exact (W6_arr m c 1).trans (((dat1 (V5 m) c).arrAt_in 1 rfl _).trans (A_eq1 (V5 m) c 1))
  exact W6_of_ne m c r (fun w => by
    match w with
    | ⟨0, _⟩ => exact h0
    | ⟨1, _⟩ => exact h1
    | ⟨2, _⟩ => exact h)

/-- Region 2 changes only its output array: every other unscoped buffer, its two input arrays included, is as entered. -/
theorem W7_keep (c : Dev nD) (r : Ref sig .tc) (h : Pipeline.arrRef spec2 2 ≠ r) :
    W7 m c (Proc.devRef .tc r) = W6 m c (Proc.devRef .tc r) := by
  by_cases h0 : Pipeline.arrRef spec2 0 = r
  · subst h0; exact (W7_arr m c 0).trans (((dat2 (V6 m) c).arrAt_in 0 rfl _).trans (A_eq2 (V6 m) c 0))
  by_cases h1 : Pipeline.arrRef spec2 1 = r
  · subst h1; exact (W7_arr m c 1).trans (((dat2 (V6 m) c).arrAt_in 1 rfl _).trans (A_eq2 (V6 m) c 1))
  exact W7_of_ne m c r (fun w => by
    match w with
    | ⟨0, _⟩ => exact h0
    | ⟨1, _⟩ => exact h1
    | ⟨2, _⟩ => exact h)

/-- Region 3 changes only its output array: every other unscoped buffer, its two input arrays included, is as entered. -/
theorem W9_keep (c : Dev nD) (r : Ref sig .tc) (h : Pipeline.arrRef spec3 2 ≠ r) :
    W9 m c (Proc.devRef .tc r) = W8 m c (Proc.devRef .tc r) := by
  by_cases h0 : Pipeline.arrRef spec3 0 = r
  · subst h0; exact (W9_arr m c 0).trans (((dat3 (V8 m) c).arrAt_in 0 rfl _).trans (A_eq3 (V8 m) c 0))
  by_cases h1 : Pipeline.arrRef spec3 1 = r
  · subst h1; exact (W9_arr m c 1).trans (((dat3 (V8 m) c).arrAt_in 1 rfl _).trans (A_eq3 (V8 m) c 1))
  exact W9_of_ne m c r (fun w => by
    match w with
    | ⟨0, _⟩ => exact h0
    | ⟨1, _⟩ => exact h1
    | ⟨2, _⟩ => exact h)

/-- Region 4 changes only its output array: every other unscoped buffer, its two input arrays included, is as entered. -/
theorem W11_keep (c : Dev nD) (r : Ref sig .tc) (h : Pipeline.arrRef spec4 2 ≠ r) :
    W11 m c (Proc.devRef .tc r) = W10 m c (Proc.devRef .tc r) := by
  by_cases h0 : Pipeline.arrRef spec4 0 = r
  · subst h0; exact (W11_arr m c 0).trans (((dat4 (V10 m) c).arrAt_in 0 rfl _).trans (A_eq4 (V10 m) c 0))
  by_cases h1 : Pipeline.arrRef spec4 1 = r
  · subst h1; exact (W11_arr m c 1).trans (((dat4 (V10 m) c).arrAt_in 1 rfl _).trans (A_eq4 (V10 m) c 1))
  exact W11_of_ne m c r (fun w => by
    match w with
    | ⟨0, _⟩ => exact h0
    | ⟨1, _⟩ => exact h1
    | ⟨2, _⟩ => exact h)

/-- A buffer that no host stretch writes and that is no region's output array holds its launch contents at the end. -/
theorem W12_keep (c : Dev nD) (r : Ref sig .tc)
    (h0 : r ∉ hostOps0_W) (h01 : r ∉ hostOps0_1_W) (h02 : r ∉ hostOps0_2_W) (h1 : r ∉ hostOps1_W) (h3 : r ∉ hostOps3_W)
    (h4 : r ∉ hostOps4_W) (h5 : r ∉ hostOps5_W)
    (k0 : Pipeline.arrRef spec0 2 ≠ r) (k1 : Pipeline.arrRef spec1 2 ≠ r) (k2 : Pipeline.arrRef spec2 2 ≠ r)
    (k3 : Pipeline.arrRef spec3 2 ≠ r) (k4 : Pipeline.arrRef spec4 2 ≠ r) :
    W12 m c (Proc.devRef .tc r) = m ((c : Thread nD τ).loc r) :=
  (StableHlo.after_of_writes_sub hostOps5 _ hostOps5_writes h5).trans <|
  (W11_keep m c r k4).trans <|
  (StableHlo.after_of_writes_sub hostOps4 _ hostOps4_writes h4).trans <|
  (W9_keep m c r k3).trans <|
  (StableHlo.after_of_writes_sub hostOps3 _ hostOps3_writes h3).trans <|
  (W7_keep m c r k2).trans <|
  (W6_keep m c r k1).trans <|
  (StableHlo.after_of_writes_sub hostOps1 _ hostOps1_writes h1).trans <|
  (W4_keep m c r k0).trans <|
  (StableHlo.after_of_writes_sub hostOps0_2 _ hostOps0_2_writes h02).trans <|
  (StableHlo.after_of_writes_sub hostOps0_1 _ hostOps0_1_writes h01).trans <|
  (StableHlo.after_of_writes_sub hostOps0 _ hostOps0_writes h0).trans rfl

/-- THE FRAME at any float family: from any memory with zero counters every weakly fair execution of @main terminates,
    nothing faulting, and every final state has the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W12_keep m c main_arg0 (by decide) (by decide) (by decide) (by decide) (by decide) (by decide) (by decide) (by decide) (by decide) (by decide) (by decide) (by decide)),
     (h c _ (mem_uc main_arg1 (by decide))).trans (W12_keep m c main_arg1 (by decide) (by decide) (by decide) (by decide) (by decide) (by decide) (by decide) (by decide) (by decide) (by decide) (by decide) (by decide)),
     (h c _ (mem_uc main_arg2 (by decide))).trans (W12_keep m c main_arg2 (by decide) (by decide) (by decide) (by decide) (by decide) (by decide) (by decide) (by decide) (by decide) (by decide) (by decide) (by decide)),
     (h c _ (mem_uc main_arg3 (by decide))).trans (W12_keep m c main_arg3 (by decide) (by decide) (by decide) (by decide) (by decide) (by decide) (by decide) (by decide) (by decide) (by decide) (by decide) (by decide)),
     (h c _ (mem_uc main_arg4 (by decide))).trans (W12_keep m c main_arg4 (by decide) (by decide) (by decide) (by decide) (by decide) (by decide) (by decide) (by decide) (by decide) (by decide) (by decide) (by decide)),
     (h c _ (mem_uc main_arg5 (by decide))).trans (W12_keep m c main_arg5 (by decide) (by decide) (by decide) (by decide) (by decide) (by decide) (by decide) (by decide) (by decide) (by decide) (by decide) (by decide)),
     (h c _ (mem_uc main_arg6 (by decide))).trans (W12_keep m c main_arg6 (by decide) (by decide) (by decide) (by decide) (by decide) (by decide) (by decide) (by decide) (by decide) (by decide) (by decide) (by decide)),
     (h c _ (mem_uc main_arg7 (by decide))).trans (W12_keep m c main_arg7 (by decide) (by decide) (by decide) (by decide) (by decide) (by decide) (by decide) (by decide) (by decide) (by decide) (by decide) (by decide)),
     (h c _ (mem_uc main_arg8 (by decide))).trans (W12_keep m c main_arg8 (by decide) (by decide) (by decide) (by decide) (by decide) (by decide) (by decide) (by decide) (by decide) (by decide) (by decide) (by decide))⟩)
    (run_all m ρ)

/-- THE RUN, re-posted for the value claim: the result buffer at the last boundary's contents of it, the arguments as
    launched. -/
theorem value_run : θ_run defs (onTc (τ := τ) (main (F := F))) ⟨m, fun _ => 0, ρ⟩ (fun r => ∀ c : Dev nD,
      r.2.mem ((c.tc : Thread nD τ).loc main_v68) = W12 m c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v68 (by decide)),
     (h c _ (mem_uc main_arg0 (by decide))).trans (W12_keep m c main_arg0 (by decide) (by decide) (by decide) (by decide) (by decide) (by decide) (by decide) (by decide) (by decide) (by decide) (by decide) (by decide)),
     (h c _ (mem_uc main_arg1 (by decide))).trans (W12_keep m c main_arg1 (by decide) (by decide) (by decide) (by decide) (by decide) (by decide) (by decide) (by decide) (by decide) (by decide) (by decide) (by decide)),
     (h c _ (mem_uc main_arg2 (by decide))).trans (W12_keep m c main_arg2 (by decide) (by decide) (by decide) (by decide) (by decide) (by decide) (by decide) (by decide) (by decide) (by decide) (by decide) (by decide)),
     (h c _ (mem_uc main_arg3 (by decide))).trans (W12_keep m c main_arg3 (by decide) (by decide) (by decide) (by decide) (by decide) (by decide) (by decide) (by decide) (by decide) (by decide) (by decide) (by decide)),
     (h c _ (mem_uc main_arg4 (by decide))).trans (W12_keep m c main_arg4 (by decide) (by decide) (by decide) (by decide) (by decide) (by decide) (by decide) (by decide) (by decide) (by decide) (by decide) (by decide)),
     (h c _ (mem_uc main_arg5 (by decide))).trans (W12_keep m c main_arg5 (by decide) (by decide) (by decide) (by decide) (by decide) (by decide) (by decide) (by decide) (by decide) (by decide) (by decide) (by decide)),
     (h c _ (mem_uc main_arg6 (by decide))).trans (W12_keep m c main_arg6 (by decide) (by decide) (by decide) (by decide) (by decide) (by decide) (by decide) (by decide) (by decide) (by decide) (by decide) (by decide)),
     (h c _ (mem_uc main_arg7 (by decide))).trans (W12_keep m c main_arg7 (by decide) (by decide) (by decide) (by decide) (by decide) (by decide) (by decide) (by decide) (by decide) (by decide) (by decide) (by decide)),
     (h c _ (mem_uc main_arg8 (by decide))).trans (W12_keep m c main_arg8 (by decide) (by decide) (by decide) (by decide) (by decide) (by decide) (by decide) (by decide) (by decide) (by decide) (by decide) (by decide))⟩)
    (run_all m ρ)

end Cert.KernelIdeal.Hand

end
-- ==== Proof.KIGlue.lean ====
/-
  The host program between the kernel regions, read as functions of the arguments.

  The edge list is extended by the self loops (sources, destinations), a gather's index column wraps the negative
  indices, the edge weights are the products of the two end nodes' inverse square root degrees (zero where the degree
  is not positive), the aggregation gathers the source rows, scales them by the edge weights and scatter-adds them
  into the destination rows, and the tail is the final linear layer. Each definition spells the operations of the
  printed host stretches, for any float values; each lemma reads one buffer of the fold of the run's boundaries as
  these functions of the buffers one boundary earlier, down to the launch contents for the arguments.
-/
import proofs.«426532_j29326036697815_1_alg».proof.Proof.KIData
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.StableHlo

variable {F : FTy → Type} [FloatOps F]

/-! ## The host steps as functions -/

/-- The edge sources: row 0 of the edge list, then the self loops `0 … N-1`. -/
def srcK (ei : IVec S2x4194304 32) : IVec S4456448 32 :=
  concatenate S4456448 0 [⟨S4194304, (shapeCast _ (extractStridedSlice S1x4194304 ![0, 0] ei slices_S2x4194304_S1x4194304_0_0) shapeCasts_S1x4194304_S4194304)⟩, ⟨S262144, (iotaInDim S262144 32 0)⟩] concatenates_S4194304_S262144_S4456448_d0

/-- The edge destinations: row 1 of the edge list, then the self loops. -/
def dstK (ei : IVec S2x4194304 32) : IVec S4456448 32 :=
  concatenate S4456448 0 [⟨S4194304, (shapeCast _ (extractStridedSlice S1x4194304 ![1, 0] ei slices_S2x4194304_S1x4194304_1_0) shapeCasts_S1x4194304_S4194304)⟩, ⟨S262144, (iotaInDim S262144 32 0)⟩] concatenates_S4194304_S262144_S4456448_d0

/-- A gather's index column: a negative index wrapped around by the node count, the vector kept as a column. -/
def gidxK (s : IVec S4456448 32) : IVec S4456448x1 32 :=
  broadcastInDim S4456448x1 ![0] bcast_S4456448_S4456448x1_0 (select (cmpi .slt s (broadcastInDim S4456448 ![] bcast_S_S4456448 (constantI S_ 32 0#32))) (addi s (broadcastInDim S4456448 ![] bcast_S_S4456448 (constantI S_ 32 262144#32))) s)

/-- The node degrees: the scatter-add of ones at the destinations. -/
def degK (ei : IVec S2x4194304 32) : FVec F S262144 .f32 :=
  Host.scatterAdd scatter_S262144_S4456448x1_S4456448_n_0_0_1 (broadcastInDim S262144 ![] bcast_S_S262144 (constant S_ .f32 0x00000000#32)) (broadcastInDim S4456448x1 ![0] bcast_S4456448_S4456448x1_0 (dstK ei)) (broadcastInDim S4456448 ![] bcast_S_S4456448 (constant S_ .f32 0x3F800000#32))

/-- The inverse square roots of the positive degrees, zero elsewhere. -/
def dinvK (ei : IVec S2x4194304 32) : FVec F S262144 .f32 :=
  select (cmpf (F := F) .ogt (degK ei) (broadcastInDim S262144 ![] bcast_S_S262144 (constant S_ .f32 0x00000000#32))) (Host.rsqrt (degK ei)) (broadcastInDim S262144 ![] bcast_S_S262144 (id (constant S_ .f32 0x00000000#32)))

/-- The edge weights: the product of the two end nodes' inverse square root degrees. -/
def normK (ei : IVec S2x4194304 32) : FVec F S4456448 .f32 :=
  mulf (Host.gather gather_S262144_S4456448x1_S4456448_n_0_n_n_0_1_1 (dinvK (F := F) ei) (gidxK (srcK ei))) (Host.gather gather_S262144_S4456448x1_S4456448_n_0_n_n_0_1_1 (dinvK (F := F) ei) (gidxK (dstK ei)))

/-- The aggregation: the rows of `y` gathered at the sources, scaled by the edge weights, scatter-added at the destinations. -/
def aggK (y : FVec F S262144x32 .f32) (ei : IVec S2x4194304 32) : FVec F S262144x32 .f32 :=
  Host.scatterAdd scatter_S262144x32_S4456448x1_S4456448x32_1_0_0_1 (broadcastInDim S262144x32 ![] bcast_S_S262144x32 (constant S_ .f32 0x00000000#32)) (broadcastInDim S4456448x1 ![0] bcast_S4456448_S4456448x1_0 (dstK ei)) (mulf (Host.gather gather_S262144x32_S4456448x1_S4456448x32_1_0_n_n_0_1_132 y (gidxK (srcK ei))) (broadcastInDim S4456448x32 ![0, 1] bcast_S4456448x1_S4456448x32_0_1 (broadcastInDim S4456448x1 ![0] bcast_S4456448_S4456448x1_0 (normK (F := F) ei))))

/-- The final linear layer: the pooled rows against the weight column, plus the bias, as a vector. -/
def tailK (p : FVec F S1024x32 .f32) (Wl : FVec F S32x1 .f32) (bl : FVec F S1 .f32) : FVec F S1024 .f32 :=
  shapeCast _ (addf (Host.dotGeneral dot_S1024x32_S32x1_S1024x1_1_0_0_1_n_n none p Wl) (broadcastInDim S1024x1 ![0, 1] bcast_S1x1_S1024x1_0_1 (broadcastInDim S1x1 ![1] bcast_S1_S1x1_1 bl))) shapeCasts_S1024x1_S1024

/-! ## One host stretch from any contents -/

section Stretch

variable (X : Valuation τ sig (Elt F))

/-- The first stretch leaves the extended sources, -/
theorem ops0_src :
    (after hostOps0 X (Proc.devRef .tc main_v3) : IVec S4456448 32) = srcK (X (Proc.devRef .tc main_arg1)) := by
  after_results; rfl

/-- the extended destinations, -/
theorem ops0_dst :
    (after hostOps0 X (Proc.devRef .tc main_v6) : IVec S4456448 32) = dstK (X (Proc.devRef .tc main_arg1)) := by
  after_results; rfl

/-- the degrees, -/
theorem ops0_deg :
    (after hostOps0 X (Proc.devRef .tc main_v10) : FVec F S262144 .f32) = degK (F := F) (X (Proc.devRef .tc main_arg1)) := by
  after_results; rfl

/-- where they are positive, -/
theorem ops0_pos :
    (after hostOps0 X (Proc.devRef .tc main_v12) : IVec S262144 1)
      = cmpf (F := F) .ogt (degK (F := F) (X (Proc.devRef .tc main_arg1))) (broadcastInDim S262144 ![] bcast_S_S262144 (constant S_ .f32 0x00000000#32)) := by
  after_results; rfl

/-- their inverse square roots, -/
theorem ops0_rsqrt :
    (after hostOps0 X (Proc.devRef .tc main_v13) : FVec F S262144 .f32) = Host.rsqrt (degK (F := F) (X (Proc.devRef .tc main_arg1))) := by
  after_results; rfl

/-- and the zero word. -/
theorem ops0_zero :
    (after hostOps0 X (Proc.devRef .tc main_cst_2) : FVec F S_ .f32) = constant S_ .f32 0x00000000#32 := by
  after_results

/-- The second stretch selects the inverse square roots where the degree is positive. -/
theorem ops01_dinv (ei : IVec S2x4194304 32)
    (h12 : (X (Proc.devRef .tc main_v12) : IVec S262144 1)
      = cmpf (F := F) .ogt (degK (F := F) ei) (broadcastInDim S262144 ![] bcast_S_S262144 (constant S_ .f32 0x00000000#32)))
    (h13 : (X (Proc.devRef .tc main_v13) : FVec F S262144 .f32) = Host.rsqrt (degK (F := F) ei))
    (hz : (X (Proc.devRef .tc main_cst_2) : FVec F S_ .f32) = constant S_ .f32 0x00000000#32) :
    (after hostOps0_1 X (Proc.devRef .tc main_v14) : FVec F S262144 .f32) = dinvK (F := F) ei := by
  after_results
  rw [h12, h13, hz]
  rfl

/-- The third stretch multiplies the two end nodes' inverse square root degrees along every edge. -/
theorem ops02_norm (ei : IVec S2x4194304 32)
    (h3 : (X (Proc.devRef .tc main_v3) : IVec S4456448 32) = srcK ei)
    (h6 : (X (Proc.devRef .tc main_v6) : IVec S4456448 32) = dstK ei)
    (h14 : (X (Proc.devRef .tc main_v14) : FVec F S262144 .f32) = dinvK (F := F) ei) :
    (after hostOps0_2 X (Proc.devRef .tc main_v29) : FVec F S4456448 .f32) = normK (F := F) ei := by
  after_results_simp
  rw [h3, h6, h14]
  unfold normK gidxK
  rfl

/-- The stretch after region 0 aggregates the region's output array, -/
theorem ops1_agg (ei : IVec S2x4194304 32)
    (h3 : (X (Proc.devRef .tc main_v3) : IVec S4456448 32) = srcK ei)
    (h6 : (X (Proc.devRef .tc main_v6) : IVec S4456448 32) = dstK ei)
    (h29 : (X (Proc.devRef .tc main_v29) : FVec F S4456448 .f32) = normK (F := F) ei) :
    (after hostOps1 X (Proc.devRef .tc main_v43) : FVec F S262144x32 .f32)
      = aggK (F := F) (X (Proc.devRef .tc main_v30)) ei := by
  after_results_simp
  rw [h3, h6, h29]
  unfold aggK gidxK
  rfl

/-- and views the first bias as a row. -/
theorem ops1_bias :
    (after hostOps1 X (Proc.devRef .tc main_v44) : FVec F S1x32 .f32)
      = shapeCast S1x32 (X (Proc.devRef .tc main_arg4) : FVec F S32 .f32) shapeCasts_S32_S1x32 := by
  after_results; rfl

/-- The stretch after region 2 aggregates that region's output array, -/
theorem ops3_agg (ei : IVec S2x4194304 32)
    (h3 : (X (Proc.devRef .tc main_v3) : IVec S4456448 32) = srcK ei)
    (h6 : (X (Proc.devRef .tc main_v6) : IVec S4456448 32) = dstK ei)
    (h29 : (X (Proc.devRef .tc main_v29) : FVec F S4456448 .f32) = normK (F := F) ei) :
    (after hostOps3 X (Proc.devRef .tc main_v59) : FVec F S262144x32 .f32)
      = aggK (F := F) (X (Proc.devRef .tc main_v46)) ei := by
  after_results_simp
  rw [h3, h6, h29]
  unfold aggK gidxK
  rfl

/-- and views the second bias as a row. -/
theorem ops3_bias :
    (after hostOps3 X (Proc.devRef .tc main_v60) : FVec F S1x32 .f32)
      = shapeCast S1x32 (X (Proc.devRef .tc main_arg6) : FVec F S32 .f32) shapeCasts_S32_S1x32 := by
  after_results; rfl

/-- The stretch after region 3 views the graph ids as a row. -/
theorem ops4_batch :
    (after hostOps4 X (Proc.devRef .tc main_v62) : IVec S1x262144 32)
      = shapeCast S1x262144 (X (Proc.devRef .tc main_arg2) : IVec S262144 32) shapeCasts_S262144_S1x262144 := by
  after_results; rfl

/-- The last stretch is the tail of region 4's output array. -/
theorem ops5_out :
    (after hostOps5 X (Proc.devRef .tc main_v68) : FVec F S1024 .f32)
      = tailK (F := F) (X (Proc.devRef .tc main_v63)) (X (Proc.devRef .tc main_arg7)) (X (Proc.devRef .tc main_arg8)) := by
  after_results; rfl

end Stretch

variable (m : (ℓ : Loc nD τ sig) → Buf (Elt F) ℓ)

/-! ## A buffer an item does not write -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h
theorem W5_of (c : Dev nD) (r : Ref sig .tc) (h : r ∉ hostOps1_W) :
    W5 m c (Proc.devRef .tc r) = W4 m c (Proc.devRef .tc r) :=
  StableHlo.after_of_writes_sub hostOps1 _ hostOps1_writes h
theorem W8_of (c : Dev nD) (r : Ref sig .tc) (h : r ∉ hostOps3_W) :
    W8 m c (Proc.devRef .tc r) = W7 m c (Proc.devRef .tc r) :=
  StableHlo.after_of_writes_sub hostOps3 _ hostOps3_writes h
theorem W10_of (c : Dev nD) (r : Ref sig .tc) (h : r ∉ hostOps4_W) :
    W10 m c (Proc.devRef .tc r) = W9 m c (Proc.devRef .tc r) :=
  StableHlo.after_of_writes_sub hostOps4 _ hostOps4_writes h
theorem W12_of (c : Dev nD) (r : Ref sig .tc) (h : r ∉ hostOps5_W) :
    W12 m c (Proc.devRef .tc r) = W11 m c (Proc.devRef .tc r) :=
  StableHlo.after_of_writes_sub hostOps5 _ hostOps5_writes h

/-- Through the first three stretches: a buffer none of them writes holds its launch contents at region 0's entry. -/
theorem W3_launch (c : Dev nD) (r : Ref sig .tc) (h0 : r ∉ hostOps0_W) (h1 : r ∉ hostOps0_1_W) (h2 : r ∉ hostOps0_2_W) :
    W3 m c (Proc.devRef .tc r) = m ((c.tc : Thread nD τ).loc r) :=
  (W3_of m c r h2).trans ((W2_of m c r h1).trans (W1_of m c r h0))

/-- Through region 0 as well. -/
theorem W4_launch (c : Dev nD) (r : Ref sig .tc) (h0 : r ∉ hostOps0_W) (h1 : r ∉ hostOps0_1_W) (h2 : r ∉ hostOps0_2_W)
    (h3 : ∀ w, Pipeline.arrRef spec0 w ≠ r) :
    W4 m c (Proc.devRef .tc r) = m ((c.tc : Thread nD τ).loc r) :=
  (W4_of_ne m c r h3).trans (W3_launch m c r h0 h1 h2)

/-- From region 0's exit to region 2's exit: the stretch between and the two regions. -/
theorem W7_of (c : Dev nD) (r : Ref sig .tc) (h4 : r ∉ hostOps1_W) (h5 : ∀ w, Pipeline.arrRef spec1 w ≠ r)
    (h6 : ∀ w, Pipeline.arrRef spec2 w ≠ r) :
    W7 m c (Proc.devRef .tc r) = W4 m c (Proc.devRef .tc r) :=
  (W7_of_ne m c r h6).trans ((W6_of_ne m c r h5).trans (W5_of m c r h4))

/-- From region 2's exit to region 4's exit: the two stretches and the two regions. -/
theorem W11_of (c : Dev nD) (r : Ref sig .tc) (h7 : r ∉ hostOps3_W) (h8 : ∀ w, Pipeline.arrRef spec3 w ≠ r)
    (h9 : r ∉ hostOps4_W) (h10 : ∀ w, Pipeline.arrRef spec4 w ≠ r) :
    W11 m c (Proc.devRef .tc r) = W7 m c (Proc.devRef .tc r) :=
  (W11_of_ne m c r h10).trans ((W10_of m c r h9).trans ((W9_of_ne m c r h8).trans (W8_of m c r h7)))

/-! ## The fold read back -/

section Fold

variable (c : Dev nD)

theorem W1_src : (W1 m c (Proc.devRef .tc main_v3) : IVec S4456448 32) = srcK (m ((c.tc : Thread nD τ).loc main_arg1)) := ops0_src (W0 m c)
theorem W1_dst : (W1 m c (Proc.devRef .tc main_v6) : IVec S4456448 32) = dstK (m ((c.tc : Thread nD τ).loc main_arg1)) := ops0_dst (W0 m c)

theorem W2_dinv : (W2 m c (Proc.devRef .tc main_v14) : FVec F S262144 .f32) = dinvK (F := F) (m ((c.tc : Thread nD τ).loc main_arg1)) :=
  ops01_dinv (W1 m c) (m ((c.tc : Thread nD τ).loc main_arg1)) (ops0_pos (W0 m c)) (ops0_rsqrt (W0 m c)) (ops0_zero (W0 m c))

theorem W2_src : (W2 m c (Proc.devRef .tc main_v3) : IVec S4456448 32) = srcK (m ((c.tc : Thread nD τ).loc main_arg1)) :=
  (W2_of m c main_v3 (by decide)).trans (W1_src m c)
theorem W2_dst : (W2 m c (Proc.devRef .tc main_v6) : IVec S4456448 32) = dstK (m ((c.tc : Thread nD τ).loc main_arg1)) :=
  (W2_of m c main_v6 (by decide)).trans (W1_dst m c)

/-- At region 0's entry: the extended sources, -/
theorem W3_src : (W3 m c (Proc.devRef .tc main_v3) : IVec S4456448 32) = srcK (m ((c.tc : Thread nD τ).loc main_arg1)) :=
  (W3_of m c main_v3 (by decide)).trans (W2_src m c)
/-- the extended destinations, -/
theorem W3_dst : (W3 m c (Proc.devRef .tc main_v6) : IVec S4456448 32) = dstK (m ((c.tc : Thread nD τ).loc main_arg1)) :=
  (W3_of m c main_v6 (by decide)).trans (W2_dst m c)
/-- the edge weights. -/
theorem W3_norm : (W3 m c (Proc.devRef .tc main_v29) : FVec F S4456448 .f32) = normK (F := F) (m ((c.tc : Thread nD τ).loc main_arg1)) :=
  ops02_norm (W2 m c) (m ((c.tc : Thread nD τ).loc main_arg1)) (W2_src m c) (W2_dst m c) (W2_dinv m c)

/-- Region 0 changes none of the three. -/
theorem W4_src : (W4 m c (Proc.devRef .tc main_v3) : IVec S4456448 32) = srcK (m ((c.tc : Thread nD τ).loc main_arg1)) :=
  (W4_of_ne m c main_v3 (by decide)).trans (W3_src m c)
theorem W4_dst : (W4 m c (Proc.devRef .tc main_v6) : IVec S4456448 32) = dstK (m ((c.tc : Thread nD τ).loc main_arg1)) :=
  (W4_of_ne m c main_v6 (by decide)).trans (W3_dst m c)
theorem W4_norm : (W4 m c (Proc.devRef .tc main_v29) : FVec F S4456448 .f32) = normK (F := F) (m ((c.tc : Thread nD τ).loc main_arg1)) :=
  (W4_of_ne m c main_v29 (by decide)).trans (W3_norm m c)

/-- Region 0's operands at its entry are the launch contents. -/
theorem W3_x : W3 m c (Proc.devRef .tc main_arg0) = m ((c.tc : Thread nD τ).loc main_arg0) :=
  W3_launch m c main_arg0 (by decide) (by decide) (by decide)
theorem W3_w1 : W3 m c (Proc.devRef .tc main_arg3) = m ((c.tc : Thread nD τ).loc main_arg3) :=
  W3_launch m c main_arg3 (by decide) (by decide) (by decide)

/-- At region 1's entry: the aggregation of region 0's output array, -/
theorem W5_agg :
    (W5 m c (Proc.devRef .tc main_v43) : FVec F S262144x32 .f32) = aggK (F := F) (W4 m c (Proc.devRef .tc main_v30)) (m ((c.tc : Thread nD τ).loc main_arg1)) :=
  ops1_agg (W4 m c) (m ((c.tc : Thread nD τ).loc main_arg1)) (W4_src m c) (W4_dst m c) (W4_norm m c)
/-- and the first bias as a row. -/
theorem W5_b1 :
    (W5 m c (Proc.devRef .tc main_v44) : FVec F S1x32 .f32)
      = shapeCast S1x32 (m ((c.tc : Thread nD τ).loc main_arg4) : FVec F S32 .f32) shapeCasts_S32_S1x32 :=
  (ops1_bias (W4 m c)).trans (congrArg (fun b : FVec F S32 .f32 => shapeCast S1x32 b shapeCasts_S32_S1x32)
    (W4_launch m c main_arg4 (by decide) (by decide) (by decide) (by decide)))

/-- Region 2's weight matrix at its entry is the launch contents. -/
theorem W6_w2 : W6 m c (Proc.devRef .tc main_arg5) = m ((c.tc : Thread nD τ).loc main_arg5) :=
  (W6_of_ne m c main_arg5 (by decide)).trans ((W5_of m c main_arg5 (by decide)).trans
    (W4_launch m c main_arg5 (by decide) (by decide) (by decide) (by decide)))

/-- Regions 1 and 2 and the stretch before them change none of the edge arrays. -/
theorem W7_src : (W7 m c (Proc.devRef .tc main_v3) : IVec S4456448 32) = srcK (m ((c.tc : Thread nD τ).loc main_arg1)) :=
  (W7_of m c main_v3 (by decide) (by decide) (by decide)).trans (W4_src m c)
theorem W7_dst : (W7 m c (Proc.devRef .tc main_v6) : IVec S4456448 32) = dstK (m ((c.tc : Thread nD τ).loc main_arg1)) :=
  (W7_of m c main_v6 (by decide) (by decide) (by decide)).trans (W4_dst m c)
theorem W7_norm : (W7 m c (Proc.devRef .tc main_v29) : FVec F S4456448 .f32) = normK (F := F) (m ((c.tc : Thread nD τ).loc main_arg1)) :=
  (W7_of m c main_v29 (by decide) (by decide) (by decide)).trans (W4_norm m c)

/-- At region 3's entry: the aggregation of region 2's output array, -/
theorem W8_agg :
    (W8 m c (Proc.devRef .tc main_v59) : FVec F S262144x32 .f32) = aggK (F := F) (W7 m c (Proc.devRef .tc main_v46)) (m ((c.tc : Thread nD τ).loc main_arg1)) :=
  ops3_agg (W7 m c) (m ((c.tc : Thread nD τ).loc main_arg1)) (W7_src m c) (W7_dst m c) (W7_norm m c)
/-- and the second bias as a row. -/
theorem W8_b2 :
    (W8 m c (Proc.devRef .tc main_v60) : FVec F S1x32 .f32)
      = shapeCast S1x32 (m ((c.tc : Thread nD τ).loc main_arg6) : FVec F S32 .f32) shapeCasts_S32_S1x32 :=
  (ops3_bias (W7 m c)).trans (congrArg (fun b : FVec F S32 .f32 => shapeCast S1x32 b shapeCasts_S32_S1x32)
    ((W7_of m c main_arg6 (by decide) (by decide) (by decide)).trans
      (W4_launch m c main_arg6 (by decide) (by decide) (by decide) (by decide))))

/-- At region 4's entry: region 3's output array as that region left it, -/
theorem W10_feat : W10 m c (Proc.devRef .tc main_v61) = W9 m c (Proc.devRef .tc main_v61) :=
  W10_of m c main_v61 (by decide)
/-- and the graph ids as a row. -/
theorem W10_batch :
    (W10 m c (Proc.devRef .tc main_v62) : IVec S1x262144 32)
      = shapeCast S1x262144 (m ((c.tc : Thread nD τ).loc main_arg2) : IVec S262144 32) shapeCasts_S262144_S1x262144 :=
  (ops4_batch (W9 m c)).trans (congrArg (fun b : IVec S262144 32 => shapeCast S1x262144 b shapeCasts_S262144_S1x262144)
    ((W9_of_ne m c main_arg2 (by decide)).trans ((W8_of m c main_arg2 (by decide)).trans
      ((W7_of m c main_arg2 (by decide) (by decide) (by decide)).trans
        (W4_launch m c main_arg2 (by decide) (by decide) (by decide) (by decide))))))

/-- THE RESULT BUFFER at the end: the tail of region 4's output array, on the launch contents of the last layer's
    weights and bias. -/
theorem W12_out :
    (W12 m c (Proc.devRef .tc main_v68) : FVec F S1024 .f32)
      = tailK (F := F) (W11 m c (Proc.devRef .tc main_v63)) (m ((c.tc : Thread nD τ).loc main_arg7))
          (m ((c.tc : Thread nD τ).loc main_arg8)) := by
  have e7 : W11 m c (Proc.devRef .tc main_arg7) = m ((c.tc : Thread nD τ).loc main_arg7) :=
    (W11_of m c main_arg7 (by decide) (by decide) (by decide) (by decide)).trans
      ((W7_of m c main_arg7 (by decide) (by decide) (by decide)).trans
        (W4_launch m c main_arg7 (by decide) (by decide) (by decide) (by decide)))
  have e8 : W11 m c (Proc.devRef .tc main_arg8) = m ((c.tc : Thread nD τ).loc main_arg8) :=
    (W11_of m c main_arg8 (by decide) (by decide) (by decide) (by decide)).trans
      ((W7_of m c main_arg8 (by decide) (by decide) (by decide)).trans
        (W4_launch m c main_arg8 (by decide) (by decide) (by decide) (by decide)))
  refine (ops5_out (W11 m c)).trans ?_
  rw [e7, e8]

end Fold

end Cert.KernelIdeal.Val

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibRowOps.lean ====
/-
  Rows of dense layers read at an index, at the ideal values.

  A dense layer acts on each row of its input by itself: a bias row is added to the row and the positive part taken
  (`reluRow`), and the row is multiplied into a weight matrix (`projRow`). The lemmas here read each of these steps
  at an entry `(r, j)` as one of the two row functions of row `r`: the host's `dot_general` with the plain dimension
  numbers and a `tpu.matmul` into the zero accumulator are the same sum along the contracted axis, a `[1, K]` row
  broadcast down an `[M, K]` array reads the row's entry, and the fused `max (x + b) z` forms are the ones a kernel
  body spells with a shape cast of the block and of the bias row.
-/
import Idealize.ShloMosaic.PureOps.Ideal
import Idealize.ShloMosaic.PureOps.Ideal.Laws
import Idealize.ShloMosaic.Lib.ValueIdx
import Idealize.ShloMosaic.Lib.Pipeline.Value
import proofs.«426532_j29326036697815_1_alg».proof.Proof.LibPlainMatmul

noncomputable section

namespace Cert.Lib

open Idealize.ShloMosaic Idealize.ShloMosaic.ValueIdx

/-- A row `x` of length `K` against the columns of a `[K, N]` matrix: entry `j` is the sum of the products along `k`. -/
def projRow {K N : ℕ} (x : Fin K → EReal) (W : (⟨2, ![K, N]⟩ : Shape).Idx → EReal) : Fin N → EReal :=
  fun j => ∑ k : Fin K, x k * W (ix2 k j)

/-- A row `x` plus the bias row `B` (an array of shape `[1, K]`), each entry then capped below by `z`. -/
def reluRow {K : ℕ} (x : Fin K → EReal) (B : (⟨2, ![1, K]⟩ : Shape).Idx → EReal) (z : EReal) : Fin K → EReal :=
  fun k => max (x k + B (ix2 (0 : Fin 1) k)) z

/-- The host's `dot_general` with the plain dimension numbers, at an index: the same sum along the contracted axis. -/
theorem dotGeneral_plain_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]
  rfl

/-- The host's plain `dot_general` at `(i, j)`: row `i` of the left operand against the right operand's columns. -/
theorem dotGeneral_rows_apply {M K N : ℕ} (prec : Option ContractPrecision)
    (l : FVec Ideal ⟨2, ![M, K]⟩ .f32) (w : FVec Ideal ⟨2, ![K, N]⟩ .f32) (i : Fin M) (j : Fin N) :
    Host.dotGeneral (DotDims.plain M K N) prec l w (ix2 i j) = projRow (fun k => l (ix2 i k)) w j :=
  dotGeneral_plain_apply M K N prec l w (ix2 i j)

/-- A `[1, K]` row broadcast down the rows of an `[M, K]` array reads, at `(r, k)`, the row's entry `k`. -/
theorem broadcastTo_row_apply {α : Type} {M K : ℕ} (b : (⟨2, ![1, K]⟩ : Shape).Idx → α)
    (h : (⟨2, ![1, K]⟩ : Shape).Broadcasts ⟨2, ![M, K]⟩) (r : Fin M) (k : Fin K) :
    broadcastTo ⟨2, ![M, K]⟩ b h (ix2 r k) = b (ix2 (0 : Fin 1) k) := by
  refine broadcastTo_apply b h (ix2 r k) (ix2 (0 : Fin 1) k) fun ax => ?_
  match ax with
  | ⟨0, _⟩ => rfl
  | ⟨1, _⟩ =>
    show k.val = if K = 1 then 0 else k.val
    split
    · have := k.isLt; omega
    · rfl

/-- A bias row added to every row of a block, then the positive part against the splat `z`, at `(r, k)`. -/
theorem biasRelu_apply {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) (r : Fin M) (k : Fin K) :
    maximumf (addf (shapeCast ⟨2, ![M, K]⟩ x h1) (broadcastTo ⟨2, ![M, K]⟩ (shapeCast ⟨2, ![1, K]⟩ b h2) h3))
        (broadcast ⟨2, ![M, K]⟩ z) (ix2 r k)
      = reluRow (fun k => x (ix2 r k)) b z k := by
  rw [maximumf_apply, addf_apply, shapeCast_self, shapeCast_self, broadcast_apply, broadcastTo_row_apply]
  rfl

/-- A matrix product's entry plus the bias row's, then the positive part against the splat `z`, at `(r, j)`. -/
theorem addBiasRelu_apply {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) (r : Fin M) (j : Fin N) :
    maximumf (addf y (broadcastTo ⟨2, ![M, N]⟩ (shapeCast ⟨2, ![1, N]⟩ b h2) h3))
        (broadcast ⟨2, ![M, N]⟩ z) (ix2 r j)
      = reluRow (fun j => y (ix2 r j)) b z j := by
  rw [maximumf_apply, addf_apply, shapeCast_self, broadcast_apply, broadcastTo_row_apply]
  rfl

/-- A plain matmul into the zero accumulator at `(r, j)`: the row `r` of the left operand against column `j`. -/
theorem matmul_rows_apply {M K N : ℕ} (prec : Option ContractPrecision)
    (l : FVec Ideal ⟨2, ![M, K]⟩ .f32) (w : FVec Ideal ⟨2, ![K, N]⟩ .f32) (r : Fin M) (j : Fin N) :
    FloatOps.matmul (DotDims.plain M K N) prec l w (constant ⟨2, ![M, N]⟩ .f32 0x00000000#32) (ix2 r j)
      = projRow (fun k => l (ix2 r k)) w j :=
  matmul_plain_zero_apply M K N prec l w (ix2 r j)

/-! ## The same steps on whole arrays -/

/-- Every row of an `[M, K]` array plus the bias row, capped below by `z`. -/
def reluArr {M K : ℕ} (A : (⟨2, ![M, K]⟩ : Shape).Idx → EReal) (B : (⟨2, ![1, K]⟩ : Shape).Idx → EReal) (z : EReal) :
    (⟨2, ![M, K]⟩ : Shape).Idx → EReal :=
  fun i => reluRow (fun k => A (ix2 (i 0) k)) B z (i 1)

/-- Every row of an `[M, K]` array against the columns of a `[K, N]` matrix. -/
def projArr {M K N : ℕ} (X : (⟨2, ![M, K]⟩ : Shape).Idx → EReal) (W : (⟨2, ![K, N]⟩ : Shape).Idx → EReal) :
    (⟨2, ![M, N]⟩ : Shape).Idx → EReal :=
  fun i => projRow (fun k => X (ix2 (i 0) k)) W (i 1)

theorem reluArr_apply {M K : ℕ} (A : (⟨2, ![M, K]⟩ : Shape).Idx → EReal) (B : (⟨2, ![1, K]⟩ : Shape).Idx → EReal) (z : EReal)
    (r : Fin M) (k : Fin K) : reluArr A B z (ix2 r k) = reluRow (fun k => A (ix2 r k)) B z k := rfl

theorem projArr_apply {M K N : ℕ} (X : (⟨2, ![M, K]⟩ : Shape).Idx → EReal) (W : (⟨2, ![K, N]⟩ : Shape).Idx → EReal)
    (r : Fin M) (j : Fin N) : projArr X W (ix2 r j) = projRow (fun k => X (ix2 r k)) W j := rfl

/-- A kernel body's fused bias and positive part of a loaded block, as a whole-block function. -/
theorem kernel_biasRelu_eq {M K : ℕ} (x : FVec Ideal ⟨2, ![M, K]⟩ .f32) (b : FVec Ideal ⟨2, ![1, K]⟩ .f32)
    (h1 : (⟨2, ![M, K]⟩ : Shape).ShapeCasts ⟨2, ![M, K]⟩) (h2 : (⟨2, ![1, K]⟩ : Shape).ShapeCasts ⟨2, ![1, K]⟩)
    (h3 : (⟨2, ![1, K]⟩ : Shape).Broadcasts ⟨2, ![M, K]⟩) (z : Ideal .f32) :
    maximumf (addf (shapeCast ⟨2, ![M, K]⟩ x h1) (broadcastTo ⟨2, ![M, K]⟩ (shapeCast ⟨2, ![1, K]⟩ b h2) h3))
        (broadcast ⟨2, ![M, K]⟩ z) = reluArr x b z := by
  funext i
  obtain ⟨r, k, rfl⟩ : ∃ (r : Fin M) (k : Fin K), i = ix2 r k := ⟨i 0, i 1, eq_ix2 i⟩
  exact biasRelu_apply x b h1 h2 h3 z r k

/-- The same on a computed block (a matrix product), which the body does not shape-cast. -/
theorem kernel_addBiasRelu_eq {M N : ℕ} (y : FVec Ideal ⟨2, ![M, N]⟩ .f32) (b : FVec Ideal ⟨2, ![1, N]⟩ .f32)
    (h2 : (⟨2, ![1, N]⟩ : Shape).ShapeCasts ⟨2, ![1, N]⟩)
    (h3 : (⟨2, ![1, N]⟩ : Shape).Broadcasts ⟨2, ![M, N]⟩) (z : Ideal .f32) :
    maximumf (addf y (broadcastTo ⟨2, ![M, N]⟩ (shapeCast ⟨2, ![1, N]⟩ b h2) h3))
        (broadcast ⟨2, ![M, N]⟩ z) = reluArr y b z := by
  funext i
  obtain ⟨r, j, rfl⟩ : ∃ (r : Fin M) (j : Fin N), i = ix2 r j := ⟨i 0, i 1, eq_ix2 i⟩
  exact addBiasRelu_apply y b h2 h3 z r j

/-- A plain matmul into the zero accumulator, as a whole-block function. -/
theorem kernel_matmul_eq {M K N : ℕ} (prec : Option ContractPrecision)
    (l : FVec Ideal ⟨2, ![M, K]⟩ .f32) (w : FVec Ideal ⟨2, ![K, N]⟩ .f32) :
    FloatOps.matmul (DotDims.plain M K N) prec l w (constant ⟨2, ![M, N]⟩ .f32 0x00000000#32) = projArr l w := by
  funext i
  obtain ⟨r, j, rfl⟩ : ∃ (r : Fin M) (j : Fin N), i = ix2 r j := ⟨i 0, i 1, eq_ix2 i⟩
  exact matmul_rows_apply prec l w r j

/-- The host's plain `dot_general`, as a whole-array function. -/
theorem host_dot_eq {M K N : ℕ} (prec : Option ContractPrecision)
    (l : FVec Ideal ⟨2, ![M, K]⟩ .f32) (w : FVec Ideal ⟨2, ![K, N]⟩ .f32) :
    Host.dotGeneral (DotDims.plain M K N) prec l w = projArr l w := by
  funext i
  obtain ⟨r, j, rfl⟩ : ∃ (r : Fin M) (j : Fin N), i = ix2 r j := ⟨i 0, i 1, eq_ix2 i⟩
  exact dotGeneral_rows_apply prec l w r j

/-- The host's bias and positive part: a length-`K` bias broadcast to a row, then down the rows; the positive part
    against the broadcast zero word. The bias row is the bias vector viewed as a `[1, K]` array. -/
theorem host_biasRelu_eq {M K : ℕ} (A : FVec Ideal ⟨2, ![M, K]⟩ .f32) (b : FVec Ideal ⟨1, ![K]⟩ .f32)
    (h1 : (⟨2, ![1, K]⟩ : Shape).BroadcastsInDim ⟨2, ![M, K]⟩ ![0, 1])
    (h2 : (⟨1, ![K]⟩ : Shape).BroadcastsInDim ⟨2, ![1, K]⟩ ![1])
    (h3 : (⟨0, ![]⟩ : Shape).BroadcastsInDim ⟨2, ![M, K]⟩ ![])
    (h4 : (⟨1, ![K]⟩ : Shape).ShapeCasts ⟨2, ![1, K]⟩) (w : BitVec 32) :
    maximumf (addf A (broadcastInDim ⟨2, ![M, K]⟩ ![0, 1] h1 (broadcastInDim ⟨2, ![1, K]⟩ ![1] h2 b)))
        (broadcastInDim ⟨2, ![M, K]⟩ ![] h3 (constant ⟨0, ![]⟩ .f32 w))
      = reluArr A (shapeCast ⟨2, ![1, K]⟩ b h4) (Ideal.ofBits .f32 w) := by
  funext i
  obtain ⟨r, k, rfl⟩ : ∃ (r : Fin M) (k : Fin K), i = ix2 r k := ⟨i 0, i 1, eq_ix2 i⟩
  rw [maximumf_apply, addf_apply, reluArr_apply]
  have e1 : broadcastInDim ⟨2, ![M, K]⟩ ![0, 1] h1 (broadcastInDim ⟨2, ![1, K]⟩ ![1] h2 b) (ix2 r k) = b (ix1 k) := by
    rw [broadcastInDim_apply ![0, 1] h1 _ (ix2 r k) (ix2 (0 : Fin 1) k) (fun ax => by
      match ax with
      | ⟨0, _⟩ => rfl
      | ⟨1, _⟩ =>
        show k.val = if K = 1 then 0 else k.val
        split
        · have := k.isLt; omega
        · rfl)]
    exact broadcastInDim_apply ![1] h2 b (ix2 (0 : Fin 1) k) (ix1 k) (fun ax => by
      match ax with
      | ⟨0, _⟩ =>
        show k.val = if K = 1 then 0 else k.val
        split
        · have := k.isLt; omega
        · rfl)
  have e2 : broadcastInDim ⟨2, ![M, K]⟩ ![] h3 (constant ⟨0, ![]⟩ .f32 w) (ix2 r k) = Ideal.ofBits .f32 w :=
    broadcastInDim_apply ![] h3 _ (ix2 r k) ix0 (fun ax => ax.elim0)
  have e3 : shapeCast ⟨2, ![1, K]⟩ b h4 (ix2 (0 : Fin 1) k) = b (ix1 k) :=
    shapeCast_apply b h4 _ _ (by
      rw [Shape.rowMajor_val_two, Shape.rowMajor_val_one]
      show k.val = 0 * K + k.val
      omega)
  rw [e1, e2]
  show max (A (ix2 r k) + b (ix1 k)) (Ideal.ofBits .f32 w) = max (A (ix2 r k) + shapeCast ⟨2, ![1, K]⟩ b h4 (ix2 (0 : Fin 1) k)) (Ideal.ofBits .f32 w)
  rw [e3]

end Cert.Lib

end
-- ==== Proof.KIVal0.lean ====
/-
  What region 0 leaves in its output array: every row of `x` against the columns of `W1`. Each grid point writes back one block of 8192 rows, the matrix product of the block of `x` with the whole of `W1`; the 32 blocks tile the array, and a row of a block's product is that row of the array against `W1`.
-/
import proofs.«426532_j29326036697815_1_alg».proof.Proof.KIReg0
import proofs.«426532_j29326036697815_1_alg».proof.Proof.LibRowOps
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the core's buffer contents when the region is entered, at the ideal values
variable (V : (c : Dev nD) → (b : Ref sig .tc) → Buf (Elt Ideal) ((c : Thread nD τ).loc b))

/-- The origin of a rank-2 array, as the constant-zero offset. -/
private theorem origin2 : (![0, 0] : Fin 2 → Nat) = fun _ => 0 := funext fun a => by fin_cases a <;> rfl

/-- The body's payload at the ideal values: a shape cast of a block to its own shape is the block, rounding the operands to bf16 changes nothing there, and the product into the zero accumulator is the block's rows against the weight matrix. -/
theorem pay0_eq (x0 : Vec Ideal S8192x10 .f32) (x1 : Vec Ideal S10x32 .f32) :
    k0_pay1 x0 x1 = Cert.Lib.projArr (M := 8192) (K := 10) (N := 32) x0 x1 := by
  simp only [k0_pay1, shapeCast_self]
  exact Cert.Lib.kernel_matmul_eq none x0 x1

/-- The printed index maps over the grid: point `t` reads block `(t, 0)` of `x`, block `(0, 0)` of `W1`, and writes block `(t, 0)` of the output. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the row-by-row product of the two arrays: row `r` of the block of `x` is row `8192 t + r` of `x`, the weight block is all of `W1`, and the column is the block's column. -/
theorem flushed0_eq (c : Dev nD) (t : Fin cfg0.N) :
    (dat0 V c).flushed 2 t = ((cfg0.win 2).blk t).view.read (Elt Ideal) (fun i => Cert.Lib.projArr (M := 262144) (K := 10) (N := 32) (V c main_arg0) (V c main_arg3) i) := by
  show (cfg0.win 2).cut (grid0.coords t) ((dat0 V c).after 2 t) = _
  rw [after0_2]
  unfold out0_2
  rw [View.canon_unit_zero origin2]
  simp only [View.ld_unit_zero (S := S8192x10) origin2, View.ld_unit_zero (S := S10x32) origin2]
  rw [pay0_eq]
  obtain ⟨e00, e01, e10, e11, e20, e21⟩ := index0 t
  funext j
  obtain ⟨r, q, rfl⟩ : ∃ (r : Fin 8192) (q : Fin 32), j = ix2 r q := ⟨j 0, j 1, eq_ix2 j⟩
  show Cert.Lib.projRow (K := 10) (N := 32) (fun k => V c main_arg0 (((cfg0.win 0).blk t).view.emb (ix2 r k))) (fun i => V c main_arg3 (((cfg0.win 1).blk t).view.emb i)) q
    = Cert.Lib.projRow (K := 10) (N := 32) (fun k => V c main_arg0 (ix2 (((cfg0.win 2).blk t).view.emb (ix2 r q) 0) k)) (V c main_arg3) (((cfg0.win 2).blk t).view.emb (ix2 r q) 1)
  have h0 : ∀ k : Fin 10, ((cfg0.win 0).blk t).view.emb (ix2 r k) = ix2 (((cfg0.win 2).blk t).view.emb (ix2 r q) 0) k := fun k => by
    funext a; apply Fin.ext
    match a with
    | ⟨0, _⟩ => show win0_0.index t (0 : Fin 2) * 8192 + 1 * r.val = win0_2.index t (0 : Fin 2) * 8192 + 1 * r.val; omega
    | ⟨1, _⟩ => show win0_0.index t (1 : Fin 2) * 10 + 1 * k.val = k.val; omega
  have h1 : ∀ i : S10x32.Idx, ((cfg0.win 1).blk t).view.emb i = i := fun i => by
    funext a; apply Fin.ext
    match a with
    | ⟨0, _⟩ => show win0_1.index t (0 : Fin 2) * 10 + 1 * (i 0).val = (i 0).val; omega
    | ⟨1, _⟩ => show win0_1.index t (1 : Fin 2) * 32 + 1 * (i 1).val = (i 1).val; omega
  have h2 : ((cfg0.win 2).blk t).view.emb (ix2 r q) 1 = q := by
    apply Fin.ext
    show win0_2.index t (1 : Fin 2) * 32 + 1 * q.val = q.val; omega
  simp only [h0, h1, h2]
  rfl

/-- An index of the output array is in point `t`'s block iff each coordinate is in the block's range on its axis. -/
theorem mem_blk0 (t : Fin cfg0.N) (i : S262144x32.Idx) :
    i ∈ ((cfg0.win 2).blk t).view.set ↔ ∀ a : Fin 2, win0_2.index t a * S8192x32.size a ≤ (i a).val ∧ (i a).val < win0_2.index t a * S8192x32.size a + S8192x32.size a := by
  show i ∈ ((View.whole main_v30).slice (win0_2.rect t)).set ↔ _
  rw [View.set_slice_whole, Rect.mem_set_unit]
  exact Iff.rfl

/-- The 32 blocks of 8192 rows tile the output array: row `r` lies in the block of point `r / 8192`, and every point writes its block back. -/
theorem cover0 (i : S262144x32.Idx) :
    ∃ t : Fin cfg0.N, (cfg0.win 2).flush t = true ∧ i ∈ ((cfg0.win 2).blk t).view.set := by
  have hi0 : (i 0).val < 262144 := (i 0).isLt
  have hi1 : (i 1).val < 32 := (i 1).isLt
  let t : Fin cfg0.N := ⟨(i 0).val / 8192, by show (i 0).val / 8192 < 32; omega⟩
  obtain ⟨e00, e01, e10, e11, e20, e21⟩ := index0 t
  have ht : t.val = (i 0).val / 8192 := rfl
  refine ⟨t, flush0_2 t, ?_⟩
  rw [mem_blk0]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 32 ≤ (i 1).val ∧ (i 1).val < win0_2.index t (1 : Fin 2) * 32 + 32; omega

/-- THE ARRAY after region 0: the row-by-row product of the two operand arrays as the region finds them. -/
theorem final0 (c : Dev nD) :
    (dat0 V c).arrAt 2 cfg0.N = (fun i => Cert.Lib.projArr (M := 262144) (K := 10) (N := 32) (V c main_arg0) (V c main_arg3) i) :=
  (dat0 V c).arrAt_eq_of_cover 2 _ (fun t _ => flushed0_eq V c t) cover0

end Cert.KernelIdeal.Val

end
-- ==== Proof.KIVal1.lean ====
/-
  What region 1 leaves in its output array: every row of the aggregated features plus the bias row, capped below by zero. Each grid point writes back one block of 8192 rows; the 32 blocks tile the array, and the bias row is the same at every block.
-/
import proofs.«426532_j29326036697815_1_alg».proof.Proof.KIReg1
import proofs.«426532_j29326036697815_1_alg».proof.Proof.LibRowOps
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the core's buffer contents when the region is entered, at the ideal values
variable (V : (c : Dev nD) → (b : Ref sig .tc) → Buf (Elt Ideal) ((c : Thread nD τ).loc b))

/-- The origin of a rank-2 buffer, as the constant-zero offset. -/
private theorem origin2 : (![0, 0] : Fin 2 → Nat) = fun _ => 0 := funext fun a => by fin_cases a <;> rfl

/-- The body's payload on whole blocks: the block's rows plus the bias row, capped below by zero. -/
theorem biasRelu_block1 (x0 : Vec Ideal S8192x32 .f32) (x1 : Vec Ideal S1x32 .f32) :
    k1_pay1 x0 x1 = Cert.Lib.reluArr (M := 8192) (K := 32) x0 x1 0 := by
  unfold k1_pay1
  dsimp only
  rw [show (Scalar.ofBits (F := Ideal) .f32 0x00000000#32) = (0 : EReal) from Ideal.ofBits_zero_f32]
  exact Cert.Lib.kernel_biasRelu_eq x0 x1 _ _ _ 0

/-- The printed index maps over the grid: the operand's and the output's block at point `t` is row block `t`, column
    block 0; the bias row's block is always the whole row. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the operand's block at point `t` is row `8192 t + p` of the operand array. -/
theorem operand_block1_apply (c : Dev nD) (t : Fin cfg1.N) (p : Fin 8192) (q : Fin 32) (h : t.val * 8192 + p.val < 262144) :
    iblk1 V c 0 t (ix2 p q) = V c main_v43 (ix2 (⟨t.val * 8192 + p.val, h⟩ : Fin 262144) q) := by
  obtain ⟨e00, e01, e10, e11, e20, e21⟩ := block_index1 t
  show V c main_v43 (((cfg1.win 0).blk t).view.emb (ix2 p q)) = _
  refine congrArg _ ?_
  funext a; apply Fin.ext
  match a with
  | ⟨0, _⟩ => show win1_0.index t (0 : Fin 2) * 8192 + 1 * p.val = t.val * 8192 + p.val; omega
  | ⟨1, _⟩ => show win1_0.index t (1 : Fin 2) * 32 + 1 * q.val = q.val; omega

/-- The bias row's block at any point is the bias row. -/
theorem bias_block1_apply (c : Dev nD) (t : Fin cfg1.N) (q : Fin 32) :
    iblk1 V c 1 t (ix2 (0 : Fin 1) q) = V c main_v44 (ix2 (0 : Fin 1) q) := by
  obtain ⟨e00, e01, e10, e11, e20, e21⟩ := block_index1 t
  show V c main_v44 (((cfg1.win 1).blk t).view.emb (ix2 (0 : Fin 1) q)) = _
  refine congrArg _ ?_
  funext a; apply Fin.ext
  match a with
  | ⟨0, _⟩ => show win1_1.index t (0 : Fin 2) * 1 + 1 * 0 = 0; omega
  | ⟨1, _⟩ => show win1_1.index t (1 : Fin 2) * 32 + 1 * q.val = q.val; omega

/-- Entry `(p, q)` of the output's block at point `t` is entry `(8192 t + p, q)` of the output array. -/
theorem out_block1_emb (t : Fin cfg1.N) (p : Fin 8192) (q : Fin 32) (h : t.val * 8192 + p.val < 262144) :
    ((cfg1.win 2).blk t).view.emb (ix2 p q) = ix2 (⟨t.val * 8192 + p.val, h⟩ : Fin 262144) q := by
  obtain ⟨e00, e01, e10, e11, e20, e21⟩ := block_index1 t
  funext a; apply Fin.ext
  match a with
  | ⟨0, _⟩ => show win1_2.index t (0 : Fin 2) * 8192 + 1 * p.val = t.val * 8192 + p.val; omega
  | ⟨1, _⟩ => show win1_2.index t (1 : Fin 2) * 32 + 1 * q.val = q.val; omega

/-- A biased, clamped row's entry `k` reads only the row's entry `k` and the bias row's. -/
private theorem reluRow_entry_congr {K : ℕ} (x x' : Fin K → EReal) (B B' : (⟨2, ![1, K]⟩ : Shape).Idx → EReal) (z : EReal) (k : Fin K)
    (hx : x k = x' k) (hB : B (ix2 (0 : Fin 1) k) = B' (ix2 (0 : Fin 1) k)) :
    Cert.Lib.reluRow x B z k = Cert.Lib.reluRow x' B' z k := by
  show max (x k + B (ix2 (0 : Fin 1) k)) z = max (x' k + B' (ix2 (0 : Fin 1) k)) z
  rw [hx, hB]

/-- What point `t` writes back: block `t` of the biased, clamped operand array. -/
theorem flushed1_eq (c : Dev nD) (t : Fin cfg1.N) :
    (dat1 V c).flushed 2 t = ((cfg1.win 2).blk t).view.read (Elt Ideal)
      (fun i => Cert.Lib.reluArr (M := 262144) (K := 32) (V c main_v43) (V c main_v44) 0 i) := by
  show (cfg1.win 2).cut (grid1.coords t) ((dat1 V c).after 2 t) = _
  rw [after1_2]
  unfold out1_2
  rw [View.canon_unit_zero origin2]
  simp only [View.ld_unit_zero (S := S8192x32) origin2, View.ld_unit_zero (S := S1x32) origin2]
  rw [biasRelu_block1]
  funext j
  obtain ⟨p, q, rfl⟩ : ∃ (p : Fin 8192) (q : Fin 32), j = ix2 p q := ⟨j 0, j 1, eq_ix2 j⟩
  have ht : t.val < 32 := t.isLt
  have h : t.val * 8192 + p.val < 262144 := by have := p.isLt; omega
  show Cert.Lib.reluArr (M := 8192) (K := 32) (iblk1 V c 0 t) (iblk1 V c 1 t) 0 (ix2 p q)
    = Cert.Lib.reluArr (M := 262144) (K := 32) (V c main_v43) (V c main_v44) 0 (((cfg1.win 2).blk t).view.emb (ix2 p q))
  rw [out_block1_emb t p q h, Cert.Lib.reluArr_apply, Cert.Lib.reluArr_apply]
  exact reluRow_entry_congr _ _ _ _ 0 q (operand_block1_apply V c t p q h) (bias_block1_apply V c t q)

/-- An index of the array is in point `t`'s block iff each coordinate is in the block's range on its axis. -/
theorem mem_out_block1 (t : Fin cfg1.N) (i : S262144x32.Idx) :
    i ∈ ((cfg1.win 2).blk t).view.set ↔ ∀ a : Fin 2, win1_2.index t a * S8192x32.size a ≤ (i a).val ∧ (i a).val < win1_2.index t a * S8192x32.size a + S8192x32.size a := by
  show i ∈ ((View.whole main_v45).slice (win1_2.rect t)).set ↔ _
  rw [View.set_slice_whole, Rect.mem_set_unit]
  exact Iff.rfl

/-- The 32 blocks of 8192 rows tile the array: row `r` is in the block of point `r / 8192`, and every point writes its
    block back. -/
theorem out_blocks_cover1 (i : S262144x32.Idx) :
    ∃ t : Fin cfg1.N, (cfg1.win 2).flush t = true ∧ i ∈ ((cfg1.win 2).blk t).view.set := by
  have hi0 : (i 0).val < 262144 := (i 0).isLt
  have hi1 : (i 1).val < 32 := (i 1).isLt
  obtain ⟨t, ht⟩ : ∃ t : Fin cfg1.N, t.val = (i 0).val / 8192 :=
    ⟨⟨(i 0).val / 8192, by show (i 0).val / 8192 < 32; omega⟩, rfl⟩
  obtain ⟨e00, e01, e10, e11, e20, e21⟩ := block_index1 t
  refine ⟨t, flush1_2 t, ?_⟩
  rw [mem_out_block1]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 32 ≤ (i 1).val ∧ (i 1).val < win1_2.index t (1 : Fin 2) * 32 + 32; omega

/-- THE ARRAY after region 1: bias and positive part of the operand array as the region finds it, row by row. -/
theorem final1 (c : Dev nD) :
    (dat1 V c).arrAt 2 cfg1.N = (fun i => Cert.Lib.reluArr (M := 262144) (K := 32) (V c main_v43) (V c main_v44) 0 i) := by
  exact (dat1 V c).arrAt_eq_of_cover 2 _ (fun t _ => flushed1_eq V c t) out_blocks_cover1

end Cert.KernelIdeal.Val

end
-- ==== Proof.KIVal2.lean ====
/-
  What region 2 leaves in its output array: every row of the hidden rows against the columns of `W2`. Each grid point writes back one block of 8192 rows, the matrix product of the block of the hidden rows with the whole of `W2`; the 32 blocks tile the array, and a row of a block's product is that row of the array against `W2`.
-/
import proofs.«426532_j29326036697815_1_alg».proof.Proof.KIReg2
import proofs.«426532_j29326036697815_1_alg».proof.Proof.LibRowOps
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the core's buffer contents when the region is entered, at the ideal values
variable (V : (c : Dev nD) → (b : Ref sig .tc) → Buf (Elt Ideal) ((c : Thread nD τ).loc b))

/-- The origin of a rank-2 array, as the constant-zero offset. -/
private theorem origin2 : (![0, 0] : Fin 2 → Nat) = fun _ => 0 := funext fun a => by fin_cases a <;> rfl

/-- The body's payload at the ideal values: a shape cast of a block to its own shape is the block, rounding the operands to bf16 changes nothing there, and the product into the zero accumulator is the block's rows against the weight matrix. -/
theorem pay2_eq (x0 : Vec Ideal S8192x32 .f32) (x1 : Vec Ideal S32x32 .f32) :
    k2_pay1 x0 x1 = Cert.Lib.projArr (M := 8192) (K := 32) (N := 32) x0 x1 := by
  simp only [k2_pay1, shapeCast_self]
  exact Cert.Lib.kernel_matmul_eq none x0 x1

/-- The printed index maps over the grid: point `t` reads block `(t, 0)` of the hidden rows, block `(0, 0)` of `W2`, and writes block `(t, 0)` of the output. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is block `t` of the row-by-row product of the two arrays: row `r` of the block of the hidden rows is row `8192 t + r` of the hidden rows, the weight block is all of `W2`, and the column is the block's column. -/
theorem flushed2_eq (c : Dev nD) (t : Fin cfg2.N) :
    (dat2 V c).flushed 2 t = ((cfg2.win 2).blk t).view.read (Elt Ideal) (fun i => Cert.Lib.projArr (M := 262144) (K := 32) (N := 32) (V c main_v45) (V c main_arg5) i) := by
  show (cfg2.win 2).cut (grid2.coords t) ((dat2 V c).after 2 t) = _
  rw [after2_2]
  unfold out2_2
  rw [View.canon_unit_zero origin2]
  simp only [View.ld_unit_zero (S := S8192x32) origin2, View.ld_unit_zero (S := S32x32) origin2]
  rw [pay2_eq]
  obtain ⟨e00, e01, e10, e11, e20, e21⟩ := index2 t
  funext j
  obtain ⟨r, q, rfl⟩ : ∃ (r : Fin 8192) (q : Fin 32), j = ix2 r q := ⟨j 0, j 1, eq_ix2 j⟩
  show Cert.Lib.projRow (K := 32) (N := 32) (fun k => V c main_v45 (((cfg2.win 0).blk t).view.emb (ix2 r k))) (fun i => V c main_arg5 (((cfg2.win 1).blk t).view.emb i)) q
    = Cert.Lib.projRow (K := 32) (N := 32) (fun k => V c main_v45 (ix2 (((cfg2.win 2).blk t).view.emb (ix2 r q) 0) k)) (V c main_arg5) (((cfg2.win 2).blk t).view.emb (ix2 r q) 1)
  have h0 : ∀ k : Fin 32, ((cfg2.win 0).blk t).view.emb (ix2 r k) = ix2 (((cfg2.win 2).blk t).view.emb (ix2 r q) 0) k := fun k => by
    funext a; apply Fin.ext
    match a with
    | ⟨0, _⟩ => show win2_0.index t (0 : Fin 2) * 8192 + 1 * r.val = win2_2.index t (0 : Fin 2) * 8192 + 1 * r.val; omega
    | ⟨1, _⟩ => show win2_0.index t (1 : Fin 2) * 32 + 1 * k.val = k.val; omega
  have h1 : ∀ i : S32x32.Idx, ((cfg2.win 1).blk t).view.emb i = i := fun i => by
    funext a; apply Fin.ext
    match a with
    | ⟨0, _⟩ => show win2_1.index t (0 : Fin 2) * 32 + 1 * (i 0).val = (i 0).val; omega
    | ⟨1, _⟩ => show win2_1.index t (1 : Fin 2) * 32 + 1 * (i 1).val = (i 1).val; omega
  have h2 : ((cfg2.win 2).blk t).view.emb (ix2 r q) 1 = q := by
    apply Fin.ext
    show win2_2.index t (1 : Fin 2) * 32 + 1 * q.val = q.val; omega
  simp only [h0, h1, h2]
  rfl

/-- An index of the output array is in point `t`'s block iff each coordinate is in the block's range on its axis. -/
theorem mem_blk2 (t : Fin cfg2.N) (i : S262144x32.Idx) :
    i ∈ ((cfg2.win 2).blk t).view.set ↔ ∀ a : Fin 2, win2_2.index t a * S8192x32.size a ≤ (i a).val ∧ (i a).val < win2_2.index t a * S8192x32.size a + S8192x32.size a := by
  show i ∈ ((View.whole main_v46).slice (win2_2.rect t)).set ↔ _
  rw [View.set_slice_whole, Rect.mem_set_unit]
  exact Iff.rfl

/-- The 32 blocks of 8192 rows tile the output array: row `r` lies in the block of point `r / 8192`, and every point writes its block back. -/
theorem cover2 (i : S262144x32.Idx) :
    ∃ t : Fin cfg2.N, (cfg2.win 2).flush t = true ∧ i ∈ ((cfg2.win 2).blk t).view.set := by
  have hi0 : (i 0).val < 262144 := (i 0).isLt
  have hi1 : (i 1).val < 32 := (i 1).isLt
  let t : Fin cfg2.N := ⟨(i 0).val / 8192, by show (i 0).val / 8192 < 32; omega⟩
  obtain ⟨e00, e01, e10, e11, e20, e21⟩ := index2 t
  have ht : t.val = (i 0).val / 8192 := rfl
  refine ⟨t, flush2_2 t, ?_⟩
  rw [mem_blk2]
  intro a
  match a with
  | ⟨0, _⟩ => show win2_2.index t (0 : Fin 2) * 8192 ≤ (i 0).val ∧ (i 0).val < win2_2.index t (0 : Fin 2) * 8192 + 8192; omega
  | ⟨1, _⟩ => show win2_2.index t (1 : Fin 2) * 32 ≤ (i 1).val ∧ (i 1).val < win2_2.index t (1 : Fin 2) * 32 + 32; omega

/-- THE ARRAY after region 2: the row-by-row product of the two operand arrays as the region finds them. -/
theorem final2 (c : Dev nD) :
    (dat2 V c).arrAt 2 cfg2.N = (fun i => Cert.Lib.projArr (M := 262144) (K := 32) (N := 32) (V c main_v45) (V c main_arg5) i) :=
  (dat2 V c).arrAt_eq_of_cover 2 _ (fun t _ => flushed2_eq V c t) cover2

end Cert.KernelIdeal.Val

end
-- ==== Proof.KIVal3.lean ====
/-
  What region 3 leaves in its output array: every row of the aggregated features plus the bias row, capped below by zero. Each grid point writes back one block of 8192 rows; the 32 blocks tile the array, and the bias row is the same at every block.
-/
import proofs.«426532_j29326036697815_1_alg».proof.Proof.KIReg3
import proofs.«426532_j29326036697815_1_alg».proof.Proof.LibRowOps
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the core's buffer contents when the region is entered, at the ideal values
variable (V : (c : Dev nD) → (b : Ref sig .tc) → Buf (Elt Ideal) ((c : Thread nD τ).loc b))

/-- The origin of a rank-2 buffer, as the constant-zero offset. -/
private theorem origin2 : (![0, 0] : Fin 2 → Nat) = fun _ => 0 := funext fun a => by fin_cases a <;> rfl

/-- The body's payload on whole blocks: the block's rows plus the bias row, capped below by zero. -/
theorem biasRelu_block3 (x0 : Vec Ideal S8192x32 .f32) (x1 : Vec Ideal S1x32 .f32) :
    k3_pay1 x0 x1 = Cert.Lib.reluArr (M := 8192) (K := 32) x0 x1 0 := by
  unfold k3_pay1
  dsimp only
  rw [show (Scalar.ofBits (F := Ideal) .f32 0x00000000#32) = (0 : EReal) from Ideal.ofBits_zero_f32]
  exact Cert.Lib.kernel_biasRelu_eq x0 x1 _ _ _ 0

/-- The printed index maps over the grid: the operand's and the output's block at point `t` is row block `t`, column
    block 0; the bias row's block is always the whole row. -/
theorem block_index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of the operand's block at point `t` is row `8192 t + p` of the operand array. -/
theorem operand_block3_apply (c : Dev nD) (t : Fin cfg3.N) (p : Fin 8192) (q : Fin 32) (h : t.val * 8192 + p.val < 262144) :
    iblk3 V c 0 t (ix2 p q) = V c main_v59 (ix2 (⟨t.val * 8192 + p.val, h⟩ : Fin 262144) q) := by
  obtain ⟨e00, e01, e10, e11, e20, e21⟩ := block_index3 t
  show V c main_v59 (((cfg3.win 0).blk t).view.emb (ix2 p q)) = _
  refine congrArg _ ?_
  funext a; apply Fin.ext
  match a with
  | ⟨0, _⟩ => show win3_0.index t (0 : Fin 2) * 8192 + 1 * p.val = t.val * 8192 + p.val; omega
  | ⟨1, _⟩ => show win3_0.index t (1 : Fin 2) * 32 + 1 * q.val = q.val; omega

/-- The bias row's block at any point is the bias row. -/
theorem bias_block3_apply (c : Dev nD) (t : Fin cfg3.N) (q : Fin 32) :
    iblk3 V c 1 t (ix2 (0 : Fin 1) q) = V c main_v60 (ix2 (0 : Fin 1) q) := by
  obtain ⟨e00, e01, e10, e11, e20, e21⟩ := block_index3 t
  show V c main_v60 (((cfg3.win 1).blk t).view.emb (ix2 (0 : Fin 1) q)) = _
  refine congrArg _ ?_
  funext a; apply Fin.ext
  match a with
  | ⟨0, _⟩ => show win3_1.index t (0 : Fin 2) * 1 + 1 * 0 = 0; omega
  | ⟨1, _⟩ => show win3_1.index t (1 : Fin 2) * 32 + 1 * q.val = q.val; omega

/-- Entry `(p, q)` of the output's block at point `t` is entry `(8192 t + p, q)` of the output array. -/
theorem out_block3_emb (t : Fin cfg3.N) (p : Fin 8192) (q : Fin 32) (h : t.val * 8192 + p.val < 262144) :
    ((cfg3.win 2).blk t).view.emb (ix2 p q) = ix2 (⟨t.val * 8192 + p.val, h⟩ : Fin 262144) q := by
  obtain ⟨e00, e01, e10, e11, e20, e21⟩ := block_index3 t
  funext a; apply Fin.ext
  match a with
  | ⟨0, _⟩ => show win3_2.index t (0 : Fin 2) * 8192 + 1 * p.val = t.val * 8192 + p.val; omega
  | ⟨1, _⟩ => show win3_2.index t (1 : Fin 2) * 32 + 1 * q.val = q.val; omega

/-- A biased, clamped row's entry `k` reads only the row's entry `k` and the bias row's. -/
private theorem reluRow_entry_congr {K : ℕ} (x x' : Fin K → EReal) (B B' : (⟨2, ![1, K]⟩ : Shape).Idx → EReal) (z : EReal) (k : Fin K)
    (hx : x k = x' k) (hB : B (ix2 (0 : Fin 1) k) = B' (ix2 (0 : Fin 1) k)) :
    Cert.Lib.reluRow x B z k = Cert.Lib.reluRow x' B' z k := by
  show max (x k + B (ix2 (0 : Fin 1) k)) z = max (x' k + B' (ix2 (0 : Fin 1) k)) z
  rw [hx, hB]

/-- What point `t` writes back: block `t` of the biased, clamped operand array. -/
theorem flushed3_eq (c : Dev nD) (t : Fin cfg3.N) :
    (dat3 V c).flushed 2 t = ((cfg3.win 2).blk t).view.read (Elt Ideal)
      (fun i => Cert.Lib.reluArr (M := 262144) (K := 32) (V c main_v59) (V c main_v60) 0 i) := by
  show (cfg3.win 2).cut (grid3.coords t) ((dat3 V c).after 2 t) = _
  rw [after3_2]
  unfold out3_2
  rw [View.canon_unit_zero origin2]
  simp only [View.ld_unit_zero (S := S8192x32) origin2, View.ld_unit_zero (S := S1x32) origin2]
  rw [biasRelu_block3]
  funext j
  obtain ⟨p, q, rfl⟩ : ∃ (p : Fin 8192) (q : Fin 32), j = ix2 p q := ⟨j 0, j 1, eq_ix2 j⟩
  have ht : t.val < 32 := t.isLt
  have h : t.val * 8192 + p.val < 262144 := by have := p.isLt; omega
  show Cert.Lib.reluArr (M := 8192) (K := 32) (iblk3 V c 0 t) (iblk3 V c 1 t) 0 (ix2 p q)
    = Cert.Lib.reluArr (M := 262144) (K := 32) (V c main_v59) (V c main_v60) 0 (((cfg3.win 2).blk t).view.emb (ix2 p q))
  rw [out_block3_emb t p q h, Cert.Lib.reluArr_apply, Cert.Lib.reluArr_apply]
  exact reluRow_entry_congr _ _ _ _ 0 q (operand_block3_apply V c t p q h) (bias_block3_apply V c t q)

/-- An index of the array is in point `t`'s block iff each coordinate is in the block's range on its axis. -/
theorem mem_out_block3 (t : Fin cfg3.N) (i : S262144x32.Idx) :
    i ∈ ((cfg3.win 2).blk t).view.set ↔ ∀ a : Fin 2, win3_2.index t a * S8192x32.size a ≤ (i a).val ∧ (i a).val < win3_2.index t a * S8192x32.size a + S8192x32.size a := by
  show i ∈ ((View.whole main_v61).slice (win3_2.rect t)).set ↔ _
  rw [View.set_slice_whole, Rect.mem_set_unit]
  exact Iff.rfl

/-- The 32 blocks of 8192 rows tile the array: row `r` is in the block of point `r / 8192`, and every point writes its
    block back. -/
theorem out_blocks_cover3 (i : S262144x32.Idx) :
    ∃ t : Fin cfg3.N, (cfg3.win 2).flush t = true ∧ i ∈ ((cfg3.win 2).blk t).view.set := by
  have hi0 : (i 0).val < 262144 := (i 0).isLt
  have hi1 : (i 1).val < 32 := (i 1).isLt
  obtain ⟨t, ht⟩ : ∃ t : Fin cfg3.N, t.val = (i 0).val / 8192 :=
    ⟨⟨(i 0).val / 8192, by show (i 0).val / 8192 < 32; omega⟩, rfl⟩
  obtain ⟨e00, e01, e10, e11, e20, e21⟩ := block_index3 t
  refine ⟨t, flush3_2 t, ?_⟩
  rw [mem_out_block3]
  intro a
  match a with
  | ⟨0, _⟩ => show win3_2.index t (0 : Fin 2) * 8192 ≤ (i 0).val ∧ (i 0).val < win3_2.index t (0 : Fin 2) * 8192 + 8192; omega
  | ⟨1, _⟩ => show win3_2.index t (1 : Fin 2) * 32 ≤ (i 1).val ∧ (i 1).val < win3_2.index t (1 : Fin 2) * 32 + 32; omega

/-- THE ARRAY after region 3: bias and positive part of the operand array as the region finds it, row by row. -/
theorem final3 (c : Dev nD) :
    (dat3 V c).arrAt 2 cfg3.N = (fun i => Cert.Lib.reluArr (M := 262144) (K := 32) (V c main_v59) (V c main_v60) 0 i) := by
  exact (dat3 V c).arrAt_eq_of_cover 2 _ (fun t _ => flushed3_eq V c t) out_blocks_cover3

end Cert.KernelIdeal.Val

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.KIPay4.lean ====
/-
  The pool kernel's arithmetic read at an index, at the ideal values. The one-hot matrix has a one at `(g, j)` exactly when node `j` of the tile has graph id `g` (the id compared as a 32-bit word with the row number, which for the 1024 rows is the same as the id read signed being `g`); its product with the tile's feature rows adds, to entry `(g, k)` of the running sum, the entries in column `k` of the tile's nodes of graph `g`, and its product with a column of ones adds their number to the running count.
-/
import proofs.«426532_j29326036697815_1_alg».proof.Proof.Gen.KernelIdeal.Skeleton
import proofs.«426532_j29326036697815_1_alg».proof.Proof.LibPlainMatmul
import proofs.«426532_j29326036697815_1_alg».proof.Proof.LibKeepdims
import proofs.«426532_j29326036697815_1_alg».proof.Proof.LibRowOps
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

/-- The 32-bit word of a number below `2 ^ 31`, read signed, is that number. -/
theorem toInt_ofNat_small (g : Nat) (hg : g < 2 ^ 31) : (BitVec.ofNat 32 g).toInt = (g : Int) := by
  rw [BitVec.toInt_eq_toNat_cond, BitVec.toNat_ofNat]
  have hm : g % 2 ^ 32 = g := Nat.mod_eq_of_lt (by omega)
  rw [hm, if_pos (by omega)]

/-- A word equals the 32-bit word of a row number below `2 ^ 31` exactly when, read signed, it is that number. -/
theorem ofNat_eq_iff_toInt (g : Nat) (hg : g < 2 ^ 31) (w : BitVec 32) : BitVec.ofNat 32 g = w ↔ w.toInt = (g : Int) := by
  constructor
  · rintro rfl
    exact toInt_ofNat_small g hg
  · intro h
    apply BitVec.eq_of_toInt_eq
    rw [h]
    exact toInt_ofNat_small g hg

/-- An integer comparison of two arrays reads, at an index, the comparison of the entries there. -/
theorem cmpi_apply {s : Shape} {w : Nat} (p : CmpIPredicate) (a c : IVec s w) (i : s.Idx) :
    cmpi p a c i = IntOp.cmpi p (a i) (c i) := rfl

/-- The equality comparison of two words is the bit one exactly when they are equal. -/
theorem cmpi_eq_one_iff {w : Nat} (a c : BitVec w) : IntOp.cmpi .eq a c = 1#1 ↔ a = c := by
  show BitVec.ofBool (a == c) = 1#1 ↔ a = c
  by_cases h : a = c
  · subst h
    simp
  · have hb : (a == c) = false := beq_eq_false_iff_ne.mpr h
    rw [hb]
    exact ⟨fun hc => absurd hc (by decide), fun hc => absurd hc h⟩

/-- A signed word converted to a float is, at the ideal values, the integer it denotes. -/
theorem sitofp_ideal {w : Nat} (φ : FTy) (v : BitVec w) : FloatOps.sitofp (F := Ideal) φ v = ((v.toInt : ℝ) : EReal) := rfl

/-- The single-precision pattern of one denotes one. -/
theorem ofBits_one_f32 : Ideal.ofBits .f32 0x3F800000#32 = 1 := by
  simp [Ideal.ofBits, Ideal.ieee, -EReal.coe_mul]; norm_num

/-- The bfloat16 pattern of one denotes one. -/
theorem ofBits_one_bf16 : Ideal.ofBits .bf16 0x3F80#16 = 1 := by
  simp [Ideal.ofBits, Ideal.ieee, -EReal.coe_mul]; norm_num

/-- The one-hot matrix at `(g, j)`: one when node `j`'s graph id is `g`, else zero. -/
theorem pay3_apply (b : Vec Ideal S1x2048 .i32) (g : Fin 1024) (j : Fin 2048) :
    k4_pay3 (F := Ideal) b (ix2 g j) = if (b (ix2 (0 : Fin 1) j)).toInt = (g.val : Int) then (1 : EReal) else 0 := by
  unfold k4_pay3
  rw [truncf_apply, sitofp_apply, extui_apply, cmpi_apply, Cert.Lib.broadcastTo_a1_ab_apply, Cert.Lib.broadcastTo_row_apply,
    shapeCast_self, iota_single_apply, sitofp_ideal]
  show ((((IntOp.cmpi .eq (BitVec.ofNat 32 g.val) (b (ix2 (0 : Fin 1) j))).setWidth 32).toInt : ℝ) : EReal) = _
  by_cases h : (b (ix2 (0 : Fin 1) j)).toInt = (g.val : Int)
  · rw [if_pos h, (cmpi_eq_one_iff _ _).mpr ((ofNat_eq_iff_toInt g.val (by have := g.isLt; omega) _).mpr h)]
    show (((1 : Int) : ℝ) : EReal) = 1
    simp
  · have h0 : IntOp.cmpi .eq (BitVec.ofNat 32 g.val) (b (ix2 (0 : Fin 1) j)) = 0#1 :=
      eq_zero_of_ne_one fun hc => h ((ofNat_eq_iff_toInt g.val (by have := g.isLt; omega) _).mp ((cmpi_eq_one_iff _ _).mp hc))
    rw [if_neg h, h0]
    show (((0 : Int) : ℝ) : EReal) = 0
    simp

/-- The zero fill of the running sum. -/
theorem pay1_apply (i : S1024x32.Idx) : (k4_pay1 (F := Ideal)) i = 0 := by
  unfold k4_pay1
  rw [shapeCast_self, broadcast_apply]
  exact Ideal.ofBits_zero_f32

/-- The zero fill of the running count. -/
theorem pay2_apply (i : S1024x1.Idx) : (k4_pay2 (F := Ideal)) i = 0 := by
  unfold k4_pay2
  rw [shapeCast_self, broadcast_apply]
  exact Ideal.ofBits_zero_f32

/-- One tile's update of the running sum, at `(g, k)`: the entry plus the column-`k` entries of the tile's nodes of graph `g`. -/
theorem pay4_apply (b : Vec Ideal S1x2048 .i32) (x : Vec Ideal S2048x32 .f32) (s : Vec Ideal S1024x32 .f32) (g : Fin 1024) (k : Fin 32) :
    k4_pay4 (F := Ideal) b x s (ix2 g k)
      = s (ix2 g k) + ∑ j : Fin 2048, if (b (ix2 (0 : Fin 1) j)).toInt = (g.val : Int) then x (ix2 j k) else 0 := by
  unfold k4_pay4
  rw [shapeCast_self, addf_apply]
  refine congrArg (s (ix2 g k) + ·) ((Cert.Lib.matmul_plain_zero_apply 1024 2048 32 none (k4_pay3 (F := Ideal) b)
    (truncf .bf16 (shapeCast S2048x32 x shapeCasts_S2048x32_S2048x32) bitsLt_bf16_f32) (ix2 g k)).trans ?_)
  refine Finset.sum_congr rfl fun j _ => ?_
  show k4_pay3 (F := Ideal) b (ix2 g j) * (truncf .bf16 (shapeCast S2048x32 x shapeCasts_S2048x32_S2048x32) bitsLt_bf16_f32) (ix2 j k) = _
  rw [pay3_apply, truncf_apply, shapeCast_self, ite_mul, one_mul, zero_mul]

/-- One tile's update of the running count, at row `g`: the entry plus the number of the tile's nodes of graph `g`. -/
theorem pay5_apply (b : Vec Ideal S1x2048 .i32) (n : Vec Ideal S1024x1 .f32) (g : Fin 1024) (u : Fin 1) :
    k4_pay5 (F := Ideal) b n (ix2 g u)
      = n (ix2 g u) + ∑ j : Fin 2048, if (b (ix2 (0 : Fin 1) j)).toInt = (g.val : Int) then (1 : EReal) else 0 := by
  unfold k4_pay5
  rw [shapeCast_self, addf_apply]
  refine congrArg (n (ix2 g u) + ·) ((Cert.Lib.matmul_plain_zero_apply 1024 2048 1 none (k4_pay3 (F := Ideal) b)
    (broadcast S2048x1 (Scalar.ofBits (F := Ideal) .bf16 0x3F80#16)) (ix2 g u)).trans ?_)
  refine Finset.sum_congr rfl fun j _ => ?_
  show k4_pay3 (F := Ideal) b (ix2 g j) * Ideal.ofBits .bf16 0x3F80#16 = _
  rw [pay3_apply, ofBits_one_bf16, mul_one]

/-- The last tile's store, at `(g, k)`: the running sum's entry over the running count's, the count capped below by one. -/
theorem pay6_apply (n : Vec Ideal S1024x1 .f32) (s : Vec Ideal S1024x32 .f32) (g : Fin 1024) (k : Fin 32) :
    k4_pay6 (F := Ideal) n s (ix2 g k) = Ideal.div (s (ix2 g k)) (max (n (ix2 g (0 : Fin 1))) 1) := by
  unfold k4_pay6
  rw [divf_apply, Cert.Lib.broadcastTo_a1_ab_apply, maximumf_apply, broadcast_apply]
  show Ideal.div (s (ix2 g k)) (max (n (ix2 g (0 : Fin 1))) (Ideal.ofBits .f32 0x3F800000#32)) = _
  rw [ofBits_one_f32]

end Cert.KernelIdeal.Val

end
-- ==== Proof.Pool.lean ====
/-
  The mean pool over graphs, as one function of the node features and the graph ids.

  Node `n` belongs to graph `g` when its id, read as a signed integer, is `g`; an id outside `0 … G-1` belongs to no
  graph. The pooled row of graph `g` is the sum of its nodes' feature rows divided by the number of its nodes, the
  divisor capped below by one (an empty graph's row is a zero sum over one).
-/
import Idealize.ShloMosaic.PureOps.Ideal
import Idealize.ShloMosaic.Lib.ValueIdx

noncomputable section

namespace Cert.Pool

open Idealize.ShloMosaic Idealize.ShloMosaic.ValueIdx

/-- The sum over the nodes of graph `g` of their entry in column `k`. -/
def sumOf {N C : ℕ} (h : (⟨2, ![N, C]⟩ : Shape).Idx → EReal) (bn : Fin N → BitVec 32) (g : ℕ) (k : Fin C) : EReal :=
  ∑ n : Fin N, if (bn n).toInt = (g : Int) then h (ix2 n k) else 0

/-- The number of nodes of graph `g`, as an extended real. -/
def cntOf {N : ℕ} (bn : Fin N → BitVec 32) (g : ℕ) : EReal :=
  ∑ n : Fin N, if (bn n).toInt = (g : Int) then (1 : EReal) else 0

/-- THE MEAN POOL: row `g`, column `k` is the graph's column sum over its node count capped below by one. -/
def poolOf {N G C : ℕ} (h : (⟨2, ![N, C]⟩ : Shape).Idx → EReal) (bn : Fin N → BitVec 32) :
    (⟨2, ![G, C]⟩ : Shape).Idx → EReal :=
  fun i => Ideal.div (sumOf h bn (i 0).val (i 1)) (max (cntOf bn (i 0).val) 1)

theorem poolOf_apply {N G C : ℕ} (h : (⟨2, ![N, C]⟩ : Shape).Idx → EReal) (bn : Fin N → BitVec 32) (g : Fin G) (k : Fin C) :
    poolOf (G := G) h bn (ix2 g k) = Ideal.div (sumOf h bn g.val k) (max (cntOf bn g.val) 1) := rfl

end Cert.Pool

end
-- ==== Proof.KIVal4.lean ====
/-
  What region 4 leaves in its output array: the mean pool of the feature rows over the graph ids. The running sum and count after tile `t` are the sums over the first `2048 (t + 1)` nodes (an induction over the tiles, one tile's update being `pay4_apply` / `pay5_apply` with the tile's rows read off the arrays); the output block is the whole array and is written back once, at the last tile, holding sum over capped count.
-/
import proofs.«426532_j29326036697815_1_alg».proof.Proof.KIReg4
import proofs.«426532_j29326036697815_1_alg».proof.Proof.KIPay4
import proofs.«426532_j29326036697815_1_alg».proof.Proof.Pool
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the core's buffer contents when the region is entered, at the ideal values
variable (V : (c : Dev nD) → (b : Ref sig .tc) → Buf (Elt Ideal) ((c : Thread nD τ).loc b))

/-! ## The tiles' rows, read off the arrays -/

/-- The windows' index maps, decided over the grid: tile `t` of the features is block `(t, 0)`, of the ids' row block `(0, t)`, and the output's block is always `(0, 0)`. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = t.val
    ∧ win4_2.index t (0 : Fin 2) = 0 ∧ win4_2.index t (1 : Fin 2) = 0 :=
  (by decide +kernel : ∀ t : Fin grid4.N, _)

/-- Row `j` of tile `t` of the features is row `2048 t + j` of the feature array. -/
theorem iblk4_0_apply (c : Dev nD) (t : Fin cfg4.N) (j : Fin 2048) (k : Fin 32) (h : 2048 * t.val + j.val < 262144) :
    iblk4 V c 0 t (ix2 j k) = V c main_v61 (ix2 ⟨2048 * t.val + j.val, h⟩ k) := by
  unfold iblk4
  rw [View.read_apply]
  show V c main_v61 (((cfg4.win 0).blk t).view.emb (ix2 j k)) = _
  obtain ⟨e0, e1, e2, e3, e4, e5⟩ := idx_facts4 t
  have he : ((cfg4.win 0).blk t).view.emb (ix2 j k) = ix2 ⟨2048 * t.val + j.val, h⟩ k := by
    funext a; apply Fin.ext
    match a with
    | ⟨0, _⟩ => show win4_0.index t (0 : Fin 2) * 2048 + 1 * j.val = 2048 * t.val + j.val; omega
    | ⟨1, _⟩ => show win4_0.index t (1 : Fin 2) * 32 + 1 * k.val = k.val; omega
  rw [he]

/-- Entry `j` of tile `t` of the ids' row is entry `2048 t + j` of the row. -/
theorem iblk4_1_apply (c : Dev nD) (t : Fin cfg4.N) (j : Fin 2048) (h : 2048 * t.val + j.val < 262144) :
    iblk4 V c 1 t (ix2 (0 : Fin 1) j) = V c main_v62 (ix2 (0 : Fin 1) ⟨2048 * t.val + j.val, h⟩) := by
  unfold iblk4
  rw [View.read_apply]
  show V c main_v62 (((cfg4.win 1).blk t).view.emb (ix2 (0 : Fin 1) j)) = _
  obtain ⟨e0, e1, e2, e3, e4, e5⟩ := idx_facts4 t
  have he : ((cfg4.win 1).blk t).view.emb (ix2 (0 : Fin 1) j) = ix2 (0 : Fin 1) ⟨2048 * t.val + j.val, h⟩ := by
    funext a; apply Fin.ext
    match a with
    | ⟨0, _⟩ => show win4_1.index t (0 : Fin 2) * 1 + 1 * (0 : Fin 1).val = (0 : Fin 1).val; omega
    | ⟨1, _⟩ => show win4_1.index t (1 : Fin 2) * 2048 + 1 * j.val = 2048 * t.val + j.val; omega
  rw [he]

/-! ## The running sum and count after each tile -/

/-- Node `m`'s addend to entry `(g, k)` of the sum: its column-`k` entry when its id is `g`, zero otherwise (and zero past the last node). -/
def addS (c : Dev nD) (g : Fin 1024) (k : Fin 32) (m : ℕ) : EReal :=
  if h : m < 262144 then (if (V c main_v62 (ix2 (0 : Fin 1) ⟨m, h⟩)).toInt = (g.val : Int) then V c main_v61 (ix2 ⟨m, h⟩ k) else 0) else 0

/-- Node `m`'s addend to row `g` of the count: one when its id is `g`, zero otherwise (and zero past the last node). -/
def addC (c : Dev nD) (g : Fin 1024) (m : ℕ) : EReal :=
  if h : m < 262144 then (if (V c main_v62 (ix2 (0 : Fin 1) ⟨m, h⟩)).toInt = (g.val : Int) then (1 : EReal) else 0) else 0

/-- What tile `t` adds to entry `(g, k)` of the sum is the addends of nodes `2048 t … 2048 t + 2047`. -/
theorem tileS (c : Dev nD) (t : Fin cfg4.N) (b : Vec Ideal S1x2048 .i32) (x : Vec Ideal S2048x32 .f32)
    (hb : b = iblk4 V c 1 t) (hx : x = iblk4 V c 0 t) (g : Fin 1024) (k : Fin 32) :
    (∑ j : Fin 2048, if (b (ix2 (0 : Fin 1) j)).toInt = (g.val : Int) then x (ix2 j k) else 0)
      = ∑ y ∈ Finset.range 2048, addS V c g k (2048 * t.val + y) := by
  subst hb hx
  rw [Finset.sum_range]
  refine Finset.sum_congr rfl fun j _ => ?_
  have ht : t.val < 128 := t.isLt
  have hj : j.val < 2048 := j.isLt
  have h : 2048 * t.val + j.val < 262144 := by omega
  rw [iblk4_0_apply V c t j k h, iblk4_1_apply V c t j h]
  unfold addS
  rw [dif_pos h]

/-- What tile `t` adds to row `g` of the count is the addends of nodes `2048 t … 2048 t + 2047`. -/
theorem tileC (c : Dev nD) (t : Fin cfg4.N) (b : Vec Ideal S1x2048 .i32) (hb : b = iblk4 V c 1 t) (g : Fin 1024) :
    (∑ j : Fin 2048, if (b (ix2 (0 : Fin 1) j)).toInt = (g.val : Int) then (1 : EReal) else 0)
      = ∑ y ∈ Finset.range 2048, addC V c g (2048 * t.val + y) := by
  subst hb
  rw [Finset.sum_range]
  refine Finset.sum_congr rfl fun j _ => ?_
  have ht : t.val < 128 := t.isLt
  have hj : j.val < 2048 := j.isLt
  have h : 2048 * t.val + j.val < 262144 := by omega
  rw [iblk4_1_apply V c t j h]
  unfold addC
  rw [dif_pos h]

/-- THE INVARIANT, the sum: after tile `n` entry `(g, k)` is the addends of the first `2048 (n + 1)` nodes. -/
theorem invS (c : Dev nD) (g : Fin 1024) (k : Fin 32) : ∀ (n : ℕ) (hn : n < cfg4.N),
    (scAt4 V c n hn).1 (ix2 g k) = ∑ m ∈ Finset.range (2048 * (n + 1)), addS V c g k m
  | 0, hn => by
    rw [scAt4_zero]
    show k4_pay4 (F := Ideal) (iblk4 V c 1 ⟨0, hn⟩) (iblk4 V c 0 ⟨0, hn⟩) (k4_pay1 (F := Ideal)) (ix2 g k) = _
    rw [pay4_apply, pay1_apply, zero_add, tileS V c ⟨0, hn⟩ (iblk4 V c 1 ⟨0, hn⟩) (iblk4 V c 0 ⟨0, hn⟩) rfl rfl g k]
    show ∑ y ∈ Finset.range 2048, addS V c g k (2048 * 0 + y) = ∑ m ∈ Finset.range (2048 * (0 + 1)), addS V c g k m
    refine Finset.sum_congr rfl fun y _ => ?_
    rw [Nat.mul_zero, Nat.zero_add]
  | n + 1, hn => by
    rw [scAt4_succ]
    show k4_pay4 (F := Ideal) (iblk4 V c 1 ⟨n + 1, hn⟩) (iblk4 V c 0 ⟨n + 1, hn⟩) (scAt4 V c n (Nat.lt_of_succ_lt hn)).1 (ix2 g k) = _
    rw [pay4_apply, invS c g k n (Nat.lt_of_succ_lt hn),
      tileS V c ⟨n + 1, hn⟩ (iblk4 V c 1 ⟨n + 1, hn⟩) (iblk4 V c 0 ⟨n + 1, hn⟩) rfl rfl g k]
    show _ + ∑ y ∈ Finset.range 2048, addS V c g k (2048 * (n + 1) + y) = _
    rw [show 2048 * (n + 1 + 1) = 2048 * (n + 1) + 2048 from by omega, Finset.sum_range_add]

/-- THE INVARIANT, the count: after tile `n` row `g` is the addends of the first `2048 (n + 1)` nodes. -/
theorem invC (c : Dev nD) (g : Fin 1024) (u : Fin 1) : ∀ (n : ℕ) (hn : n < cfg4.N),
    (scAt4 V c n hn).2 (ix2 g u) = ∑ m ∈ Finset.range (2048 * (n + 1)), addC V c g m
  | 0, hn => by
    rw [scAt4_zero]
    show k4_pay5 (F := Ideal) (iblk4 V c 1 ⟨0, hn⟩) (k4_pay2 (F := Ideal)) (ix2 g u) = _
    rw [pay5_apply, pay2_apply, zero_add, tileC V c ⟨0, hn⟩ (iblk4 V c 1 ⟨0, hn⟩) rfl g]
    show ∑ y ∈ Finset.range 2048, addC V c g (2048 * 0 + y) = ∑ m ∈ Finset.range (2048 * (0 + 1)), addC V c g m
    refine Finset.sum_congr rfl fun y _ => ?_
    rw [Nat.mul_zero, Nat.zero_add]
  | n + 1, hn => by
    rw [scAt4_succ]
    show k4_pay5 (F := Ideal) (iblk4 V c 1 ⟨n + 1, hn⟩) (scAt4 V c n (Nat.lt_of_succ_lt hn)).2 (ix2 g u) = _
    rw [pay5_apply, invC c g u n (Nat.lt_of_succ_lt hn), tileC V c ⟨n + 1, hn⟩ (iblk4 V c 1 ⟨n + 1, hn⟩) rfl g]
    show _ + ∑ y ∈ Finset.range 2048, addC V c g (2048 * (n + 1) + y) = _
    rw [show 2048 * (n + 1 + 1) = 2048 * (n + 1) + 2048 from by omega, Finset.sum_range_add]

/-! ## The array the region leaves -/

/-- The addends of all the nodes sum to the graph's column sum. -/
theorem sumS_all (c : Dev nD) (g : Fin 1024) (k : Fin 32) :
    ∑ m ∈ Finset.range 262144, addS V c g k m
      = Cert.Pool.sumOf (N := 262144) (C := 32) (V c main_v61) (fun n => V c main_v62 (ix2 (0 : Fin 1) n)) g.val k := by
  rw [Finset.sum_range]
  unfold Cert.Pool.sumOf
  refine Finset.sum_congr rfl fun i _ => ?_
  unfold addS
  rw [dif_pos i.isLt]

/-- The addends of all the nodes sum to the graph's node count. -/
theorem sumC_all (c : Dev nD) (g : Fin 1024) :
    ∑ m ∈ Finset.range 262144, addC V c g m
      = Cert.Pool.cntOf (N := 262144) (fun n => V c main_v62 (ix2 (0 : Fin 1) n)) g.val := by
  rw [Finset.sum_range]
  unfold Cert.Pool.cntOf
  refine Finset.sum_congr rfl fun i _ => ?_
  unfold addC
  rw [dif_pos i.isLt]

/-- The output's block is the whole array: an element of it sits in the array at its own place. -/
theorem emb4_2 (t : Fin cfg4.N) (g : Fin 1024) (k : Fin 32) :
    ((cfg4.win 2).blk t).view.emb (ix2 g k) = ix2 g k := by
  obtain ⟨e0, e1, e2, e3, e4, e5⟩ := idx_facts4 t
  funext a; apply Fin.ext
  match a with
  | ⟨0, _⟩ => show win4_2.index t (0 : Fin 2) * 1024 + 1 * g.val = g.val; omega
  | ⟨1, _⟩ => show win4_2.index t (1 : Fin 2) * 32 + 1 * k.val = k.val; omega

/-- The output's block of an array, read at an index, is the array there. -/
theorem read4_2 (t : Fin cfg4.N) (P : S1024x32.Idx → EReal) (g : Fin 1024) (k : Fin 32) :
    ((cfg4.win 2).blk t).view.read (Elt Ideal) P (ix2 g k) = P (ix2 g k) := by
  rw [View.read_apply]
  show P (((cfg4.win 2).blk t).view.emb (ix2 g k)) = _
  rw [emb4_2]

/-- At the last tile the stored entry `(g, k)` is the mean pool's. -/
theorem out4_2_last (c : Dev nD) (t : Fin cfg4.N) (h127 : t.val = 127) (g : Fin 1024) (k : Fin 32) :
    k4_pay6 (F := Ideal) (scAt4 V c t.val t.isLt).2 (scAt4 V c t.val t.isLt).1 (ix2 g k)
      = Cert.Pool.poolOf (N := 262144) (G := 1024) (C := 32) (V c main_v61) (fun n => V c main_v62 (ix2 (0 : Fin 1) n)) (ix2 g k) := by
  rw [pay6_apply, invS V c g k t.val t.isLt, invC V c g (0 : Fin 1) t.val t.isLt, h127, Cert.Pool.poolOf_apply]
  show Ideal.div (∑ m ∈ Finset.range 262144, addS V c g k m) (max (∑ m ∈ Finset.range 262144, addC V c g m) 1) = _
  rw [sumS_all, sumC_all]

/-- WHAT THE LAST TILE WRITES BACK is the mean pool, whole. -/
theorem flushed4_2 (c : Dev nD) (t : Fin cfg4.N) (hf : (cfg4.win 2).flush t = true) :
    (dat4 V c).flushed 2 t = ((cfg4.win 2).blk t).view.read (Elt Ideal)
      (fun i => Cert.Pool.poolOf (N := 262144) (G := 1024) (C := 32) (V c main_v61) (fun n => V c main_v62 (ix2 (0 : Fin 1) n)) i) := by
  have h127 : t.val = 127 := by
    have h1 := (flush4_2 t).mp hf
    have h2 : t.val < 128 := t.isLt
    omega
  show (cfg4.win 2).cut (grid4.coords t) ((dat4 V c).after 2 t) = _
  rw [after4_2]
  unfold out4_2
  funext y
  obtain ⟨g, k, rfl⟩ : ∃ (g : Fin 1024) (k : Fin 32), y = ix2 g k := ⟨y 0, y 1, @eq_ix2 1024 32 y⟩
  rw [read4_2]
  exact out4_2_last V c t h127 g k

/-- THE ARRAY after region 4: the mean pool of the feature array over the graph ids' row, as the region finds them. -/
theorem final4 (c : Dev nD) :
    (dat4 V c).arrAt 2 cfg4.N
      = (fun i => Cert.Pool.poolOf (N := 262144) (G := 1024) (C := 32) (V c main_v61) (fun n => V c main_v62 (ix2 (0 : Fin 1) n)) i) := by
  refine (dat4 V c).arrAt_eq_of_cover 2 _ (fun t ht => flushed4_2 V c t ht) (fun i => ?_)
  have h127 : 127 < cfg4.N := by decide
  refine ⟨⟨127, h127⟩, (flush4_2 _).mpr rfl, ?_⟩
  have cov : ∀ y : S1024x32.Idx, y ∈ ((cfg4.win 2).blk ⟨127, h127⟩).view.set := by
    intro y
    obtain ⟨g, k, rfl⟩ : ∃ (g : Fin 1024) (k : Fin 32), y = ix2 g k := ⟨y 0, y 1, eq_ix2 y⟩
    have h := ((cfg4.win 2).blk ⟨127, h127⟩).view.emb_mem_set (ix2 g k)
    rwa [emb4_2] at h
  exact cov i

end Cert.KernelIdeal.Val

end
-- ==== Proof.Spec.lean ====
/-
  The network's output as one function of its inputs, at the ideal values, with the two steps both programs take by
  the same host operations left as parameters: `agg`, the normalised neighbourhood sum of a feature array (gather the
  source rows, scale by the edge weights, scatter-add into the destination rows), and `tail`, the final linear layer.
  Two layers of "project, aggregate, add the bias row, take the positive part", then the mean pool over graphs, then
  the tail.
-/
import proofs.«426532_j29326036697815_1_alg».proof.Proof.LibRowOps
import proofs.«426532_j29326036697815_1_alg».proof.Proof.Pool

noncomputable section

namespace Cert.Spec

open Idealize.ShloMosaic Idealize.ShloMosaic.ValueIdx

abbrev Feat (N C : ℕ) : Type := (⟨2, ![N, C]⟩ : Shape).Idx → EReal

/-- One layer: every row against the weight matrix, the aggregation, the bias row, the positive part. -/
def layer {N K C : ℕ} (agg : Feat N C → Feat N C) (h : Feat N K) (W : Feat K C) (brow : Feat 1 C) : Feat N C :=
  Cert.Lib.reluArr (agg (Cert.Lib.projArr h W)) brow 0

/-- THE OUTPUT: two layers, the mean pool over the graph ids, the tail. -/
def out {N K C G : ℕ} {β : Type} (agg : Feat N C → Feat N C) (tail : Feat G C → β)
    (x : Feat N K) (W1 : Feat K C) (b1 : Feat 1 C) (W2 : Feat C C) (b2 : Feat 1 C) (bn : Fin N → BitVec 32) : β :=
  tail (Cert.Pool.poolOf (G := G) (layer agg (layer agg x W1 b1) W2 b2) bn)

end Cert.Spec

end
-- ==== Proof.KIOut.lean ====
/-
  What @main's result buffer holds at the end of the run, as one function of the arguments, at the ideal values.

  The fold of the run's boundaries is read from its end: the result buffer is the tail of region 4's output array;
  that array is the mean pool of region 3's output array over the graph ids' row; region 3's output is the bias and
  positive part of the aggregation of region 2's output; region 2's output is the rows of region 1's output against
  the second weight matrix; region 1's output is the bias and positive part of the aggregation of region 0's output;
  and region 0's output is the rows of the input features against the first weight matrix. Composed, this is the
  network's output on the launch contents of the arguments.
-/
import proofs.«426532_j29326036697815_1_alg».proof.Proof.KIGlue
import proofs.«426532_j29326036697815_1_alg».proof.Proof.KIVal0
import proofs.«426532_j29326036697815_1_alg».proof.Proof.KIVal1
import proofs.«426532_j29326036697815_1_alg».proof.Proof.KIVal2
import proofs.«426532_j29326036697815_1_alg».proof.Proof.KIVal3
import proofs.«426532_j29326036697815_1_alg».proof.Proof.KIVal4
import proofs.«426532_j29326036697815_1_alg».proof.Proof.Spec

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- Region 0 leaves the rows of the input features against the first weight matrix. -/
theorem out0 :
    (W4 m c (Proc.devRef .tc main_v30) : FVec Ideal S262144x32 .f32)
      = Cert.Lib.projArr (M := 262144) (K := 10) (N := 32)
          (m ((c.tc : Thread nD τ).loc main_arg0)) (m ((c.tc : Thread nD τ).loc main_arg3)) := by
  refine (W4_arr m c 2).trans ((final0 (V3 m) c).trans ?_)
  show Cert.Lib.projArr (M := 262144) (K := 10) (N := 32) (W3 m c (Proc.devRef .tc main_arg0)) (W3 m c (Proc.devRef .tc main_arg3)) = _
  rw [W3_x, W3_w1]

/-- Region 1 leaves the first layer. -/
theorem out1 :
    (W6 m c (Proc.devRef .tc main_v45) : FVec Ideal S262144x32 .f32)
      = Cert.Spec.layer (N := 262144) (K := 10) (C := 32) (fun y => aggK (F := Ideal) y (m ((c.tc : Thread nD τ).loc main_arg1)))
          (m ((c.tc : Thread nD τ).loc main_arg0)) (m ((c.tc : Thread nD τ).loc main_arg3))
          (shapeCast S1x32 (m ((c.tc : Thread nD τ).loc main_arg4) : FVec Ideal S32 .f32) shapeCasts_S32_S1x32) := by
  refine (W6_arr m c 2).trans ((final1 (V5 m) c).trans ?_)
  show Cert.Lib.reluArr (M := 262144) (K := 32) (W5 m c (Proc.devRef .tc main_v43)) (W5 m c (Proc.devRef .tc main_v44)) 0 = _
  rw [W5_agg, W5_b1, out0]
  rfl

/-- Region 2 leaves the first layer's rows against the second weight matrix. -/
theorem out2 :
    (W7 m c (Proc.devRef .tc main_v46) : FVec Ideal S262144x32 .f32)
      = Cert.Lib.projArr (M := 262144) (K := 32) (N := 32) (W6 m c (Proc.devRef .tc main_v45))
          (m ((c.tc : Thread nD τ).loc main_arg5)) := by
  refine (W7_arr m c 2).trans ((final2 (V6 m) c).trans ?_)
  show Cert.Lib.projArr (M := 262144) (K := 32) (N := 32) (W6 m c (Proc.devRef .tc main_v45)) (W6 m c (Proc.devRef .tc main_arg5)) = _
  rw [W6_w2]

/-- Region 3 leaves the second layer. -/
theorem out3 :
    (W9 m c (Proc.devRef .tc main_v61) : FVec Ideal S262144x32 .f32)
      = Cert.Spec.layer (N := 262144) (K := 32) (C := 32) (fun y => aggK (F := Ideal) y (m ((c.tc : Thread nD τ).loc main_arg1)))
          (W6 m c (Proc.devRef .tc main_v45)) (m ((c.tc : Thread nD τ).loc main_arg5))
          (shapeCast S1x32 (m ((c.tc : Thread nD τ).loc main_arg6) : FVec Ideal S32 .f32) shapeCasts_S32_S1x32) := by
  refine (W9_arr m c 2).trans ((final3 (V8 m) c).trans ?_)
  show Cert.Lib.reluArr (M := 262144) (K := 32) (W8 m c (Proc.devRef .tc main_v59)) (W8 m c (Proc.devRef .tc main_v60)) 0 = _
  rw [W8_agg, W8_b2, out2]
  rfl

/-- The graph ids' row at region 4's entry reads the graph ids. -/
theorem batch_row (n : Fin 262144) :
    (W10 m c (Proc.devRef .tc main_v62) : IVec S1x262144 32) (ix2 (0 : Fin 1) n)
      = (m ((c.tc : Thread nD τ).loc main_arg2) : IVec S262144 32) (ix1 n) := by
  refine (congrFun (W10_batch m c) (ix2 (0 : Fin 1) n)).trans ?_
  exact shapeCast_apply _ shapeCasts_S262144_S1x262144 _ _ (by
    rw [Shape.rowMajor_val_two, Shape.rowMajor_val_one]
    show n.val = 0 * 262144 + n.val
    omega)

/-- Region 4 leaves the mean pool of region 3's output over the graph ids. -/
theorem out4 :
    (W11 m c (Proc.devRef .tc main_v63) : FVec Ideal S1024x32 .f32)
      = Cert.Pool.poolOf (N := 262144) (G := 1024) (C := 32) (W9 m c (Proc.devRef .tc main_v61))
          (fun n => (m ((c.tc : Thread nD τ).loc main_arg2) : IVec S262144 32) (ix1 n)) := by
  refine (W11_arr m c 2).trans ((final4 (V10 m) c).trans ?_)
  show Cert.Pool.poolOf (N := 262144) (G := 1024) (C := 32) (W10 m c (Proc.devRef .tc main_v61))
      (fun n => (W10 m c (Proc.devRef .tc main_v62) : IVec S1x262144 32) (ix2 (0 : Fin 1) n)) = _
  rw [W10_feat, funext (batch_row m c)]

/-- THE RESULT of the kernel program: the network's output on the launch contents of its arguments. -/
theorem kernel_value :
    (W12 m c (Proc.devRef .tc main_v68) : FVec Ideal S1024 .f32)
      = Cert.Spec.out (N := 262144) (K := 10) (C := 32) (G := 1024)
          (fun y => aggK (F := Ideal) y (m ((c.tc : Thread nD τ).loc main_arg1)))
          (fun p => tailK (F := Ideal) p (m ((c.tc : Thread nD τ).loc main_arg7)) (m ((c.tc : Thread nD τ).loc main_arg8)))
          (m ((c.tc : Thread nD τ).loc main_arg0)) (m ((c.tc : Thread nD τ).loc main_arg3))
          (shapeCast S1x32 (m ((c.tc : Thread nD τ).loc main_arg4) : FVec Ideal S32 .f32) shapeCasts_S32_S1x32)
          (m ((c.tc : Thread nD τ).loc main_arg5))
          (shapeCast S1x32 (m ((c.tc : Thread nD τ).loc main_arg6) : FVec Ideal S32 .f32) shapeCasts_S32_S1x32)
          (fun n => (m ((c.tc : Thread nD τ).loc main_arg2) : IVec S262144 32) (ix1 n)) := by
  rw [W12_out, out4, out3, out1]
  rfl

end Cert.KernelIdeal.Val

end
-- ==== Proof.LibScatterRows.lean ====
import Idealize.ShloMosaic.PureOps.Ideal
import Idealize.ShloMosaic.Lib.ValueIdx

/-!
# A host scatter-add of rows, read at an index

`out = operand.at[idx].add(updates)` with `operand : [R, C]`, one start row per update row (`idx : [N, 1]`, read
signed) and `updates : [N, C]`: update row `n` is added into operand row `idx n` when that row exists and is dropped
otherwise. At the ideal instance the result at `(r, c)` is the operand's entry plus the sum, over the update rows
`n` whose start row is `r`, of `updates (n, c)`. The same for vectors (`operand : [R]`, `updates : [N]`).
-/

noncomputable section

namespace Idealize.ShloMosaic.ScatterRows

open Idealize.ShloMosaic Idealize.ShloMosaic.ValueIdx

variable {R C N : Nat}

/-- The dimension numbers of a row scatter: window axis 1 of the updates onto axis 1 of the operand, axis 0 inserted
    and addressed by the one index component. -/
abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

/-- Update `(n, q)` lands on operand entry `(r, c)` exactly when its start row, read signed, is `r` and its column is
    `c`; a start row outside the operand lands nowhere. -/
theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

/-- THE ROW SCATTER-ADD AT AN INDEX: the operand's entry plus the sum over the update rows whose start row is `r`
    of their entry in column `c`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

/-! ## The same for vectors -/

/-- The dimension numbers of an entry scatter into a vector: no window axis, the operand's one axis inserted and
    addressed by the one index component. -/
abbrev dims1 (wf : ScatterDims.WF (⟨1, ![R]⟩ : Shape) ⟨2, ![N, 1]⟩ ⟨1, ![N]⟩ [] [0] [0] 1) :
    ScatterDims (⟨1, ![R]⟩ : Shape) ⟨2, ![N, 1]⟩ ⟨1, ![N]⟩ where
  updateWindowDims := []
  insertedWindowDims := [0]
  scatterDimsToOperandDims := [0]
  indexVectorDim := 1
  wf := wf

variable (wf1 : ScatterDims.WF (⟨1, ![R]⟩ : Shape) ⟨2, ![N, 1]⟩ ⟨1, ![N]⟩ [] [0] [0] 1)

theorem vstart {w : Nat} (n : Fin N) (idx : IVec ⟨2, ![N, 1]⟩ w) :
    (dims1 wf1).start (ix1 n) idx 0 = (idx (ix2 n 0)).toInt := by
  unfold ScatterDims.start
  rw [dif_pos (show (0 : Fin 1) ∈ [(0 : Fin 1)] by decide)]
  refine congrArg (fun k => (idx k).toInt) (funext fun b => Fin.ext ?_)
  match b with
  | ⟨0, _⟩ => rfl
  | ⟨1, _⟩ => rfl

theorem vwindow (n : Fin N) : (dims1 wf1).window (ix1 n) 0 = 0 := by
  have h : ¬ (0 : Fin (⟨1, ![R]⟩ : Shape).rank) ∈ (dims1 wf1).sKept :=
    (show ¬ (0 : Fin 1) ∈ (List.finRange 1).filter (· ∉ [(0 : Fin 1)]) by decide)
  unfold ScatterDims.window
  exact dif_neg h

/-- Update `n` lands on operand entry `r` exactly when its start, read signed, is `r`. -/
theorem vresultIdx_iff {w : Nat} (n : Fin N) (idx : IVec ⟨2, ![N, 1]⟩ w) (r : Fin R) :
    (dims1 wf1).resultIdx? (ix1 n) idx = some (ix1 r) ↔ (idx (ix2 n 0)).toInt = (r.val : Int) := by
  have hs0 := vstart wf1 n idx
  have hw0 := vwindow wf1 n
  have hr := r.isLt
  unfold ScatterDims.resultIdx?
  split
  · rename_i h
    rw [Option.some.injEq]
    constructor
    · intro e
      have e0 : ((dims1 wf1).start (ix1 n) idx 0 + ((dims1 wf1).window (ix1 n) 0 : Nat)).toNat = r.val :=
        congrArg (fun f : (⟨1, ![R]⟩ : Shape).Idx => (f 0).val) e
      have h0 := (h 0).1
      rw [hs0, hw0] at e0 h0
      omega
    · intro e0
      funext a
      apply Fin.ext
      match a with
      | ⟨0, _⟩ =>
        show ((dims1 wf1).start (ix1 n) idx 0 + ((dims1 wf1).window (ix1 n) 0 : Nat)).toNat = r.val
        rw [hs0, hw0, e0]; omega
  · rename_i h
    constructor
    · intro e; cases e
    · intro e0
      refine absurd (fun a => ?_) h
      match a with
      | ⟨0, _⟩ =>
        show (0 : Int) ≤ (dims1 wf1).start (ix1 n) idx 0 + ((dims1 wf1).window (ix1 n) 0 : Nat)
          ∧ (dims1 wf1).start (ix1 n) idx 0 + ((dims1 wf1).window (ix1 n) 0 : Nat) < (R : Nat)
        rw [hs0, hw0, e0]; omega

/-- A rank-1 index set is its one coordinate range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ENTRY SCATTER-ADD AT AN INDEX: the operand's entry plus the sum of the updates whose start is `r`. -/
theorem vscatterAdd_apply {w : Nat} (x : (⟨1, ![R]⟩ : Shape).Idx → EReal) (idx : IVec ⟨2, ![N, 1]⟩ w)
    (upd : (⟨1, ![N]⟩ : Shape).Idx → EReal) (r : Fin R) :
    Ideal.hostScatterAdd (dims1 wf1) x idx upd (ix1 r)
      = x (ix1 r) + ∑ n : Fin N, if (idx (ix2 n 0)).toInt = (r.val : Int) then upd (ix1 n) else 0 := by
  unfold Ideal.hostScatterAdd
  refine congrArg (x (ix1 r) + ·) ?_
  rw [Finset.sum_filter, sum_idx1]
  refine Finset.sum_congr rfl fun n _ => ?_
  simp only [vresultIdx_iff wf1]

end Idealize.ShloMosaic.ScatterRows

end
-- ==== Proof.RefSpec.lean ====
/-
  The reference program's result as one function of its arguments.

  The host program computes, in this order: the edge list extended by the self loops (sources `srcR`, destinations
  `dstR`), a gather's index column with the negative indices wrapped (`gidxR`), the edge weights
  `normR = dinv[src] * dinv[dst]` with `dinv = where(deg > 0, rsqrt deg, 0)` and `deg` the scatter-add of ones at the
  destinations, and twice the layer "project, aggregate (`aggR`: gather the source rows, scale by the edge weights,
  scatter-add into the destination rows), add the bias row, take the positive part"; then the mean pool over the
  graph ids (a scatter-add of the rows over a scatter-add of ones, the divisor capped below by one), and the final
  linear layer (`tailR`). The definitions below spell these steps with the host operations of the printed program, for
  any float values; the program's composed term is then these definitions applied to its arguments (`res_eq`).

  At the ideal values the steps other than the aggregation and the tail are read as functions of rows: the two
  projections are plain matrix products, the bias and positive part is the bias row added to every row and capped
  below by zero, and the pool is, per graph and column, the sum of the graph's rows over its node count capped below
  by one (`hostPool_eq`, proved for any sizes). The aggregation and the tail stay as the host spells them
  (`res_ideal`).
-/
import proofs.«426532_j29326036697815_1_alg».proof.Proof.RefRun
import proofs.«426532_j29326036697815_1_alg».proof.Proof.Spec
import proofs.«426532_j29326036697815_1_alg».proof.Proof.LibScatterRows
import proofs.«426532_j29326036697815_1_alg».proof.Proof.LibKeepdims

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The edge sources: row 0 of the edge list, then the self loops `0 … N-1`. -/
def srcR (ei : IVec S2x4194304 32) : IVec S4456448 32 :=
  concatenate S4456448 0 [⟨S4194304, (shapeCast _ (extractStridedSlice S1x4194304 ![0, 0] ei slices_S2x4194304_S1x4194304_0_0) shapeCasts_S1x4194304_S4194304)⟩, ⟨S262144, (iotaInDim S262144 32 0)⟩] concatenates_S4194304_S262144_S4456448_d0

/-- The edge destinations: row 1 of the edge list, then the self loops. -/
def dstR (ei : IVec S2x4194304 32) : IVec S4456448 32 :=
  concatenate S4456448 0 [⟨S4194304, (shapeCast _ (extractStridedSlice S1x4194304 ![1, 0] ei slices_S2x4194304_S1x4194304_1_0) shapeCasts_S1x4194304_S4194304)⟩, ⟨S262144, (iotaInDim S262144 32 0)⟩] concatenates_S4194304_S262144_S4456448_d0

/-- A gather's index column: a negative index wrapped around by the node count, the vector kept as a column. -/
def gidxR (s : IVec S4456448 32) : IVec S4456448x1 32 :=
  broadcastInDim S4456448x1 ![0] bcast_S4456448_S4456448x1_0 (select (cmpi .slt s (broadcastInDim S4456448 ![] bcast_S_S4456448 (constantI S_ 32 0#32))) (addi s (broadcastInDim S4456448 ![] bcast_S_S4456448 (constantI S_ 32 262144#32))) s)

/-- The node degrees: the scatter-add of ones at the destinations. -/
def degR (ei : IVec S2x4194304 32) : FVec F S262144 .f32 :=
  Host.scatterAdd scatter_S262144_S4456448x1_S4456448_n_0_0_1 (broadcastInDim S262144 ![] bcast_S_S262144 (constant S_ .f32 0x00000000#32)) (broadcastInDim S4456448x1 ![0] bcast_S4456448_S4456448x1_0 (dstR ei)) (broadcastInDim S4456448 ![] bcast_S_S4456448 (constant S_ .f32 0x3F800000#32))

/-- The inverse square roots of the positive degrees, zero elsewhere. -/
def dinvR (ei : IVec S2x4194304 32) : FVec F S262144 .f32 :=
  select (cmpf (F := F) .ogt (degR ei) (broadcastInDim S262144 ![] bcast_S_S262144 (constant S_ .f32 0x00000000#32))) (Host.rsqrt (degR ei)) (broadcastInDim S262144 ![] bcast_S_S262144 (id (constant S_ .f32 0x00000000#32)))

/-- The edge weights: the product of the two end nodes' inverse square root degrees. -/
def normR (ei : IVec S2x4194304 32) : FVec F S4456448 .f32 :=
  mulf (Host.gather gather_S262144_S4456448x1_S4456448_n_0_n_n_0_1_1 (dinvR (F := F) ei) (gidxR (srcR ei))) (Host.gather gather_S262144_S4456448x1_S4456448_n_0_n_n_0_1_1 (dinvR (F := F) ei) (gidxR (dstR ei)))

/-- The aggregation: the rows of `y` gathered at the sources, scaled by the edge weights, scatter-added at the destinations. -/
def aggR (y : FVec F S262144x32 .f32) (ei : IVec S2x4194304 32) : FVec F S262144x32 .f32 :=
  Host.scatterAdd scatter_S262144x32_S4456448x1_S4456448x32_1_0_0_1 (broadcastInDim S262144x32 ![] bcast_S_S262144x32 (constant S_ .f32 0x00000000#32)) (broadcastInDim S4456448x1 ![0] bcast_S4456448_S4456448x1_0 (dstR ei)) (mulf (Host.gather gather_S262144x32_S4456448x1_S4456448x32_1_0_n_n_0_1_132 y (gidxR (srcR ei))) (broadcastInDim S4456448x32 ![0, 1] bcast_S4456448x1_S4456448x32_0_1 (broadcastInDim S4456448x1 ![0] bcast_S4456448_S4456448x1_0 (normR (F := F) ei))))

/-- The final linear layer: the pooled rows against the weight column, plus the bias, as a vector. -/
def tailR (p : FVec F S1024x32 .f32) (Wl : FVec F S32x1 .f32) (bl : FVec F S1 .f32) : FVec F S1024 .f32 :=
  shapeCast _ (addf (Host.dotGeneral dot_S1024x32_S32x1_S1024x1_1_0_0_1_n_n none p Wl) (broadcastInDim S1024x1 ![0, 1] bcast_S1x1_S1024x1_0_1 (broadcastInDim S1x1 ![1] bcast_S1_S1x1_1 bl))) shapeCasts_S1024x1_S1024

/-- One layer as the host computes it: the rows against the weights, the aggregation, the bias row broadcast down the
    rows, the positive part against the broadcast zero. -/
def layerR (h : FVec F S262144x32 .f32) (b : FVec F S32 .f32) (ei : IVec S2x4194304 32) : FVec F S262144x32 .f32 :=
  maximumf (addf (aggR h ei) (broadcastInDim S262144x32 ![0, 1] bcast_S1x32_S262144x32_0_1 (broadcastInDim S1x32 ![1] bcast_S32_S1x32_1 b))) (broadcastInDim S262144x32 ![] bcast_S_S262144x32 (constant S_ .f32 0x00000000#32))

/-- The mean pool as the host computes it: the scatter-add of the rows at the graph ids over the scatter-add of ones
    capped below by one, the divisor kept as a column and broadcast along the rows. -/
def poolR (h : FVec F S262144x32 .f32) (batch : IVec S262144 32) : FVec F S1024x32 .f32 :=
  Host.divf (Host.scatterAdd scatter_S1024x32_S262144x1_S262144x32_1_0_0_1 (broadcastInDim S1024x32 ![] bcast_S_S1024x32 (constant S_ .f32 0x00000000#32)) (broadcastInDim S262144x1 ![0] bcast_S262144_S262144x1_0 batch) h) (broadcastInDim S1024x32 ![0, 1] bcast_S1024x1_S1024x32_0_1 (broadcastInDim S1024x1 ![0] bcast_S1024_S1024x1_0 (maximumf (Host.scatterAdd scatter_S1024_S262144x1_S262144_n_0_0_1 (broadcastInDim S1024 ![] bcast_S_S1024 (constant S_ .f32 0x00000000#32)) (broadcastInDim S262144x1 ![0] bcast_S262144_S262144x1_0 batch) (broadcastInDim S262144 ![] bcast_S_S262144 (constant S_ .f32 0x3F800000#32))) (broadcastInDim S1024 ![] bcast_S_S1024 (constant S_ .f32 0x3F800000#32)))))

/-- THE RUN'S TERM, FOLDED: the composed term of the reference's result is the tail of the pool of two layers. -/
theorem res_eq (m : (ℓ : Loc nD τ sig) → Buf (Elt F) ℓ) (c : Dev nD) :
    res_main_v82 (F := F) m c
      = tailR (poolR
          (layerR (Host.dotGeneral dot_S262144x32_S32x32_S262144x32_1_0_0_1_n_n none
              (layerR (Host.dotGeneral dot_S262144x10_S10x32_S262144x32_1_0_0_1_n_n none
                  (m ((c.tc : Thread nD τ).loc main_arg0)) (m ((c.tc : Thread nD τ).loc main_arg3)))
                (m ((c.tc : Thread nD τ).loc main_arg4)) (m ((c.tc : Thread nD τ).loc main_arg1)))
              (m ((c.tc : Thread nD τ).loc main_arg5)))
            (m ((c.tc : Thread nD τ).loc main_arg6)) (m ((c.tc : Thread nD τ).loc main_arg1)))
          (m ((c.tc : Thread nD τ).loc main_arg2)))
        (m ((c.tc : Thread nD τ).loc main_arg7)) (m ((c.tc : Thread nD τ).loc main_arg8)) := by
  rfl

/-! ## At the ideal values -/

section IdealValues

open Idealize.ShloMosaic.ValueIdx

/-- A length-32 vector can be viewed as a `[1, 32]` row. -/
theorem hsc : S32.ShapeCasts S1x32 := by decide

/-- The first projection is the plain matrix product of the rows. -/
theorem dot1_eq (x : FVec Ideal S262144x10 .f32) (W : FVec Ideal S10x32 .f32) :
    Host.dotGeneral dot_S262144x10_S10x32_S262144x32_1_0_0_1_n_n none x W = Cert.Lib.projArr x W :=
  Cert.Lib.host_dot_eq (M := 262144) (K := 10) (N := 32) none x W

/-- The second projection is the plain matrix product of the rows. -/
theorem dot2_eq (x : FVec Ideal S262144x32 .f32) (W : FVec Ideal S32x32 .f32) :
    Host.dotGeneral dot_S262144x32_S32x32_S262144x32_1_0_0_1_n_n none x W = Cert.Lib.projArr x W :=
  Cert.Lib.host_dot_eq (M := 262144) (K := 32) (N := 32) none x W

/-- One layer of the host at the ideal values: the bias row added to every aggregated row, capped below by zero. -/
theorem layerR_eq (h : FVec Ideal S262144x32 .f32) (b : FVec Ideal S32 .f32) (ei : IVec S2x4194304 32) :
    layerR (F := Ideal) h b ei = Cert.Lib.reluArr (aggR (F := Ideal) h ei) (shapeCast S1x32 b hsc) 0 := by
  unfold layerR
  rw [Cert.Lib.host_biasRelu_eq (M := 262144) (K := 32) (aggR (F := Ideal) h ei) b bcast_S1x32_S262144x32_0_1 bcast_S32_S1x32_1
    bcast_S_S262144x32 hsc 0x00000000#32, Ideal.ofBits_zero_f32]

/-- The word of the float one is one. -/
theorem ofBits_one_f32 : Ideal.ofBits .f32 0x3F800000#32 = 1 := by
  simp [Ideal.ofBits, Ideal.ieee, -EReal.coe_mul]; norm_num

/-- A vector kept as a column reads, at `(n, 0)`, the vector's entry `n`. -/
theorem column_apply {α : Type} {a : ℕ} (v : (⟨1, ![a]⟩ : Shape).Idx → α)
    (h : (⟨1, ![a]⟩ : Shape).BroadcastsInDim ⟨2, ![a, 1]⟩ ![0]) (n : Fin a) :
    broadcastInDim ⟨2, ![a, 1]⟩ ![0] h v (ix2 n (0 : Fin 1)) = v (ix1 n) :=
  broadcastInDim_apply ![0] h v (ix2 n (0 : Fin 1)) (ix1 n) (fun ax => by
    match ax with
    | ⟨0, _⟩ =>
      show n.val = if a = 1 then 0 else n.val
      split
      · have := n.isLt; omega
      · rfl)

/-- A column broadcast along the rows reads, at `(p, q)`, the column's entry of row `p`. -/
theorem columnRows_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) :=
  broadcastInDim_apply ![0, 1] h v (ix2 p q) (ix2 p (0 : Fin 1)) (fun ax => by
    match ax with
    | ⟨0, _⟩ =>
      show p.val = if a = 1 then 0 else p.val
      split
      · have := p.isLt; omega
      · rfl
    | ⟨1, _⟩ => rfl)

/-- A scalar word broadcast to any shape reads the word's value at every index. -/
theorem splat_apply {t : Shape} (h : (⟨0, ![]⟩ : Shape).BroadcastsInDim t ![]) (w : BitVec 32) (j : t.Idx) :
    broadcastInDim t ![] h (constant (F := Ideal) ⟨0, ![]⟩ .f32 w) j = Ideal.ofBits .f32 w :=
  broadcastInDim_apply ![] h _ j ix0 (fun ax => ax.elim0)

/-- THE HOST'S MEAN POOL, for any sizes: the scatter-add of the rows at the graph ids into zeros, over the scatter-add
    of ones at the graph ids into zeros capped below by one (kept as a column, broadcast along the rows), is the sum
    of the graph's rows over its node count capped below by one. -/
theorem hostPool_eq {N G C : ℕ}
    (wf2 : ScatterDims.WF (⟨2, ![G, C]⟩ : Shape) ⟨2, ![N, 1]⟩ ⟨2, ![N, C]⟩ [1] [0] [0] 1)
    (wf1 : ScatterDims.WF (⟨1, ![G]⟩ : Shape) ⟨2, ![N, 1]⟩ ⟨1, ![N]⟩ [] [0] [0] 1)
    (hz2 : (⟨0, ![]⟩ : Shape).BroadcastsInDim ⟨2, ![G, C]⟩ ![])
    (hcol : (⟨1, ![N]⟩ : Shape).BroadcastsInDim ⟨2, ![N, 1]⟩ ![0])
    (hrows : (⟨2, ![G, 1]⟩ : Shape).BroadcastsInDim ⟨2, ![G, C]⟩ ![0, 1])
    (hgcol : (⟨1, ![G]⟩ : Shape).BroadcastsInDim ⟨2, ![G, 1]⟩ ![0])
    (hz1 : (⟨0, ![]⟩ : Shape).BroadcastsInDim ⟨1, ![G]⟩ ![])
    (ho1 : (⟨0, ![]⟩ : Shape).BroadcastsInDim ⟨1, ![N]⟩ ![])
    (h : FVec Ideal ⟨2, ![N, C]⟩ .f32) (batch : IVec ⟨1, ![N]⟩ 32) :
    Host.divf
        (Host.scatterAdd (ScatterRows.dims2 wf2)
          (broadcastInDim ⟨2, ![G, C]⟩ ![] hz2 (constant ⟨0, ![]⟩ .f32 0x00000000#32))
          (broadcastInDim ⟨2, ![N, 1]⟩ ![0] hcol batch) h)
        (broadcastInDim ⟨2, ![G, C]⟩ ![0, 1] hrows (broadcastInDim ⟨2, ![G, 1]⟩ ![0] hgcol
          (maximumf
            (Host.scatterAdd (ScatterRows.dims1 wf1)
              (broadcastInDim ⟨1, ![G]⟩ ![] hz1 (constant ⟨0, ![]⟩ .f32 0x00000000#32))
              (broadcastInDim ⟨2, ![N, 1]⟩ ![0] hcol batch)
              (broadcastInDim ⟨1, ![N]⟩ ![] ho1 (constant ⟨0, ![]⟩ .f32 0x3F800000#32)))
            (broadcastInDim ⟨1, ![G]⟩ ![] hz1 (constant ⟨0, ![]⟩ .f32 0x3F800000#32)))))
      = Cert.Pool.poolOf (G := G) h (fun n => batch (ix1 n)) := by
  funext i
  obtain ⟨g, k, rfl⟩ : ∃ (g : Fin G) (k : Fin C), i = ix2 g k := ⟨i 0, i 1, eq_ix2 i⟩
  rw [Cert.Pool.poolOf_apply]
  unfold Host.divf Host.scatterAdd
  rw [Ideal.hostDivf_def, Ideal.hostScatterAdd_def, Ideal.hostScatterAdd_def]
  rw [ScatterRows.scatterAdd_apply, columnRows_apply, column_apply, maximumf_apply, ScatterRows.vscatterAdd_apply]
  rw [splat_apply, splat_apply, splat_apply, Ideal.ofBits_zero_f32, ofBits_one_f32, zero_add, zero_add]
  unfold Cert.Pool.sumOf Cert.Pool.cntOf
  congr 1
  · exact Finset.sum_congr rfl (fun n _ => by rw [column_apply])
  · congr 1
    exact Finset.sum_congr rfl (fun n _ => by rw [column_apply, splat_apply, ofBits_one_f32])

/-- The host's mean pool at the ideal values: the sum of the graph's rows over its node count capped below by one. -/
theorem poolR_eq (h : FVec Ideal S262144x32 .f32) (batch : IVec S262144 32) :
    poolR (F := Ideal) h batch
      = Cert.Pool.poolOf (N := 262144) (G := 1024) (C := 32) h (fun n => batch (ix1 n)) :=
  hostPool_eq (N := 262144) (G := 1024) (C := 32) scatter_S1024x32_S262144x1_S262144x32_1_0_0_1_wf
    scatter_S1024_S262144x1_S262144_n_0_0_1_wf bcast_S_S1024x32 bcast_S262144_S262144x1_0 bcast_S1024x1_S1024x32_0_1
    bcast_S1024_S1024x1_0 bcast_S_S1024 bcast_S_S262144 h batch

/-- THE REFERENCE'S RESULT AT THE IDEAL VALUES: two layers of "project, aggregate, add the bias row, take the positive
    part" with the aggregation `aggR` of the edge list, the mean pool over the graph ids, then the tail `tailR`. -/
theorem res_ideal (m : (ℓ : Loc nD τ sig) → Buf (Elt Ideal) ℓ) (c : Dev nD) :
    res_main_v82 (F := Ideal) m c
      = Cert.Spec.out (N := 262144) (K := 10) (C := 32) (G := 1024)
          (fun y => aggR (F := Ideal) y (m ((c.tc : Thread nD τ).loc main_arg1)))
          (fun p => tailR (F := Ideal) p (m ((c.tc : Thread nD τ).loc main_arg7)) (m ((c.tc : Thread nD τ).loc main_arg8)))
          (m ((c.tc : Thread nD τ).loc main_arg0)) (m ((c.tc : Thread nD τ).loc main_arg3))
          (shapeCast S1x32 (m ((c.tc : Thread nD τ).loc main_arg4)) hsc)
          (m ((c.tc : Thread nD τ).loc main_arg5))
          (shapeCast S1x32 (m ((c.tc : Thread nD τ).loc main_arg6)) hsc)
          (fun n => (m ((c.tc : Thread nD τ).loc main_arg2)) (ix1 n)) := by
  rw [res_eq]
  unfold Cert.Spec.out Cert.Spec.layer
  rw [dot1_eq, layerR_eq, dot2_eq, layerR_eq, poolR_eq]

end IdealValues

end Cert.ReferenceIdeal.RefValue

end
-- ==== Proof.lean ====
/-
  The certificate's proof: a two-layer graph convolution network with a mean pool over graphs, its kernel program
  against its plain reference.

  FRAMES. The kernel program is twelve items: host stretches (the edge lists with self loops, the symmetric
  normalisation, the two neighbourhood aggregations, the final linear layer) around five kernel regions (two row-block
  matrix products, two row-block "add the bias row, take the positive part", and the pool, which accumulates a one-hot
  product over 128 node tiles in two scratch buffers and stores sum over capped count at the last tile). Each region runs
  to its end from the buffers the item before left, changing only its output array; no item writes an argument. The
  same text proves it at the word level and at the ideal values. The reference is host operations only.

  VALUES. At the ideal values a change of float format is the identity, so each matrix-product region leaves "every
  row against the weight matrix", each bias region "row plus bias row, capped below by zero", and the pool region, for
  graph g and column k, the sum over the nodes whose id is g of their column-k entries over the number of such nodes
  capped below by one — a node whose id is outside 0 … 1023 belongs to no graph on either side: the kernel's one-hot
  row test never matches it, and the reference's scatter-add drops an update whose start row is outside the operand.
  Sums are regrouped by commutativity and associativity of addition on the extended reals only; no finiteness is used.
  The aggregation and the final layer are the same host operations in both programs and are carried unopened.
-/
import proofs.«426532_j29326036697815_1_alg».proof.Defs
import proofs.«426532_j29326036697815_1_alg».proof.Proof.Gen.Kernel
import proofs.«426532_j29326036697815_1_alg».proof.Proof.Gen.KernelIdeal
import proofs.«426532_j29326036697815_1_alg».proof.Proof.Gen.ReferenceIdeal
import proofs.«426532_j29326036697815_1_alg».proof.Proof.Gen.Pre_finite_inputs
import proofs.«426532_j29326036697815_1_alg».proof.Proof.KFrame
import proofs.«426532_j29326036697815_1_alg».proof.Proof.KIFrame
import proofs.«426532_j29326036697815_1_alg».proof.Proof.RefRun
import proofs.«426532_j29326036697815_1_alg».proof.Proof.KIOut
import proofs.«426532_j29326036697815_1_alg».proof.Proof.RefSpec
import Idealize.ShloMosaic.Adequacy
import Idealize.ShloMosaic.Init

noncomputable section

namespace Cert.Proof

open Idealize.ShloMosaic Idealize.ShloMosaic.TcCoe Idealize.SL.Sem

/-- The kernel program at the word level runs to its end, faults nowhere, and leaves its arguments as launched. -/
theorem frame_p : Cert.frame_Kernel := fun m ρ _ => Cert.Kernel.Hand.frame (F := Bits) m ρ

/-- The same at the ideal values. -/
theorem frame_pi : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- Both programs take the neighbourhood aggregation by the same host operations. -/
theorem agg_eq {F : FTy → Type} [FloatOps F] (y : FVec F Cert.KernelIdeal.S262144x32 .f32) (ei : IVec Cert.KernelIdeal.S2x4194304 32) :
    Cert.KernelIdeal.Val.aggK (F := F) y ei = Cert.ReferenceIdeal.RefValue.aggR (F := F) y ei := rfl

/-- And the final linear layer. -/
theorem tail_eq {F : FTy → Type} [FloatOps F] (p : FVec F Cert.KernelIdeal.S1024x32 .f32) (Wl : FVec F Cert.KernelIdeal.S32x1 .f32)
    (bl : FVec F Cert.KernelIdeal.S1 .f32) :
    Cert.KernelIdeal.Val.tailK (F := F) p Wl bl = Cert.ReferenceIdeal.RefValue.tailR (F := F) p Wl bl := rfl

/-- At the ideal values, from memories that agree on the arguments, both programs end with the same result: each is
    the tail of the mean pool of two layers of the arguments, the kernel's by the regions' values read through the run,
    the reference's by its run's term; the aggregation and the tail are the same operations on both sides. -/
theorem algebraic : Cert.algebraic_KernelIdeal_ReferenceIdeal := by
  intro m ρ m' ρ' _ hagree
  refine ⟨fun c => Cert.KernelIdeal.Hand.W12 m c (Proc.devRef .tc Cert.KernelIdeal.main_v68),
    Cert.KernelIdeal.Hand.value_run (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8⟩ := hagree c
  refine (Cert.ReferenceIdeal.RefValue.res_ideal m' c).trans ?_
  refine Eq.trans ?_ (Cert.KernelIdeal.Val.kernel_value m c).symm
  rw [e0, e1, e2, e3, e4, e5, e6, e7, e8]
  simp only [agg_eq, tail_eq]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
